-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S1024x1024 : Shape := ⟨2, ![1024, 1024]⟩
abbrev S4x16x64x64 : Shape := ⟨4, ![4, 16, 64, 64]⟩
abbrev S1x1024x1024 : Shape := ⟨3, ![1, 1024, 1024]⟩
abbrev S1x16x64x64 : Shape := ⟨4, ![1, 16, 64, 64]⟩
abbrev S16x64x64 : Shape := ⟨3, ![16, 64, 64]⟩
abbrev S1024x64 : Shape := ⟨2, ![1024, 64]⟩
abbrev S64x64 : Shape := ⟨2, ![64, 64]⟩
abbrev S1x64x64 : Shape := ⟨3, ![1, 64, 64]⟩

abbrev nBuf : Space → Nat
  | .hbm => 12
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S4x4096x1024, .bf16⟩
  | .hbm, ⟨10, _⟩ => ⟨S4x16x64x64, .f32⟩
  | .hbm, ⟨11, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x16x64x64, .f32⟩
  | .local _ .vmem, ⟨8, _⟩ => ⟨S1x16x64x64, .f32⟩
  | .local _ .vmem, ⟨9, _⟩ => ⟨S16x64x64, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x16x64x64, .f32⟩
  | .local _ .vmem, ⟨13, _⟩ => ⟨S1x16x64x64, .f32⟩
  | .local _ .vmem, ⟨14, _⟩ => ⟨S1024x1024, .bf16⟩
  | .local _ .vmem, ⟨15, _⟩ => ⟨S1x1024x1024, .f32⟩
  | .local _ .vmem, ⟨16, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v165 : BitVec 1 := Scalar.cmpi .eq arg1 c3_i32
  let v166 : BitVec 32 := Scalar.extui v165
  let c0_i32_111 : BitVec 32 := 0#32
  let v167 : BitVec 1 := Scalar.cmpi .ne v166 c0_i32_111
  v167

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S16x64x64_S16x64x64_0_0_0 : ∀ a, (![0, 0, 0] : Fin 3 → Nat) a + S16x64x64.size a ≤ S16x64x64.size a
  h_S16x64x64 : 0 < S16x64x64.numel
  shapeCasts_S16x64x64_S16x64x64 : S16x64x64.ShapeCasts S16x64x64
  slices_S1024x1024_o0_0_S1024x64 : S1024x1024.Slices ![0, 0] S1024x64
  inb_S16x64x64_S1x64x64_0_0_0 : ∀ a, (![0, 0, 0] : Fin 3 → Nat) a + S1x64x64.size a ≤ S16x64x64.size a
  h_S1x64x64 : 0 < S1x64x64.numel
  shapeCasts_S1x64x64_S64x64 : S1x64x64.ShapeCasts S64x64
  shapeCasts_S64x64_S1x64x64 : S64x64.ShapeCasts S1x64x64
  slices_S1024x1024_o0_64_S1024x64 : S1024x1024.Slices ![0, 64] S1024x64
  inb_S16x64x64_S1x64x64_1_0_0 : ∀ a, (![1, 0, 0] : Fin 3 → Nat) a + S1x64x64.size a ≤ S16x64x64.size a
  slices_S1024x1024_o0_128_S1024x64 : S1024x1024.Slices ![0, 128] S1024x64
  inb_S16x64x64_S1x64x64_2_0_0 : ∀ a, (![2, 0, 0] : Fin 3 → Nat) a + S1x64x64.size a ≤ S16x64x64.size a
  slices_S1024x1024_o0_192_S1024x64 : S1024x1024.Slices ![0, 192] S1024x64
  inb_S16x64x64_S1x64x64_3_0_0 : ∀ a, (![3, 0, 0] : Fin 3 → Nat) a + S1x64x64.size a ≤ S16x64x64.size a
  slices_S1024x1024_o0_256_S1024x64 : S1024x1024.Slices ![0, 256] S1024x64
  inb_S16x64x64_S1x64x64_4_0_0 : ∀ a, (![4, 0, 0] : Fin 3 → Nat) a + S1x64x64.size a ≤ S16x64x64.size a
  slices_S1024x1024_o0_320_S1024x64 : S1024x1024.Slices ![0, 320] S1024x64
  inb_S16x64x64_S1x64x64_5_0_0 : ∀ a, (![5, 0, 0] : Fin 3 → Nat) a + S1x64x64.size a ≤ S16x64x64.size a
  slices_S1024x1024_o0_384_S1024x64 : S1024x1024.Slices ![0, 384] S1024x64
  inb_S16x64x64_S1x64x64_6_0_0 : ∀ a, (![6, 0, 0] : Fin 3 → Nat) a + S1x64x64.size a ≤ S16x64x64.size a
  slices_S1024x1024_o0_448_S1024x64 : S1024x1024.Slices ![0, 448] S1024x64
  inb_S16x64x64_S1x64x64_7_0_0 : ∀ a, (![7, 0, 0] : Fin 3 → Nat) a + S1x64x64.size a ≤ S16x64x64.size a
  slices_S1024x1024_o0_512_S1024x64 : S1024x1024.Slices ![0, 512] S1024x64
  inb_S16x64x64_S1x64x64_8_0_0 : ∀ a, (![8, 0, 0] : Fin 3 → Nat) a + S1x64x64.size a ≤ S16x64x64.size a
  slices_S1024x1024_o0_576_S1024x64 : S1024x1024.Slices ![0, 576] S1024x64
  inb_S16x64x64_S1x64x64_9_0_0 : ∀ a, (![9, 0, 0] : Fin 3 → Nat) a + S1x64x64.size a ≤ S16x64x64.size a
  slices_S1024x1024_o0_640_S1024x64 : S1024x1024.Slices ![0, 640] S1024x64
  inb_S16x64x64_S1x64x64_10_0_0 : ∀ a, (![10, 0, 0] : Fin 3 → Nat) a + S1x64x64.size a ≤ S16x64x64.size a
  slices_S1024x1024_o0_704_S1024x64 : S1024x1024.Slices ![0, 704] S1024x64
  inb_S16x64x64_S1x64x64_11_0_0 : ∀ a, (![11, 0, 0] : Fin 3 → Nat) a + S1x64x64.size a ≤ S16x64x64.size a
  slices_S1024x1024_o0_768_S1024x64 : S1024x1024.Slices ![0, 768] S1024x64
  inb_S16x64x64_S1x64x64_12_0_0 : ∀ a, (![12, 0, 0] : Fin 3 → Nat) a + S1x64x64.size a ≤ S16x64x64.size a
  slices_S1024x1024_o0_832_S1024x64 : S1024x1024.Slices ![0, 832] S1024x64
  inb_S16x64x64_S1x64x64_13_0_0 : ∀ a, (![13, 0, 0] : Fin 3 → Nat) a + S1x64x64.size a ≤ S16x64x64.size a
  slices_S1024x1024_o0_896_S1024x64 : S1024x1024.Slices ![0, 896] S1024x64
  inb_S16x64x64_S1x64x64_14_0_0 : ∀ a, (![14, 0, 0] : Fin 3 → Nat) a + S1x64x64.size a ≤ S16x64x64.size a
  slices_S1024x1024_o0_960_S1024x64 : S1024x1024.Slices ![0, 960] S1024x64
  inb_S16x64x64_S1x64x64_15_0_0 : ∀ a, (![15, 0, 0] : Fin 3 → Nat) a + S1x64x64.size a ≤ S16x64x64.size a
  inb_S1x16x64x64_S1x16x64x64_0_0_0_0 : ∀ a, (![0, 0, 0, 0] : Fin 4 → Nat) a + S1x16x64x64.size a ≤ S1x16x64x64.size a
  h_S1x16x64x64 : 0 < S1x16x64x64.numel
  shapeCasts_S1x16x64x64_S16x64x64 : S1x16x64x64.ShapeCasts S16x64x64
  shapeCasts_S16x64x64_S1x16x64x64 : S16x64x64.ShapeCasts S1x16x64x64
  slices_S16x64x64_o0_0_0_S1x64x64 : S16x64x64.Slices ![0, 0, 0] S1x64x64
  slices_S16x64x64_o1_0_0_S1x64x64 : S16x64x64.Slices ![1, 0, 0] S1x64x64
  slices_S16x64x64_o2_0_0_S1x64x64 : S16x64x64.Slices ![2, 0, 0] S1x64x64
  slices_S16x64x64_o3_0_0_S1x64x64 : S16x64x64.Slices ![3, 0, 0] S1x64x64
  slices_S16x64x64_o4_0_0_S1x64x64 : S16x64x64.Slices ![4, 0, 0] S1x64x64
  slices_S16x64x64_o5_0_0_S1x64x64 : S16x64x64.Slices ![5, 0, 0] S1x64x64
  slices_S16x64x64_o6_0_0_S1x64x64 : S16x64x64.Slices ![6, 0, 0] S1x64x64
  slices_S16x64x64_o7_0_0_S1x64x64 : S16x64x64.Slices ![7, 0, 0] S1x64x64
  slices_S16x64x64_o8_0_0_S1x64x64 : S16x64x64.Slices ![8, 0, 0] S1x64x64
  slices_S16x64x64_o9_0_0_S1x64x64 : S16x64x64.Slices ![9, 0, 0] S1x64x64
  slices_S16x64x64_o10_0_0_S1x64x64 : S16x64x64.Slices ![10, 0, 0] S1x64x64
  slices_S16x64x64_o11_0_0_S1x64x64 : S16x64x64.Slices ![11, 0, 0] S1x64x64
  slices_S16x64x64_o12_0_0_S1x64x64 : S16x64x64.Slices ![12, 0, 0] S1x64x64
  slices_S16x64x64_o13_0_0_S1x64x64 : S16x64x64.Slices ![13, 0, 0] S1x64x64
  slices_S16x64x64_o14_0_0_S1x64x64 : S16x64x64.Slices ![14, 0, 0] S1x64x64
  slices_S16x64x64_o15_0_0_S1x64x64 : S16x64x64.Slices ![15, 0, 0] S1x64x64
  concatenates_S1024x64_S1024x64_S1024x64_S1024x64_S1024x64_S1024x64_S1024x64_S1024x64_S1024x64_S1024x64_S1024x64_S1024x64_S1024x64_S1024x64_S1024x64_S1024x64_S1024x1024_d1 : Shape.Concatenates [S1024x64, S1024x64, S1024x64, S1024x64, S1024x64, S1024x64, S1024x64, S1024x64, S1024x64, S1024x64, S1024x64, S1024x64, S1024x64, S1024x64, S1024x64, S1024x64] S1024x1024 1
  dot_S1024x1024_S1024x1024_S1024x1024_1_0_0_1_n_n_wf : DotDims.WF S1024x1024 S1024x1024 S1024x1024 [1] [0] [0] [1] [] []
  dot_S1024x64_S1024x64_S64x64_0_0_1_1_n_n_wf : DotDims.WF S1024x64 S1024x64 S64x64 [0] [0] [1] [1] [] []
  dot_S1024x64_S64x64_S1024x64_1_0_0_1_n_n_wf : DotDims.WF S1024x64 S64x64 S1024x64 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x4096x1024.size a
  hwx0_4 : ∀ i : grid0.Coords, EltTy.bits .bf16 = 32 ∨ (Rect.block (s := S4x4096x1024) S1x1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x64x64.size a ≤ S4x16x64x64.size a
  hwx0_5 : ∀ i : grid0.Coords, EltTy.bits .f32 = 32 ∨ (Rect.block (s := S4x16x64x64) S1x16x64x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x64x64.size a ≤ S4x16x64x64.size a
  hwx1_1 : ∀ i : grid1.Coords, EltTy.bits .f32 = 32 ∨ (Rect.block (s := S4x16x64x64) S1x16x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S1024x64_S64x64_0_0_1_1_n_n : DotDims S1024x64 S1024x64 S64x64 where
  lhsContracting := [0]
  rhsContracting := [0]
  lhsNonContracting := [1]
  rhsNonContracting := [1]
  lhsBatch := []
  rhsBatch := []
  wf := dot_S1024x64_S1024x64_S64x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x16x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v4_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x16x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x16x64 : Shape := ⟨4, ![4, 4096, 16, 64]⟩
abbrev S4x16x4096x64 : Shape := ⟨4, ![4, 16, 4096, 64]⟩
abbrev S_ : Shape := ⟨0, ![]⟩
abbrev S4x16x64x64 : Shape := ⟨4, ![4, 16, 64, 64]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x4096x1024, .f32⟩
  | .hbm, ⟨6, _⟩ => ⟨S4x4096x16x64, .f32⟩
  | .hbm, ⟨7, _⟩ => ⟨S4x16x4096x64, .f32⟩
  | .hbm, ⟨8, _⟩ => ⟨S4x4096x1024, .f32⟩
  | .hbm, ⟨9, _⟩ => ⟨S4x4096x16x64, .f32⟩
  | .hbm, ⟨10, _⟩ => ⟨S4x16x4096x64, .f32⟩
  | .hbm, ⟨11, _⟩ => ⟨S4x4096x1024, .f32⟩
  | .hbm, ⟨12, _⟩ => ⟨S4x4096x16x64, .f32⟩
  | .hbm, ⟨13, _⟩ => ⟨S4x16x4096x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x16x64x64, .f32⟩
  | .hbm, ⟨19, _⟩ => ⟨S4x16x4096x64, .f32⟩
  | .hbm, ⟨20, _⟩ => ⟨S4x16x4096x64, .f32⟩
  | .hbm, ⟨21, _⟩ => ⟨S4x16x4096x64, .f32⟩
  | .hbm, ⟨22, _⟩ => ⟨S4x4096x16x64, .f32⟩
  | .hbm, ⟨23, _⟩ => ⟨S4x4096x1024, .f32⟩
  | .hbm, ⟨24, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  bcast_S_S4x16x4096x64 : S_.BroadcastsInDim S4x16x4096x64 (![] : Fin 0 → Fin S4x16x4096x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  dot_S4x4096x1024_S1024x1024_S4x4096x1024_2_0_01_1_n_n_wf : DotDims.WF S4x4096x1024 S1024x1024 S4x4096x1024 [2] [0] [0, 1] [1] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]
  dot_S4x4096x1024_S1024x1024_S4x4096x1024_2_1_01_0_n_n_wf : DotDims.WF S4x4096x1024 S1024x1024 S4x4096x1024 [2] [1] [0, 1] [0] [] []

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.FrK.Common.lean ====
/-
  What the two kernel regions' proofs share. Region 0 projects one 1024-row tile of `x` through the three weight
  matrices, writes the query tile out and adds each head's `kᵀ·v` into a scratch it keeps between the four tiles of a
  batch (zeroed at a batch's first tile, copied to the second output at its last); region 1 multiplies a query tile by the
  batch's sixteen 64×64 products, scales, and projects through the output weights. Here: each window's block at a grid
  point read off the arrays as a region finds them (a parameter `V`), that an input's staging buffer holds that block at
  every point, the two grid-coordinate conditions of region 0 in closed form over the 16 points, where its second
  output is idle, the staging and scratch memrefs by name, and the region's invariant split into the scratch, the other
  region's staging buffers and the generator register.
-/
import proofs.«119639_j50508815401129_1_alg».proof.Proof.Gen.Kernel.Launch
import proofs.«119639_j50508815401129_1_alg».proof.Proof.Gen.Kernel.Skeleton
import proofs.«119639_j50508815401129_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input block sits in its staging buffer at every point, fetched there or kept from an earlier point: the
    window's index has not moved since its last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input block sits in its staging buffer at every point, fetched there or kept from an earlier point: the
    window's index has not moved since its last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input block sits in its staging buffer at every point, fetched there or kept from an earlier point: the
    window's index has not moved since its last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input block sits in its staging buffer at every point, fetched there or kept from an earlier point: the
    window's index has not moved since its last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input block sits in its staging buffer at every point, fetched there or kept from an earlier point: the
    window's index has not moved since its last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input block sits in its staging buffer at every point, fetched there or kept from an earlier point: the
    window's index has not moved since its last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input block sits in its staging buffer at every point, fetched there or kept from an earlier point: the
    window's index has not moved since its last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0's two conditions on the grid point -/

/-- "This is a batch's first tile" (the scratch is zeroed), as the body computes it from the second grid coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is a batch's last tile" (the scratch is copied to the second output). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where region 0's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a batch's last tile the second output is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## Region 0's memrefs by name -/

/-- One staging buffer of each output, through which what the body leaves there is stated. -/
abbrev VO0_4 : View sig .tc .vmem S1x1024x1024 .bf16 := (Memref.whole cc0_stg4_0 : Memref sig .tc .vmem S1x1024x1024 .bf16).view
abbrev VO0_5 : View sig .tc .vmem S1x16x64x64 .f32 := (Memref.whole cc0_stg5_0 : Memref sig .tc .vmem S1x16x64x64 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x64x64 .f32 := win0_5.stage (cfg0.slots t 5)
abbrev hs0_5 (t : Fin cfg0.N) : (ms0_5 t).IsWhole := hstage0_5 ((cfg0.slots t 5).cast nbuf0_5)
/-- The scratch the kernel keeps between points: a whole scoped buffer of its own. -/
abbrev scM0_0 : Memref sig .tc .vmem S16x64x64 .f32 := Memref.whole cc0_scratch0
abbrev VS0_0 : View sig .tc .vmem S16x64x64 .f32 := scM0_0.view

/-! ## Region 0's invariant, split -/

/-- The scoped buffers region 0 never touches (region 1's staging buffers), each whole at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The untouched-rest invariant of region 0 is: the scratch at some contents, region 1's staging buffers, the
    generator register at some state. -/
theorem PhiA0_eq (c : Dev nD) :
    (Pipeline.ΦA spec0 c : sProp 𝕄)
      = iprop(iprop((∃ d, owns (c : Thread nD τ) scM0_0 fullShare d) ∗ restB (F := F) c) ∗ (∃ r, prngReg c r)) := by
  unfold Pipeline.ΦA restB; rw [scopedRest0_eq]; simp only [scM0_0, owns_whole]; try rfl

end Cert.Kernel.Fr

end
-- ==== Proof.FrK.Run0A.lean ====
/-
  Region 0's body at a batch's FIRST tile (the scratch is zeroed first; the second output is left alone): from whole staging memrefs — the four inputs at their contents, the query output at
  anything, the second output at contents it hands back untouched, the scratch at anything — it runs to the
  continuation with the inputs as they were and the query output and the scratch holding the pieces its stores wrote
  (found by the symbolic run, last store first).
-/
import proofs.«119639_j50508815401129_1_alg».proof.Proof.FrK.Common

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 16000000 in
noncomputable def kernelRun0_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) :
    Σ' (L4 : List (View.Piece (Elt F) S1x1024x1024 .bf16)) (L5 : List (View.Piece (Elt F) S1x16x64x64 .f32)), { LS0 : List (View.Piece (Elt F) S16x64x64 .f32) //
      ∀ (xi5 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, [], ?_, fun xi5 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Fr

end
-- ==== Proof.FrK.Run0B.lean ====
/-
  Region 0's body at a MIDDLE tile of a batch (the scratch is added to; the second output is left alone): from whole staging memrefs — the four inputs at their contents, the query output at
  anything, the second output at contents it hands back untouched, the scratch at what the tile before left — it runs to the
  continuation with the inputs as they were and the query output and the scratch holding the pieces its stores wrote
  (found by the symbolic run, last store first).
-/
import proofs.«119639_j50508815401129_1_alg».proof.Proof.FrK.Common

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 16000000 in
noncomputable def kernelRun0_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) :
    Σ' (L4 : List (View.Piece (Elt F) S1x1024x1024 .bf16)) (L5 : List (View.Piece (Elt F) S1x16x64x64 .f32)), { LS0 : List (View.Piece (Elt F) S16x64x64 .f32) //
      ∀ (xi5 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, [], ?_, fun xi5 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Fr

end
-- ==== Proof.FrK.Run0C.lean ====
/-
  Region 0's body at a batch's LAST tile (the scratch is added to and then copied whole to the second output): from whole staging memrefs — the four inputs at their contents, the query output at
  anything, the second output at anything, the scratch at what the tile before left — it runs to the
  continuation with the inputs as they were and the query output and the scratch holding the pieces its stores wrote
  (found by the symbolic run, last store first; likewise the second output).
-/
import proofs.«119639_j50508815401129_1_alg».proof.Proof.FrK.Common

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 16000000 in
noncomputable def kernelRun0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) :
    Σ' (L4 : List (View.Piece (Elt F) S1x1024x1024 .bf16)) (L5 : List (View.Piece (Elt F) S1x16x64x64 .f32)), { LS0 : List (View.Piece (Elt F) S16x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Fr

end
-- ==== Proof.FrK.Data0.lean ====
/-
  Region 0's proof data, at the contents `V` the region is entered from. What the two outputs' staging buffers and the
  scratch hold after the body at each of the 16 grid points is a recursion on the point: at a batch's first tile the
  scratch is zeroed and then gains every head's `kᵀ·v` of this tile; at a later tile it gains them over what the tile before
  left; the query output is written at every point, the second output only at a batch's last tile (elsewhere it is idle and
  not written back). The invariant before a point: at the very first, the untouched rest; afterwards the scratch at what
  the point before left, region 1's staging buffers at anything, the generator register at some state. Then the body
  obligation at every point, by cases on the point's position in its batch.
-/
import proofs.«119639_j50508815401129_1_alg».proof.Proof.FrK.Run0A
import proofs.«119639_j50508815401129_1_alg».proof.Proof.FrK.Run0B
import proofs.«119639_j50508815401129_1_alg».proof.Proof.FrK.Run0C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Case A: what the body leaves in the query output's staging buffer — its one store's piece, read back. -/
def out0_A_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) : Vec F S1x1024x1024 .bf16 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)
/-- Case A: that one piece is the whole block of the query output, so it covers it. -/
theorem cover0_A_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) (y : S1x1024x1024.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S1x1024x1024.size (by sl_kernel_rfl) y
/-- Case A: the body stores nothing into the second output (idle here and not written back): a placeholder nothing consults. -/
def out0_A_5 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) : Vec F S1x16x64x64 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3).2.1)
/-- Case A: the pieces the body stores into the scratch (sixteen 1×64×64 slabs over the whole-buffer zeroing store) cover it. -/
theorem scover0_A_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) (y : S16x64x64.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S16x64x64.size (by sl_kernel_rfl) y
/-- Case A: what the body leaves in the scratch — those pieces read back. -/
def sout0_A_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) : Vec F S16x64x64 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.2.1)

/-- Case B: what the body leaves in the query output's staging buffer — its one store's piece, read back. -/
def out0_B_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) : Vec F S1x1024x1024 .bf16 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0).1)
/-- Case B: that one piece is the whole block of the query output, so it covers it. -/
theorem cover0_B_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) (y : S1x1024x1024.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S1x1024x1024.size (by sl_kernel_rfl) y
/-- Case B: the body stores nothing into the second output (idle here and not written back): a placeholder nothing consults. -/
def out0_B_5 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) : Vec F S1x16x64x64 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 xs0).2.1)
/-- Case B: the pieces the body stores into the scratch (sixteen 1×64×64 slabs) cover it. -/
theorem scover0_B_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) (y : S16x64x64.Idx) :
    ∃ pc ∈ (kernelRun0_B c i arg2 harg2 arg3 harg3 arg4 harg4 arg5 harg5 arg6 harg6 arg7 harg7 arg8 harg8 hc0 hc1 x0 x1 x2 x3 xs0).2.2.1, y ∈ pc.1.set :=
  View.cover_of_tiledL (kernelRun0_B c i arg2 harg2 arg3 harg3 arg4 harg4 arg5 harg5 arg6 harg6 arg7 harg7 arg8 harg8 hc0 hc1 x0 x1 x2 x3 xs0).2.2.1 S1x64x64.size (by sl_kernel_rfl) y
/-- Case B: what the body leaves in the scratch — those pieces read back. -/
def sout0_B_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) : Vec F S16x64x64 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).2.2.1)

/-- Case C: what the body leaves in the query output's staging buffer — its one store's piece, read back. -/
def out0_C_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) : Vec F S1x1024x1024 .bf16 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)
/-- Case C: that one piece is the whole block of the query output, so it covers it. -/
theorem cover0_C_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) (y : S1x1024x1024.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S1x1024x1024.size (by sl_kernel_rfl) y
/-- Case C: what the body leaves in the second output's staging buffer — the whole scratch, stored as one piece. -/
def out0_C_5 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) : Vec F S1x16x64x64 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)
/-- Case C: that one piece is the whole block of the second output, so it covers it. -/
theorem cover0_C_5 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) (y : S1x16x64x64.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S1x16x64x64.size (by sl_kernel_rfl) y
/-- Case C: the pieces the body stores into the scratch (sixteen 1×64×64 slabs) cover it. -/
theorem scover0_C_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) (y : S16x64x64.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S1x64x64.size (by sl_kernel_rfl) y
/-- Case C: what the body leaves in the scratch — those pieces read back. -/
def sout0_C_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) : Vec F S16x64x64 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)

section
variable (V : (c : Dev nD) → (b : Ref sig .tc) → Buf (Elt F) ((c : Thread nD τ).loc b))

/-- THE ACCUMULATION: (query output's buffer, second output's buffer, scratch) after the body at position `n`. -/
def outsAt0 (c : Dev nD) : (n : ℕ) → n < cfg0.N → Vec F S1x1024x1024 .bf16 × Vec F S1x16x64x64 .f32 × Vec F S16x64x64 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restB (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restB (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restB (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold out0_A_4 sout0_A_0; (try dsimp only)
      by_cases hz : t.val = 0
      · rw [PhiS_castSucc V c t, PhiS_zero V c _ _ hz, PhiA0_eq]
        iintro ⟨⟨⟨HS0, HB⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _)
        iexists _; iexact H5
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        iintro ⟨H0, H1, H2, H3, ⟨%e4, H4⟩, H5, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _)
        iexists _; iexact H5
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_4 out0_C_5 sout0_C_0; (try dsimp only)
      by_cases hz : t.val = 0
      · exfalso; omega
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold out0_B_4 sout0_B_0; (try dsimp only)
      by_cases hz : t.val = 0
      · exfalso; omega
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _)
        iexists _; iexact H5

theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the untouched rest back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HB⟩, Hg⟩
  isplitl [HS0 HB]
  · isplitl [HS0]
    · iexists _; iexact HS0
    iexact HB
  iexact Hg

theorem hout0 (c : Dev nD) : (dat0 V c).Φ (Fin.last cfg0.N) ⊢ Pipeline.ΦA spec0 c :=
  Phi_out0 V c _ (by rw [Fin.val_last]; have : cfg0.N = 16 := N_0; omega)

end

end Cert.Kernel.Fr

end
-- ==== Proof.FrK.Run1.lean ====
/-
  Region 1's body (one case): from whole staging memrefs — the query tile, the batch's sixteen 64×64 products and the
  output weights at their contents, the output at anything — it runs to the continuation with the inputs as they were and
  the output holding the one piece its store wrote (found by the symbolic run).
-/
import proofs.«119639_j50508815401129_1_alg».proof.Proof.FrK.Common

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 16000000 in
noncomputable def kernelRun1 (c : Dev nD) (i : grid1.Coords) (arg2 : Memref sig .tc .vmem S1x1024x1024 .bf16) (harg2 : arg2.IsWhole) (arg3 : Memref sig .tc .vmem S1x16x64x64 .f32) (harg3 : arg3.IsWhole) (arg4 : Memref sig .tc .vmem S1024x1024 .bf16) (harg4 : arg4.IsWhole) (arg5 : Memref sig .tc .vmem S1x1024x1024 .f32) (harg5 : arg5.IsWhole)
    (x0 : Vec F S1x1024x1024 .bf16) (x1 : Vec F S1x16x64x64 .f32) (x2 : Vec F S1024x1024 .bf16) :
    { L3 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__kernel_b i arg2 harg2 arg3 harg3 arg4 harg4 arg5 harg5) K } := by
  refine ⟨?_, fun E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Fr

end
-- ==== Proof.FrK.Data1.lean ====
/-
  Region 1's proof data, at the contents `V` the region is entered from: after the body at a grid point each input's
  staging buffer still holds its block and the output's holds what the body's one store wrote, read back through the
  buffer; the invariant is the untouched rest (the scoped buffers no window stages and the generator register);
  nothing is owed. Then the body obligation at every point.
-/
import proofs.«119639_j50508815401129_1_alg».proof.Proof.FrK.Run1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)

/-- What the body leaves in the output's staging buffer: its store's piece read back. -/
def out1_3 (c : Dev nD) (i : grid1.Coords) (arg2 : Memref sig .tc .vmem S1x1024x1024 .bf16) (harg2 : arg2.IsWhole) (arg3 : Memref sig .tc .vmem S1x16x64x64 .f32) (harg3 : arg3.IsWhole) (arg4 : Memref sig .tc .vmem S1024x1024 .bf16) (harg4 : arg4.IsWhole) (arg5 : Memref sig .tc .vmem S1x1024x1024 .f32) (harg5 : arg5.IsWhole)
    (x0 : Vec F S1x1024x1024 .bf16) (x1 : Vec F S1x16x64x64 .f32) (x2 : Vec F S1024x1024 .bf16) : Vec F S1x1024x1024 .f32 :=
  VO1_3.read (Elt F) (VO1_3.writes (Elt F) VO1_3.junk (kernelRun1 c i arg2 harg2 arg3 harg3 arg4 harg4 arg5 harg5 x0 x1 x2).1)

/-- That one piece is the whole block, so it covers it. -/
theorem cover1_3 (c : Dev nD) (i : grid1.Coords) (arg2 : Memref sig .tc .vmem S1x1024x1024 .bf16) (harg2 : arg2.IsWhole) (arg3 : Memref sig .tc .vmem S1x16x64x64 .f32) (harg3 : arg3.IsWhole) (arg4 : Memref sig .tc .vmem S1024x1024 .bf16) (harg4 : arg4.IsWhole) (arg5 : Memref sig .tc .vmem S1x1024x1024 .f32) (harg5 : arg5.IsWhole)
    (x0 : Vec F S1x1024x1024 .bf16) (x1 : Vec F S1x16x64x64 .f32) (x2 : Vec F S1024x1024 .bf16) (y : S1x1024x1024.Idx) :
    ∃ pc ∈ (kernelRun1 c i arg2 harg2 arg3 harg3 arg4 harg4 arg5 harg5 x0 x1 x2).1, y ∈ pc.1.set :=
  View.cover_of_tiledL (kernelRun1 c i arg2 harg2 arg3 harg3 arg4 harg4 arg5 harg5 x0 x1 x2).1 S1x1024x1024.size (by sl_kernel_rfl) y

section
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.FrK.Main.lean ====
/-
  The whole program's run. The unscoped buffers' contents at each boundary of @main are a fold from the launch memory:
  after the four weight casts; after region 0 (its arrays at what its write-backs leave, every other buffer as entered);
  after region 1 likewise. No item writes an argument, so each argument's buffer reads back to its launch contents. Every
  pipeline's proof data is taken at its region's entry contents; the two regions are entered from and left at "every
  unscoped buffer at the boundary's contents, the generator register at some state, nothing owed"; one launch over the
  three segments then gives, for every weakly fair execution, termination without a fault in a state whose every unscoped
  buffer holds the last fold's contents — from which both the frame (the arguments) and the result array are read.
-/
import proofs.«119639_j50508815401129_1_alg».proof.Proof.FrK.Data0
import proofs.«119639_j50508815401129_1_alg».proof.Proof.FrK.Data1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, in a state whose
    every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Fr

end
-- ==== Proof.Fr.Common.lean ====
/-
  What the two kernel regions' proofs share. Region 0 projects one 1024-row tile of `x` through the three weight
  matrices, writes the query tile out and adds each head's `kᵀ·v` into a scratch it keeps between the four tiles of a
  batch (zeroed at a batch's first tile, copied to the second output at its last); region 1 multiplies a query tile by the
  batch's sixteen 64×64 products, scales, and projects through the output weights. Here: each window's block at a grid
  point read off the arrays as a region finds them (a parameter `V`), that an input's staging buffer holds that block at
  every point, the two grid-coordinate conditions of region 0 in closed form over the 16 points, where its second
  output is idle, the staging and scratch memrefs by name, and the region's invariant split into the scratch, the other
  region's staging buffers and the generator register.
-/
import proofs.«119639_j50508815401129_1_alg».proof.Proof.Gen.KernelIdeal.Launch
import proofs.«119639_j50508815401129_1_alg».proof.Proof.Gen.KernelIdeal.Skeleton
import proofs.«119639_j50508815401129_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input block sits in its staging buffer at every point, fetched there or kept from an earlier point: the
    window's index has not moved since its last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input block sits in its staging buffer at every point, fetched there or kept from an earlier point: the
    window's index has not moved since its last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input block sits in its staging buffer at every point, fetched there or kept from an earlier point: the
    window's index has not moved since its last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input block sits in its staging buffer at every point, fetched there or kept from an earlier point: the
    window's index has not moved since its last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input block sits in its staging buffer at every point, fetched there or kept from an earlier point: the
    window's index has not moved since its last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input block sits in its staging buffer at every point, fetched there or kept from an earlier point: the
    window's index has not moved since its last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input block sits in its staging buffer at every point, fetched there or kept from an earlier point: the
    window's index has not moved since its last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0's two conditions on the grid point -/

/-- "This is a batch's first tile" (the scratch is zeroed), as the body computes it from the second grid coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is a batch's last tile" (the scratch is copied to the second output). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where region 0's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a batch's last tile the second output is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## Region 0's memrefs by name -/

/-- One staging buffer of each output, through which what the body leaves there is stated. -/
abbrev VO0_4 : View sig .tc .vmem S1x1024x1024 .bf16 := (Memref.whole cc0_stg4_0 : Memref sig .tc .vmem S1x1024x1024 .bf16).view
abbrev VO0_5 : View sig .tc .vmem S1x16x64x64 .f32 := (Memref.whole cc0_stg5_0 : Memref sig .tc .vmem S1x16x64x64 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x64x64 .f32 := win0_5.stage (cfg0.slots t 5)
abbrev hs0_5 (t : Fin cfg0.N) : (ms0_5 t).IsWhole := hstage0_5 ((cfg0.slots t 5).cast nbuf0_5)
/-- The scratch the kernel keeps between points: a whole scoped buffer of its own. -/
abbrev scM0_0 : Memref sig .tc .vmem S16x64x64 .f32 := Memref.whole cc0_scratch0
abbrev VS0_0 : View sig .tc .vmem S16x64x64 .f32 := scM0_0.view

/-! ## Region 0's invariant, split -/

/-- The scoped buffers region 0 never touches (region 1's staging buffers), each whole at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The untouched-rest invariant of region 0 is: the scratch at some contents, region 1's staging buffers, the
    generator register at some state. -/
theorem PhiA0_eq (c : Dev nD) :
    (Pipeline.ΦA spec0 c : sProp 𝕄)
      = iprop(iprop((∃ d, owns (c : Thread nD τ) scM0_0 fullShare d) ∗ restB (F := F) c) ∗ (∃ r, prngReg c r)) := by
  unfold Pipeline.ΦA restB; rw [scopedRest0_eq]; simp only [scM0_0, owns_whole]; try rfl

end Cert.KernelIdeal.Fr

end
-- ==== Proof.Fr.Run0A.lean ====
/-
  Region 0's body at a batch's FIRST tile (the scratch is zeroed first; the second output is left alone): from whole staging memrefs — the four inputs at their contents, the query output at
  anything, the second output at contents it hands back untouched, the scratch at anything — it runs to the
  continuation with the inputs as they were and the query output and the scratch holding the pieces its stores wrote
  (found by the symbolic run, last store first).
-/
import proofs.«119639_j50508815401129_1_alg».proof.Proof.Fr.Common

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 16000000 in
noncomputable def kernelRun0_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) :
    Σ' (L4 : List (View.Piece (Elt F) S1x1024x1024 .bf16)) (L5 : List (View.Piece (Elt F) S1x16x64x64 .f32)), { LS0 : List (View.Piece (Elt F) S16x64x64 .f32) //
      ∀ (xi5 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, [], ?_, fun xi5 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Fr

end
-- ==== Proof.Fr.Run0B.lean ====
/-
  Region 0's body at a MIDDLE tile of a batch (the scratch is added to; the second output is left alone): from whole staging memrefs — the four inputs at their contents, the query output at
  anything, the second output at contents it hands back untouched, the scratch at what the tile before left — it runs to the
  continuation with the inputs as they were and the query output and the scratch holding the pieces its stores wrote
  (found by the symbolic run, last store first).
-/
import proofs.«119639_j50508815401129_1_alg».proof.Proof.Fr.Common

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 16000000 in
noncomputable def kernelRun0_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) :
    Σ' (L4 : List (View.Piece (Elt F) S1x1024x1024 .bf16)) (L5 : List (View.Piece (Elt F) S1x16x64x64 .f32)), { LS0 : List (View.Piece (Elt F) S16x64x64 .f32) //
      ∀ (xi5 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, [], ?_, fun xi5 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Fr

end
-- ==== Proof.Fr.Run0C.lean ====
/-
  Region 0's body at a batch's LAST tile (the scratch is added to and then copied whole to the second output): from whole staging memrefs — the four inputs at their contents, the query output at
  anything, the second output at anything, the scratch at what the tile before left — it runs to the
  continuation with the inputs as they were and the query output and the scratch holding the pieces its stores wrote
  (found by the symbolic run, last store first; likewise the second output).
-/
import proofs.«119639_j50508815401129_1_alg».proof.Proof.Fr.Common

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 16000000 in
noncomputable def kernelRun0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) :
    Σ' (L4 : List (View.Piece (Elt F) S1x1024x1024 .bf16)) (L5 : List (View.Piece (Elt F) S1x16x64x64 .f32)), { LS0 : List (View.Piece (Elt F) S16x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Fr

end
-- ==== Proof.Fr.Data0.lean ====
/-
  Region 0's proof data, at the contents `V` the region is entered from. What the two outputs' staging buffers and the
  scratch hold after the body at each of the 16 grid points is a recursion on the point: at a batch's first tile the
  scratch is zeroed and then gains every head's `kᵀ·v` of this tile; at a later tile it gains them over what the tile before
  left; the query output is written at every point, the second output only at a batch's last tile (elsewhere it is idle and
  not written back). The invariant before a point: at the very first, the untouched rest; afterwards the scratch at what
  the point before left, region 1's staging buffers at anything, the generator register at some state. Then the body
  obligation at every point, by cases on the point's position in its batch.
-/
import proofs.«119639_j50508815401129_1_alg».proof.Proof.Fr.Run0A
import proofs.«119639_j50508815401129_1_alg».proof.Proof.Fr.Run0B
import proofs.«119639_j50508815401129_1_alg».proof.Proof.Fr.Run0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Case A: what the body leaves in the query output's staging buffer — its one store's piece, read back. -/
def out0_A_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) : Vec F S1x1024x1024 .bf16 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)
/-- Case A: that one piece is the whole block of the query output, so it covers it. -/
theorem cover0_A_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) (y : S1x1024x1024.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S1x1024x1024.size (by sl_kernel_rfl) y
/-- Case A: the body stores nothing into the second output (idle here and not written back): a placeholder nothing consults. -/
def out0_A_5 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) : Vec F S1x16x64x64 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3).2.1)
/-- Case A: the pieces the body stores into the scratch (sixteen 1×64×64 slabs over the whole-buffer zeroing store) cover it. -/
theorem scover0_A_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) (y : S16x64x64.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S16x64x64.size (by sl_kernel_rfl) y
/-- Case A: what the body leaves in the scratch — those pieces read back. -/
def sout0_A_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) : Vec F S16x64x64 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.2.1)

/-- Case B: what the body leaves in the query output's staging buffer — its one store's piece, read back. -/
def out0_B_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) : Vec F S1x1024x1024 .bf16 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0).1)
/-- Case B: that one piece is the whole block of the query output, so it covers it. -/
theorem cover0_B_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) (y : S1x1024x1024.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S1x1024x1024.size (by sl_kernel_rfl) y
/-- Case B: the body stores nothing into the second output (idle here and not written back): a placeholder nothing consults. -/
def out0_B_5 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) : Vec F S1x16x64x64 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 xs0).2.1)
/-- Case B: the pieces the body stores into the scratch (sixteen 1×64×64 slabs) cover it. -/
theorem scover0_B_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) (y : S16x64x64.Idx) :
    ∃ pc ∈ (kernelRun0_B c i arg2 harg2 arg3 harg3 arg4 harg4 arg5 harg5 arg6 harg6 arg7 harg7 arg8 harg8 hc0 hc1 x0 x1 x2 x3 xs0).2.2.1, y ∈ pc.1.set :=
  View.cover_of_tiledL (kernelRun0_B c i arg2 harg2 arg3 harg3 arg4 harg4 arg5 harg5 arg6 harg6 arg7 harg7 arg8 harg8 hc0 hc1 x0 x1 x2 x3 xs0).2.2.1 S1x64x64.size (by sl_kernel_rfl) y
/-- Case B: what the body leaves in the scratch — those pieces read back. -/
def sout0_B_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) : Vec F S16x64x64 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).2.2.1)

/-- Case C: what the body leaves in the query output's staging buffer — its one store's piece, read back. -/
def out0_C_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) : Vec F S1x1024x1024 .bf16 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)
/-- Case C: that one piece is the whole block of the query output, so it covers it. -/
theorem cover0_C_4 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) (y : S1x1024x1024.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S1x1024x1024.size (by sl_kernel_rfl) y
/-- Case C: what the body leaves in the second output's staging buffer — the whole scratch, stored as one piece. -/
def out0_C_5 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) : Vec F S1x16x64x64 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)
/-- Case C: that one piece is the whole block of the second output, so it covers it. -/
theorem cover0_C_5 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) (y : S1x16x64x64.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S1x16x64x64.size (by sl_kernel_rfl) y
/-- Case C: the pieces the body stores into the scratch (sixteen 1×64×64 slabs) cover it. -/
theorem scover0_C_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) (y : S16x64x64.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S1x64x64.size (by sl_kernel_rfl) y
/-- Case C: what the body leaves in the scratch — those pieces read back. -/
def sout0_C_0 (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) : Vec F S16x64x64 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)

section
variable (V : (c : Dev nD) → (b : Ref sig .tc) → Buf (Elt F) ((c : Thread nD τ).loc b))

/-- THE ACCUMULATION: (query output's buffer, second output's buffer, scratch) after the body at position `n`. -/
def outsAt0 (c : Dev nD) : (n : ℕ) → n < cfg0.N → Vec F S1x1024x1024 .bf16 × Vec F S1x16x64x64 .f32 × Vec F S16x64x64 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restB (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restB (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restB (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold out0_A_4 sout0_A_0; (try dsimp only)
      by_cases hz : t.val = 0
      · rw [PhiS_castSucc V c t, PhiS_zero V c _ _ hz, PhiA0_eq]
        iintro ⟨⟨⟨HS0, HB⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _)
        iexists _; iexact H5
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        iintro ⟨H0, H1, H2, H3, ⟨%e4, H4⟩, H5, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _)
        iexists _; iexact H5
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_4 out0_C_5 sout0_C_0; (try dsimp only)
      by_cases hz : t.val = 0
      · exfalso; omega
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold out0_B_4 sout0_B_0; (try dsimp only)
      by_cases hz : t.val = 0
      · exfalso; omega
      · rw [PhiS_castSucc V c t, PhiS_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _)
        iexists _; iexact H5

theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the untouched rest back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HB⟩, Hg⟩
  isplitl [HS0 HB]
  · isplitl [HS0]
    · iexists _; iexact HS0
    iexact HB
  iexact Hg

theorem hout0 (c : Dev nD) : (dat0 V c).Φ (Fin.last cfg0.N) ⊢ Pipeline.ΦA spec0 c :=
  Phi_out0 V c _ (by rw [Fin.val_last]; have : cfg0.N = 16 := N_0; omega)

end

end Cert.KernelIdeal.Fr

end
-- ==== Proof.Fr.Run1.lean ====
/-
  Region 1's body (one case): from whole staging memrefs — the query tile, the batch's sixteen 64×64 products and the
  output weights at their contents, the output at anything — it runs to the continuation with the inputs as they were and
  the output holding the one piece its store wrote (found by the symbolic run).
-/
import proofs.«119639_j50508815401129_1_alg».proof.Proof.Fr.Common

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 16000000 in
noncomputable def kernelRun1 (c : Dev nD) (i : grid1.Coords) (arg2 : Memref sig .tc .vmem S1x1024x1024 .bf16) (harg2 : arg2.IsWhole) (arg3 : Memref sig .tc .vmem S1x16x64x64 .f32) (harg3 : arg3.IsWhole) (arg4 : Memref sig .tc .vmem S1024x1024 .bf16) (harg4 : arg4.IsWhole) (arg5 : Memref sig .tc .vmem S1x1024x1024 .f32) (harg5 : arg5.IsWhole)
    (x0 : Vec F S1x1024x1024 .bf16) (x1 : Vec F S1x16x64x64 .f32) (x2 : Vec F S1024x1024 .bf16) :
    { L3 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__kernel_b i arg2 harg2 arg3 harg3 arg4 harg4 arg5 harg5) K } := by
  refine ⟨?_, fun E K => ?run⟩
  case run =>
    simp only [cc1__kernel_b_eq_skeleton]; unfold cc1__kernel_b_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Fr

end
-- ==== Proof.Fr.Data1.lean ====
/-
  Region 1's proof data, at the contents `V` the region is entered from: after the body at a grid point each input's
  staging buffer still holds its block and the output's holds what the body's one store wrote, read back through the
  buffer; the invariant is the untouched rest (the scoped buffers no window stages and the generator register);
  nothing is owed. Then the body obligation at every point.
-/
import proofs.«119639_j50508815401129_1_alg».proof.Proof.Fr.Run1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)

/-- What the body leaves in the output's staging buffer: its store's piece read back. -/
def out1_3 (c : Dev nD) (i : grid1.Coords) (arg2 : Memref sig .tc .vmem S1x1024x1024 .bf16) (harg2 : arg2.IsWhole) (arg3 : Memref sig .tc .vmem S1x16x64x64 .f32) (harg3 : arg3.IsWhole) (arg4 : Memref sig .tc .vmem S1024x1024 .bf16) (harg4 : arg4.IsWhole) (arg5 : Memref sig .tc .vmem S1x1024x1024 .f32) (harg5 : arg5.IsWhole)
    (x0 : Vec F S1x1024x1024 .bf16) (x1 : Vec F S1x16x64x64 .f32) (x2 : Vec F S1024x1024 .bf16) : Vec F S1x1024x1024 .f32 :=
  VO1_3.read (Elt F) (VO1_3.writes (Elt F) VO1_3.junk (kernelRun1 c i arg2 harg2 arg3 harg3 arg4 harg4 arg5 harg5 x0 x1 x2).1)

/-- That one piece is the whole block, so it covers it. -/
theorem cover1_3 (c : Dev nD) (i : grid1.Coords) (arg2 : Memref sig .tc .vmem S1x1024x1024 .bf16) (harg2 : arg2.IsWhole) (arg3 : Memref sig .tc .vmem S1x16x64x64 .f32) (harg3 : arg3.IsWhole) (arg4 : Memref sig .tc .vmem S1024x1024 .bf16) (harg4 : arg4.IsWhole) (arg5 : Memref sig .tc .vmem S1x1024x1024 .f32) (harg5 : arg5.IsWhole)
    (x0 : Vec F S1x1024x1024 .bf16) (x1 : Vec F S1x16x64x64 .f32) (x2 : Vec F S1024x1024 .bf16) (y : S1x1024x1024.Idx) :
    ∃ pc ∈ (kernelRun1 c i arg2 harg2 arg3 harg3 arg4 harg4 arg5 harg5 x0 x1 x2).1, y ∈ pc.1.set :=
  View.cover_of_tiledL (kernelRun1 c i arg2 harg2 arg3 harg3 arg4 harg4 arg5 harg5 x0 x1 x2).1 S1x1024x1024.size (by sl_kernel_rfl) y

section
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.Fr.Main.lean ====
/-
  The whole program's run. The unscoped buffers' contents at each boundary of @main are a fold from the launch memory:
  after the four weight casts; after region 0 (its arrays at what its write-backs leave, every other buffer as entered);
  after region 1 likewise. No item writes an argument, so each argument's buffer reads back to its launch contents. Every
  pipeline's proof data is taken at its region's entry contents; the two regions are entered from and left at "every
  unscoped buffer at the boundary's contents, the generator register at some state, nothing owed"; one launch over the
  three segments then gives, for every weakly fair execution, termination without a fault in a state whose every unscoped
  buffer holds the last fold's contents — from which both the frame (the arguments) and the result array are read.
-/
import proofs.«119639_j50508815401129_1_alg».proof.Proof.Fr.Data0
import proofs.«119639_j50508815401129_1_alg».proof.Proof.Fr.Data1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, in a state whose
    every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Fr

end
-- ==== Proof.Val.Spec.lean ====
/-
  The specification: what both programs compute, as one function of the five argument arrays over the extended reals.
  With x : [4, 4096, 1024] and four 1024×1024 weight matrices, heads h < 16 of width 64 occupying columns 64h … 64h+63:
    proj x w (b, s, e)        = Σ_d  x(b, s, d) · w(d, e)                                  (a projection of a row)
    kv (b, h, d, e)           = Σ_s  K(b, s, 64h+d) · V(b, s, 64h+e),   K = proj x wk, V = proj x wv
    att (b, s, h, e)          = (Σ_d Q(b, s, 64h+d) · kv(b, h, d, e)) · c,   Q = proj x wq
    out (b, s, e')            = Σ_j  att(b, s, j / 64, j % 64) · wo(e', j)
  The scale `c` is kept as the 32-bit pattern of 1/8. Every product is written in the order both programs multiply in,
  so the only law the two sides ever need is that a sum over 4096 rows is the sum of its four 1024-row tiles.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

abbrev SX : Shape := ⟨3, ![4, 4096, 1024]⟩
abbrev SW : Shape := ⟨2, ![1024, 1024]⟩
abbrev SKV : Shape := ⟨4, ![4, 16, 64, 64]⟩

/-- Column `64·h + d` of a 1024-wide row: lane `d` of head `h`. -/
def col (h : Fin 16) (d : Fin 64) : Fin 1024 := ⟨64 * h.val + d.val, by omega⟩
/-- The head a column belongs to, and its lane within the head. -/
def headOf (j : Fin 1024) : Fin 16 := ⟨j.val / 64, by omega⟩
def laneOf (j : Fin 1024) : Fin 64 := ⟨j.val % 64, by omega⟩
theorem col_head_lane (j : Fin 1024) : col (headOf j) (laneOf j) = j := by
  apply Fin.ext; simp only [col, headOf, laneOf]; omega
theorem headOf_col (h : Fin 16) (d : Fin 64) : headOf (col h d) = h := by
  apply Fin.ext; simp only [col, headOf]; omega
theorem laneOf_col (h : Fin 16) (d : Fin 64) : laneOf (col h d) = d := by
  apply Fin.ext; simp only [col, laneOf]; omega

/-- The scale 1/√64, as the 32-bit pattern of 0.125. -/
def c : EReal := Ideal.ofBits .f32 0x3E000000#32

def proj (x : SX.Idx → EReal) (w : SW.Idx → EReal) (b : Fin 4) (s : Fin 4096) (e : Fin 1024) : EReal :=
  ∑ d : Fin 1024, x (ix3 b s d) * w (ix2 d e)

def kv (x : SX.Idx → EReal) (wk wv : SW.Idx → EReal) (b : Fin 4) (h : Fin 16) (d e : Fin 64) : EReal :=
  ∑ s : Fin 4096, proj x wk b s (col h d) * proj x wv b s (col h e)

def att (x : SX.Idx → EReal) (wq wk wv : SW.Idx → EReal) (b : Fin 4) (s : Fin 4096) (h : Fin 16) (e : Fin 64) : EReal :=
  (∑ d : Fin 64, proj x wq b s (col h d) * kv x wk wv b h d e) * c

def out (x : SX.Idx → EReal) (wq wk wv wo : SW.Idx → EReal) (b : Fin 4) (s : Fin 4096) (e : Fin 1024) : EReal :=
  ∑ j : Fin 1024, att x wq wk wv b s (headOf j) (laneOf j) * wo (ix2 e j)

/-- The query array, the per-head products array and the result array, each as a whole-array function. -/
def Qarr (x : SX.Idx → EReal) (wq : SW.Idx → EReal) : SX.Idx → EReal := fun i => proj x wq (i 0) (i 1) (i 2)
def KVarr (x : SX.Idx → EReal) (wk wv : SW.Idx → EReal) : SKV.Idx → EReal := fun i => kv x wk wv (i 0) (i 1) (i 2) (i 3)
def G (x : SX.Idx → EReal) (wq wk wv wo : SW.Idx → EReal) : SX.Idx → EReal := fun i => out x wq wk wv wo (i 0) (i 1) (i 2)

/-- The last two stages over ANY query array `q` and per-head products array `kvA`: what region 1 computes from
    what region 0 left. -/
def attOf (q : SX.Idx → EReal) (kvA : SKV.Idx → EReal) (b : Fin 4) (s : Fin 4096) (h : Fin 16) (e : Fin 64) : EReal :=
  (∑ d : Fin 64, q (ix3 b s (col h d)) * kvA (ix4 b h d e)) * c
def outOf (q : SX.Idx → EReal) (kvA : SKV.Idx → EReal) (wo : SW.Idx → EReal) (b : Fin 4) (s : Fin 4096) (e : Fin 1024) : EReal :=
  ∑ j : Fin 1024, attOf q kvA b s (headOf j) (laneOf j) * wo (ix2 e j)
def Garr (q : SX.Idx → EReal) (kvA : SKV.Idx → EReal) (wo : SW.Idx → EReal) : SX.Idx → EReal :=
  fun i => outOf q kvA wo (i 0) (i 1) (i 2)

/-- The whole function is the last two stages over the first two stages' arrays. -/
theorem G_eq (x : SX.Idx → EReal) (wq wk wv wo : SW.Idx → EReal) :
    G x wq wk wv wo = Garr (Qarr x wq) (KVarr x wk wv) wo := rfl

/-- Row `1024·j + r` of the 4096: row `r` of tile `j`. -/
def row (j : Fin 4) (r : Fin 1024) : Fin 4096 := ⟨r.val + 1024 * j.val, by omega⟩

/-- A sum over `4·n` rows is the sum over the four tiles of each tile's `n` rows (any tile length `n`). -/
theorem sum_tiles {n : ℕ} (f : Fin (4 * n) → EReal) :
    ∑ s, f s = ∑ j : Fin 4, ∑ r : Fin n, f (finProdFinEquiv (j, r)) := by
  rw [← Equiv.sum_comp finProdFinEquiv f, Fintype.sum_prod_type]

/-- A sum over the 4096 rows is the sum over the four tiles of each tile's 1024 rows, in the order an accumulator
    started at zero adds them. -/
theorem sum_rows (f : Fin 4096 → EReal) :
    ∑ s : Fin 4096, f s = (((0 + ∑ r : Fin 1024, f (row 0 r)) + ∑ r : Fin 1024, f (row 1 r)) + ∑ r : Fin 1024, f (row 2 r)) + ∑ r : Fin 1024, f (row 3 r) := by
  have h := sum_tiles (n := 1024) f
  rw [Fin.sum_univ_four] at h
  rw [zero_add]
  exact h

end Cert.Spec

end
-- ==== Proof.Val.Host.lean ====
/-
  What the buffers hold at the two regions' entries, over the extended reals: the four weight casts are the weights
  themselves, x is untouched by them, region 0's two results are what its write-backs leave and region 1's entry finds
  exactly those beside the cast output weights; the program's result buffer ends at what region 1's write-backs leave.
-/
import proofs.«119639_j50508815401129_1_alg».proof.Proof.Fr.Main
import proofs.«119639_j50508815401129_1_alg».proof.Proof.Val.Spec
import Idealize.ShloMosaic.Lib.StableHlo.Run

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr
open Idealize.ShloMosaic.StableHlo

variable (m : (ℓ : Loc nD τ sig) → Buf (Elt Ideal) ℓ) (ρ : Dev nD → PrngReg)

theorem V1_arg0 (c : Dev nD) : (V1 (F := Ideal) m ρ c main_arg0 : S4x4096x1024.Idx → EReal) = m ((c.tc : Thread nD τ).loc main_arg0) := by
  show StableHlo.after hostOps0 (W0 m ρ c) (Proc.devRef .tc main_arg0) = _
  dsimp only [hostOps0]
  after_results <;> rfl

/-- The bf16 cast of `main_arg1` is `main_arg1` itself over the extended reals (a change of float format is the identity). -/
theorem V1_main_v0 (c : Dev nD) : (V1 (F := Ideal) m ρ c main_v0 : S1024x1024.Idx → EReal) = m ((c.tc : Thread nD τ).loc main_arg1) := by
  show StableHlo.after hostOps0 (W0 m ρ c) (Proc.devRef .tc main_v0) = _
  dsimp only [hostOps0]
  after_results <;> rfl
/-- The bf16 cast of `main_arg2` is `main_arg2` itself over the extended reals (a change of float format is the identity). -/
theorem V1_main_v1 (c : Dev nD) : (V1 (F := Ideal) m ρ c main_v1 : S1024x1024.Idx → EReal) = m ((c.tc : Thread nD τ).loc main_arg2) := by
  show StableHlo.after hostOps0 (W0 m ρ c) (Proc.devRef .tc main_v1) = _
  dsimp only [hostOps0]
  after_results <;> rfl
/-- The bf16 cast of `main_arg3` is `main_arg3` itself over the extended reals (a change of float format is the identity). -/
theorem V1_main_v2 (c : Dev nD) : (V1 (F := Ideal) m ρ c main_v2 : S1024x1024.Idx → EReal) = m ((c.tc : Thread nD τ).loc main_arg3) := by
  show StableHlo.after hostOps0 (W0 m ρ c) (Proc.devRef .tc main_v2) = _
  dsimp only [hostOps0]
  after_results <;> rfl
/-- The bf16 cast of `main_arg4` is `main_arg4` itself over the extended reals (a change of float format is the identity). -/
theorem V1_main_v3 (c : Dev nD) : (V1 (F := Ideal) m ρ c main_v3 : S1024x1024.Idx → EReal) = m ((c.tc : Thread nD τ).loc main_arg4) := by
  show StableHlo.after hostOps0 (W0 m ρ c) (Proc.devRef .tc main_v3) = _
  dsimp only [hostOps0]
  after_results <;> rfl

/-- Region 0 does not touch the cast output weights. -/
theorem V2_v3 (c : Dev nD) : (V2 (F := Ideal) m ρ c main_v3 : S1024x1024.Idx → EReal) = m ((c.tc : Thread nD τ).loc main_arg4) :=
  (W2_of_ne m ρ c main_v3 (by decide)).trans (V1_main_v3 m ρ c)

theorem V2_q (c : Dev nD) : V2 (F := Ideal) m ρ c main_v4_0 = (dat0 (V1 m ρ) c).arrAt 4 cfg0.N := W2_arr m ρ c 4
theorem V2_kv (c : Dev nD) : V2 (F := Ideal) m ρ c main_v4_1 = (dat0 (V1 m ρ) c).arrAt 5 cfg0.N := W2_arr m ρ c 5
theorem W3_v5 (c : Dev nD) : W3 (F := Ideal) m ρ c (Proc.devRef .tc main_v5) = (dat1 (V2 m ρ) c).arrAt 3 cfg1.N := W3_arr m ρ c 3

end Cert.KernelIdeal.Val

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Val.Pay0.lean ====
/-
  Region 0's projections of one tile, read at an index. With x0 the tile's [1, 1024, 1024] block of x and w a whole
  weight block, the body's three products (each a matrix product into a zero accumulator, the formats' changes the
  identity) are, at row r and column e, Σ_d x0(0, r, d) · w(d, e).
-/
import proofs.«119639_j50508815401129_1_alg».proof.Proof.Gen.KernelIdeal.Skeleton
import proofs.«119639_j50508815401129_1_alg».proof.Proof.LibPlainDot
import Idealize.ShloMosaic.Lib.Pipeline.Value

noncomputable section

open scoped BigOperators

namespace Cert.KernelIdeal.Val

open Idealize.ShloMosaic Idealize.ShloMosaic.ValueIdx
open Cert.KernelIdeal Cert.KernelIdeal.Gen

/-- The square product's dimension numbers are the plain ones. -/
theorem plain_sq : PlainDot.IsPlain dot_S1024x1024_S1024x1024_S1024x1024_1_0_0_1_n_n := ⟨rfl, rfl, rfl, rfl, rfl, rfl⟩

theorem cons0_ix2 (r : Fin 1024) (d : Fin 1024) :
    (Fin.cons (⟨0, Nat.one_pos⟩ : Fin 1) (ix2 r d) : S1x1024x1024.Idx) = ix3 (0 : Fin 1) r d := by
  funext a
  match a with
  | ⟨0, _⟩ => rfl
  | ⟨1, _⟩ => rfl
  | ⟨2, _⟩ => rfl

/-- The tile with its unit axis dropped (and its format changed, which is the identity). -/
theorem pay3_apply (x0 : Vec Ideal S1x1024x1024 .f32) (r d : Fin 1024) :
    k0_pay3 (F := Ideal) x0 (ix2 r d) = x0 (ix3 (0 : Fin 1) r d) := by
  unfold k0_pay3
  refine (shapeCast_dropUnit_apply ![1024, 1024] x0 _ (ix2 r d)).trans ?_
  exact congrArg x0 (cons0_ix2 r d)

/-- The key (and likewise value) projection of the tile. -/
theorem pay6_apply (x0 : Vec Ideal S1x1024x1024 .f32) (w : Vec Ideal S1024x1024 .bf16) (r e : Fin 1024) :
    k0_pay6 (F := Ideal) x0 w (ix2 r e) = ∑ d : Fin 1024, x0 (ix3 (0 : Fin 1) r d) * w (ix2 d e) := by
  unfold k0_pay6
  refine (PlainDot.matmul_zero_plain _ plain_sq none (k0_pay3 (F := Ideal) x0) _ r e).trans ?_
  refine Finset.sum_congr rfl fun d _ => ?_
  rw [pay3_apply, shapeCast_self]

theorem pay7_apply (x0 : Vec Ideal S1x1024x1024 .f32) (w : Vec Ideal S1024x1024 .bf16) (r e : Fin 1024) :
    k0_pay7 (F := Ideal) x0 w (ix2 r e) = ∑ d : Fin 1024, x0 (ix3 (0 : Fin 1) r d) * w (ix2 d e) := by
  unfold k0_pay7
  refine (PlainDot.matmul_zero_plain _ plain_sq none (k0_pay3 (F := Ideal) x0) _ r e).trans ?_
  refine Finset.sum_congr rfl fun d _ => ?_
  rw [pay3_apply, shapeCast_self]

end Cert.KernelIdeal.Val

end
-- ==== Proof.Val.QArr.lean ====
/-
  The query array after region 0. At every grid point the region writes back the query window's block, which holds the
  tile's rows of x times the query weights; the 16 blocks tile the array, so it ends holding, at (b, s, e),
  Σ_d x(b, s, d) · wq(d, e).
-/
import proofs.«119639_j50508815401129_1_alg».proof.Proof.Fr.Data0
import proofs.«119639_j50508815401129_1_alg».proof.Proof.Val.Spec
import proofs.«119639_j50508815401129_1_alg».proof.Proof.Val.Pay0

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

namespace QArr

/-! ## What the body leaves in the query output's buffer

In each of the three cases (a batch's first tile, a middle tile, its last tile) the query output receives ONE store,
of the whole block, whose value depends only on the x block and the query-weight block: the scratch and the other two
weight blocks do not enter it. -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A batch's first tile: the query output's buffer after the body is the stored product of the x block and the query-weight block. -/
theorem piece_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i)
    (x0 : Vec F S1x1024x1024 .f32) (x1 : Vec F S1024x1024 .bf16) (x2 : Vec F S1024x1024 .bf16) (x3 : Vec F S1024x1024 .bf16) :
    out0_A_4 c i arg2 harg2 arg3 harg3 arg4 harg4 arg5 harg5 arg6 harg6 arg7 harg7 arg8 harg8 hc0 hc1 x0 x1 x2 x3 = k0_pay4 x0 x1 := by
  unfold out0_A_4
  rw [View.read_writes_eq_canon _ _ _ (cover0_A_4 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero hz3]
  simp only [View.readAt_eq_ld, harg2.read_unread, harg3.read_unread, View.ld_unit_zero (S := S1x1024x1024) hz3,
    View.ld_unit_zero (S := S1024x1024) hz2]

/-- A middle tile: the same store, whatever the scratch held. -/
theorem piece_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i)
    (x0 : Vec F S1x1024x1024 .f32) (x1 : Vec F S1024x1024 .bf16) (x2 : Vec F S1024x1024 .bf16) (x3 : Vec F S1024x1024 .bf16) (xs0 : Vec F S16x64x64 .f32) :
    out0_B_4 c i arg2 harg2 arg3 harg3 arg4 harg4 arg5 harg5 arg6 harg6 arg7 harg7 arg8 harg8 hc0 hc1 x0 x1 x2 x3 xs0 = k0_pay4 x0 x1 := by
  unfold out0_B_4
  rw [View.read_writes_eq_canon _ _ _ (cover0_B_4 c i arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero hz3]
  simp only [View.readAt_eq_ld, harg2.read_unread, harg3.read_unread, View.ld_unit_zero (S := S1x1024x1024) hz3,
    View.ld_unit_zero (S := S1024x1024) hz2]

/-- A batch's last tile: the same store, whatever the scratch held. -/
theorem piece_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i)
    (x0 : Vec F S1x1024x1024 .f32) (x1 : Vec F S1024x1024 .bf16) (x2 : Vec F S1024x1024 .bf16) (x3 : Vec F S1024x1024 .bf16) (xs0 : Vec F S16x64x64 .f32) :
    out0_C_4 c i arg2 harg2 arg3 harg3 arg4 harg4 arg5 harg5 arg6 harg6 arg7 harg7 arg8 harg8 hc0 hc1 x0 x1 x2 x3 xs0 = k0_pay4 x0 x1 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg2.read_unread, harg3.read_unread, View.ld_unit_zero (S := S1x1024x1024) hz3,
    View.ld_unit_zero (S := S1024x1024) hz2]

end Pieces

/-! ## The stored value at an index -/

/-- The indices of a [1, 1024, 1024] block with the unit axis dropped. -/
theorem succ_ix3 (r e : Fin 1024) :
    (fun a : Fin 2 => (ix3 (0 : Fin 1) r e : S1x1024x1024.Idx) a.succ) = ix2 r e := by
  funext a
  match a with
  | ⟨0, _⟩ => rfl
  | ⟨1, _⟩ => rfl

/-- The query projection of the tile, stored with its unit axis back: at (0, r, e) it is Σ_d x0(0, r, d) · w(d, e). -/
theorem pay4_apply (x0 : Vec Ideal S1x1024x1024 .f32) (w : Vec Ideal S1024x1024 .bf16) (r e : Fin 1024) :
    k0_pay4 (F := Ideal) x0 w (ix3 (0 : Fin 1) r e) = ∑ d : Fin 1024, x0 (ix3 (0 : Fin 1) r d) * w (ix2 d e) := by
  unfold k0_pay4
  refine (shapeCast_addUnit_apply ![1024, 1024] _ _ (ix3 (0 : Fin 1) r e)).trans ?_
  refine (congrArg _ (succ_ix3 r e)).trans ?_
  refine (truncf_apply (ψ := .bf16) _ bitsLt_bf16_f32 (ix2 r e)).trans ?_
  refine (PlainDot.matmul_zero_plain _ plain_sq none (k0_pay3 (F := Ideal) x0) _ r e).trans ?_
  refine Finset.sum_congr rfl fun d _ => ?_
  rw [pay3_apply, shapeCast_self]

/-! ## From the blocks to the array -/

section Blocks
variable (V : (c : Dev nD) → (b : Ref sig .tc) → Buf (Elt Ideal) ((c : Thread nD τ).loc b)) (c : Dev nD)

/-- The block indices over the 16 points: at point t the x window and the query window sit at block (t / 4, t % 4, 0),
    the weight window at block (0, 0). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_4.index t (0 : Fin 3) = t.val / 4 ∧ win0_4.index t (1 : Fin 3) = t.val % 4 ∧ win0_4.index t (2 : Fin 3) = 0 :=
  (by decide +kernel : ∀ t : Fin grid0.N, _)

/-- The x block and the query-weight block at point t, and the two arrays they are read off, at their literal types. -/
abbrev xblk (t : Fin cfg0.N) : Vec Ideal S1x1024x1024 .f32 := iblk0 V c 0 t
abbrev wblk (t : Fin cfg0.N) : Vec Ideal S1024x1024 .bf16 := iblk0 V c 1 t
abbrev xarr : S4x4096x1024.Idx → EReal := V c main_arg0
abbrev warr : S1024x1024.Idx → EReal := V c main_v0

/-- The x block at point t holds, at (0, r, d), x at batch t / 4, row r of tile t % 4, column d. -/
theorem xblk_apply (t : Fin cfg0.N) (b j : Fin 4) (hb : b.val = t.val / 4) (hj : j.val = t.val % 4) (r d : Fin 1024) :
    xblk V c t (ix3 (0 : Fin 1) r d) = xarr V c (ix3 b (Cert.Spec.row j r) d) := by
  show V c main_arg0 (((cfg0.win 0).blk t).view.emb (ix3 (0 : Fin 1) r d)) = V c main_arg0 (ix3 b (Cert.Spec.row j r) d)
  obtain ⟨e0, e1, e2, -⟩ := idx_facts t
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * r.val = r.val + 1024 * j.val; omega
  | ⟨2, _⟩ => show win0_0.index t (2 : Fin 3) * 1024 + 1 * d.val = d.val; omega

/-- The weight block at every point is the whole weight array. -/
theorem wblk_apply (t : Fin cfg0.N) (d e : Fin 1024) : wblk V c t (ix2 d e) = warr V c (ix2 d e) := by
  show V c main_v0 (((cfg0.win 1).blk t).view.emb (ix2 d e)) = V c main_v0 (ix2 d e)
  obtain ⟨-, -, -, e3, e4, -⟩ := idx_facts t
  refine congrArg _ (funext fun a => Fin.ext ?_)
  match a with
  | ⟨0, _⟩ => show win0_1.index t (0 : Fin 2) * 1024 + 1 * d.val = d.val; omega
  | ⟨1, _⟩ => show win0_1.index t (1 : Fin 2) * 1024 + 1 * e.val = e.val; omega

/-- What the body stores at point t, at (0, r, e): the projection of x at batch t / 4, row r of tile t % 4. -/
theorem pay_pt (t : Fin cfg0.N) (b j : Fin 4) (hb : b.val = t.val / 4) (hj : j.val = t.val % 4) (r e : Fin 1024) :
    k0_pay4 (F := Ideal) (xblk V c t) (wblk V c t) (ix3 (0 : Fin 1) r e)
      = Cert.Spec.Qarr (xarr V c) (warr V c) (ix3 b (Cert.Spec.row j r) e) := by
  refine (pay4_apply (xblk V c t) (wblk V c t) r e).trans ?_
  show _ = ∑ d : Fin 1024, xarr V c (ix3 b (Cert.Spec.row j r) d) * warr V c (ix2 d e)
  refine Finset.sum_congr rfl fun d _ => ?_
  exact congrArg₂ (· * ·) (xblk_apply V c t b j hb hj r d) (wblk_apply V c t d e)

/-- The same at any index of the block, against the array index the query window's block puts it at. -/
theorem flushed_pt (t : Fin cfg0.N) (y : S1x1024x1024.Idx) :
    k0_pay4 (F := Ideal) (xblk V c t) (wblk V c t) y
      = Cert.Spec.Qarr (xarr V c) (warr V c) (((cfg0.win 4).blk t).view.emb y) := by
  obtain ⟨a, r, e, rfl⟩ : ∃ (a : Fin 1) (r e : Fin 1024), y = ix3 a r e := ⟨y 0, y 1, y 2, eq_ix3 y⟩
  obtain rfl : a = 0 := Subsingleton.elim _ _
  have hN : t.val < 16 := lt_of_lt_of_eq t.isLt N_0
  refine (pay_pt V c t ⟨t.val / 4, by omega⟩ ⟨t.val % 4, by omega⟩ rfl rfl r e).trans ?_
  obtain ⟨-, -, -, -, -, e5, e6, e7⟩ := idx_facts t
  refine congrArg _ (funext fun a => Fin.ext ?_)
  match a with
  | ⟨0, _⟩ => show t.val / 4 = win0_4.index t (0 : Fin 3) * 1 + 1 * 0; omega
  | ⟨1, _⟩ => show r.val + 1024 * (t.val % 4) = win0_4.index t (1 : Fin 3) * 1024 + 1 * r.val; omega
  | ⟨2, _⟩ => show e.val = win0_4.index t (2 : Fin 3) * 1024 + 1 * e.val; omega

/-- In each of the three cases the query output's buffer after the body at point t is the one stored payload. -/
theorem outs_q (t : Fin cfg0.N) :
    (outsAt0 V c t.val t.isLt).1 = k0_pay4 (F := Ideal) (xblk V c t) (wblk V c t) := by
  by_cases h0 : t.val % 4 = 0
  · have h1 : ¬t.val % 4 = 3 := by omega
    rw [outsAt0_A V c t h0 h1]; dsimp only
    exact piece_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t)
  · by_cases h1 : t.val % 4 = 3
    · rw [outsAt0_C V c t h0 h1]; dsimp only
      exact piece_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2
    · rw [outsAt0_B V c t h0 h1]; dsimp only
      exact piece_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2

/-- What point t writes back is block t of the projection of x through the query weights. -/
theorem flushed_eq (t : Fin cfg0.N) :
    (dat0 (F := Ideal) V c).flushed 4 t
      = ((cfg0.win 4).blk t).view.read (Elt Ideal) (Cert.Spec.Qarr (xarr V c) (warr V c)) := by
  show (cfg0.win 4).cut (grid0.coords t) ((dat0 (F := Ideal) V c).after 4 t) = _
  rw [after0_4, outs_q]
  funext y
  exact flushed_pt V c t y

/-- An index of the query array is in point t's block iff each coordinate is in the block's range on its axis. -/
theorem mem_blk (t : Fin cfg0.N) (i : S4x4096x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v4_0).slice (win0_4.rect t)).set ↔ _
  rw [View.set_slice_whole, Rect.mem_set_unit]
  exact Iff.rfl

/-- Row s of batch b lies in the block of point 4·b + s / 1024: the sixteen blocks tile the array. -/
theorem covered (i : S4x4096x1024.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 1024 := (i 2).isLt
  have hN : cfg0.N = 16 := N_0
  obtain ⟨t, ht⟩ : ∃ t : Fin cfg0.N, t.val = 4 * (i 0).val + (i 1).val / 1024 :=
    ⟨⟨4 * (i 0).val + (i 1).val / 1024, by omega⟩, rfl⟩
  refine ⟨t, flush0_4 t, ?_⟩
  rw [mem_blk]
  obtain ⟨-, -, -, -, -, e5, e6, e7⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

end Blocks

end QArr

open QArr in
theorem q_arr (V : (c : Dev nD) → (b : Ref sig .tc) → Buf (Elt Ideal) ((c : Thread nD τ).loc b)) (c : Dev nD)
    (x : Cert.Spec.SX.Idx → EReal) (wq : Cert.Spec.SW.Idx → EReal)
    (hx : (V c main_arg0 : S4x4096x1024.Idx → EReal) = x) (hwq : (V c main_v0 : S1024x1024.Idx → EReal) = wq) :
    ((dat0 (F := Ideal) V c).arrAt 4 cfg0.N : S4x4096x1024.Idx → EReal) = Cert.Spec.Qarr x wq := by
  subst hx hwq
  exact (dat0 (F := Ideal) V c).arrAt_eq_of_cover 4 (Cert.Spec.Qarr (xarr V c) (warr V c))
    (fun t _ => flushed_eq V c t) covered

end Cert.KernelIdeal.Val

end
-- ==== Proof.LibDotT.lean ====
/-
  Two transposed matrix products read at an index.

  Beside the plain M×K by K×N product there are the products that contract the two operands' FIRST axes (lᵀ·r: l is K×M,
  r is K×N) and the two operands' SECOND axes (l·rᵀ: l is M×K, r is N×K), with no batch axes. For each, the accelerator's
  matmul into a zero accumulator and the host's dot_general are, at the extended reals, the sum over the contracted
  coordinate κ of l (κ, p) · r (κ, q), respectively l (p, κ) · r (q, κ).
-/
import Idealize.ShloMosaic.PureOps.Ideal.Laws
import Idealize.ShloMosaic.Lib.ValueIdx

noncomputable section

open scoped BigOperators

namespace Idealize.ShloMosaic.DotT
open Idealize.ShloMosaic Idealize.ShloMosaic.ValueIdx

/-! ## lᵀ·r: both first axes contracted (l : K×M, r : K×N) -/

namespace TN

structure Is {M K N : Nat} (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section Axes
variable {M K N : Nat} (d : DotDims ⟨2, ![K, M]⟩ ⟨2, ![K, N]⟩ ⟨2, ![M, N]⟩) (hd : Is d)
include hd

theorem contr_rank : d.contr.rank = 1 := by
  rw [d.rank_contr, hd.lc]; rfl

theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

theorem lhs_axis0 (j : (⟨2, ![M, N]⟩ : Shape).Idx) (k : d.contr.Idx) :
    (d.lhsIdx j k 0).val = (k ⟨0, by rw [contr_rank d hd]; exact Nat.one_pos⟩).val :=
  d.lhsIdx_val_of_single hd.lc j k
theorem lhs_axis1 (j : (⟨2, ![M, N]⟩ : Shape).Idx) (k : d.contr.Idx) : (d.lhsIdx j k 1).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index, re-indexed by the contracted coordinate κ. -/
theorem sum_contr {φ₁ φ₂ : FTy} (l : FVec Ideal ⟨2, ![K, M]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 κ p) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 κ p := by
    funext a
    match a with
    | ⟨0, _⟩ => exact Fin.ext ((lhs_axis0 d hd _ _).trans (contrEquiv1_symm_val d K _ _ κ))
    | ⟨1, _⟩ => exact Fin.ext (lhs_axis1 d hd _ _)
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator at (p, q). -/
theorem matmul_zero {M K N : Nat} {φ₁ φ₂ : FTy} (d : DotDims ⟨2, ![K, M]⟩ ⟨2, ![K, N]⟩ ⟨2, ![M, N]⟩) (hd : Is d)
    (prec : Option ContractPrecision) (l : FVec Ideal ⟨2, ![K, M]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 κ p) * r (ix2 κ q) :=
  (Ideal.matmul_constant_zero_apply d prec l r (ix2 p q)).trans (sum_contr d hd l r p q)

/-- The host's dot_general at (p, q): the same sum, whatever the schedule. -/
theorem dotGeneral {M K N : Nat} {φ₁ φ₂ : FTy} (d : DotDims ⟨2, ![K, M]⟩ ⟨2, ![K, N]⟩ ⟨2, ![M, N]⟩) (hd : Is d)
    (prec : Option ContractPrecision) (sched : HostSchedule)
    (l : FVec Ideal ⟨2, ![K, M]⟩ φ₁) (r : FVec Ideal ⟨2, ![K, N]⟩ φ₂) (p : Fin M) (q : Fin N) :
    FloatOps.dotGeneral d prec sched l r (ix2 p q) = ∑ κ : Fin K, l (ix2 κ p) * r (ix2 κ q) :=
  (Ideal.dotGeneral_apply d prec sched l r (ix2 p q)).trans (sum_contr d hd l r p q)

end TN

/-! ## l·rᵀ: both second axes contracted (l : M×K, r : N×K) -/

namespace NT

structure Is {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Axes
variable {M K N : Nat} (d : DotDims ⟨2, ![M, K]⟩ ⟨2, ![N, K]⟩ ⟨2, ![M, N]⟩) (hd : Is d)
include hd

theorem contr_rank : d.contr.rank = 1 := by
  rw [d.rank_contr, hd.lc]; rfl

theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k
theorem rhs_axis0 (j : (⟨2, ![M, N]⟩ : Shape).Idx) (k : d.contr.Idx) : (d.rhsIdx j k 0).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl
theorem rhs_axis1 (j : (⟨2, ![M, N]⟩ : Shape).Idx) (k : d.contr.Idx) :
    (d.rhsIdx j k 1).val = (k ⟨0, by rw [contr_rank d hd]; exact Nat.one_pos⟩).val :=
  d.rhsIdx_val_of_single hd.rc j k

/-- The sum over the contraction index, re-indexed by the contracted coordinate κ. -/
theorem sum_contr {φ₁ φ₂ : FTy} (l : FVec Ideal ⟨2, ![M, K]⟩ φ₁) (r : FVec Ideal ⟨2, ![N, K]⟩ φ₂)
    (p : Fin M) (q : Fin N) :
    ∑ k : d.contr.Idx, l (d.lhsIdx (ix2 p q) k) * r (d.rhsIdx (ix2 p q) k) = ∑ κ : Fin K, l (ix2 p κ) * r (ix2 q κ) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 q κ := by
    funext a
    match a with
    | ⟨0, _⟩ => exact Fin.ext (rhs_axis0 d hd _ _)
    | ⟨1, _⟩ => exact Fin.ext ((rhs_axis1 d hd _ _).trans (contrEquiv1_symm_val d K _ _ κ))
  rw [hl, hr]

end Axes

/-- The accelerator's matmul into the zero accumulator at (p, q). -/
theorem matmul_zero {M K N : Nat} {φ₁ φ₂ : FTy} (d : DotDims ⟨2, ![M, K]⟩ ⟨2, ![N, K]⟩ ⟨2, ![M, N]⟩) (hd : Is d)
    (prec : Option ContractPrecision) (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ κ : Fin K, l (ix2 p κ) * r (ix2 q κ) :=
  (Ideal.matmul_constant_zero_apply d prec l r (ix2 p q)).trans (sum_contr d hd l r p q)

/-- The host's dot_general at (p, q): the same sum, whatever the schedule. -/
theorem dotGeneral {M K N : Nat} {φ₁ φ₂ : FTy} (d : DotDims ⟨2, ![M, K]⟩ ⟨2, ![N, K]⟩ ⟨2, ![M, N]⟩) (hd : Is d)
    (prec : Option ContractPrecision) (sched : HostSchedule)
    (l : FVec Ideal ⟨2, ![M, K]⟩ φ₁) (r : FVec Ideal ⟨2, ![N, K]⟩ φ₂) (p : Fin M) (q : Fin N) :
    FloatOps.dotGeneral d prec sched l r (ix2 p q) = ∑ κ : Fin K, l (ix2 p κ) * r (ix2 q κ) :=
  (Ideal.dotGeneral_apply d prec sched l r (ix2 p q)).trans (sum_contr d hd l r p q)

end NT

end Idealize.ShloMosaic.DotT

end
-- ==== Proof.Val.KVTile.lean ====
/-
  One tile's share of the per-head products, and one head's slab of the accumulator.

  For a 1024-row tile with key rows K and value rows V (each 1024 × 1024, head h in columns 64h … 64h+63) the tile adds to
  the accumulator, at (h, d, e), the sum over the tile's rows r of K(r, 64h+d) · V(r, 64h+e). The body does this one head
  at a time: it loads the head's 1 × 64 × 64 slab, adds the product of the two 1024 × 64 column slices (contracted over
  the rows, into a zero accumulator), and stores the slab back. Here: that update read at an index, for each of the
  sixteen heads' spellings of it, and the two facts about lists of slab stores that the accumulator's contents after a
  grid point rest on.
-/
import proofs.«119639_j50508815401129_1_alg».proof.Proof.Val.Pay0
import proofs.«119639_j50508815401129_1_alg».proof.Proof.Val.Spec
import proofs.«119639_j50508815401129_1_alg».proof.Proof.LibDotT
import Idealize.ShloMosaic.Lib.Pipeline.Value

noncomputable section

open scoped BigOperators

namespace Cert.KernelIdeal.Val

open Idealize.ShloMosaic Idealize.ShloMosaic.ValueIdx
open Cert.KernelIdeal Cert.KernelIdeal.Gen

/-- One tile's share at (h, d, e): the sum over the tile's 1024 rows of K(r, 64h+d) · V(r, 64h+e). -/
def tileKV (K V : FVec Ideal S1024x1024 .bf16) (h : Fin 16) (d e : Fin 64) : EReal :=
  ∑ r : Fin 1024, K (ix2 r (Cert.Spec.col h d)) * V (ix2 r (Cert.Spec.col h e))

/-- The slab product's dimension numbers contract the two operands' first axes. -/
theorem tn_slab : DotT.TN.Is dot_S1024x64_S1024x64_S64x64_0_0_1_1_n_n := ⟨rfl, rfl, rfl, rfl, rfl, rfl⟩

theorem cons0_ix2' (d e : Fin 64) :
    (Fin.cons (⟨0, Nat.one_pos⟩ : Fin 1) (ix2 d e) : S1x64x64.Idx) = ix3 (0 : Fin 1) d e := by
  funext a
  match a with
  | ⟨0, _⟩ => rfl
  | ⟨1, _⟩ => rfl
  | ⟨2, _⟩ => rfl

theorem tail_ix3 (d e : Fin 64) :
    (fun a : Fin 2 => (ix3 (0 : Fin 1) d e : S1x64x64.Idx) a.succ) = ix2 d e := by
  funext a
  match a with
  | ⟨0, _⟩ => rfl
  | ⟨1, _⟩ => rfl

/-- A head's slab update read at (0, d, e): the loaded slab there plus the tile's share — the column slices at offset
    64h read K and V at columns 64h+d and 64h+e, and the product contracts the rows. -/
theorem slab_apply (o : Nat) (hs : S1024x1024.Slices ![0, o] S1024x64) (K V : FVec Ideal S1024x1024 .bf16)
    (l : Vec Ideal S1x64x64 .f32) (h : Fin 16) (ho : o = 64 * h.val) (d e : Fin 64) :
    (shapeCast S1x64x64 (addf (shapeCast S64x64 l shapeCasts_S1x64x64_S64x64)
        (matmul dot_S1024x64_S1024x64_S64x64_0_0_1_1_n_n none (extractStridedSlice S1024x64 ![0, o] K hs)
          (extractStridedSlice S1024x64 ![0, o] V hs) (constant S64x64 .f32 0x00000000#32))) shapeCasts_S64x64_S1x64x64
      : FVec Ideal S1x64x64 .f32) (ix3 (0 : Fin 1) d e)
    = l (ix3 (0 : Fin 1) d e) + tileKV K V h d e := by
  refine (shapeCast_addUnit_apply ![64, 64] _ _ (ix3 (0 : Fin 1) d e)).trans ?_
  refine (congrArg _ (tail_ix3 d e)).trans ?_
  refine (addf_apply _ _ (ix2 d e)).trans ?_
  refine congrArg₂ (· + ·) ?_ ?_
  · refine (shapeCast_dropUnit_apply ![64, 64] l _ (ix2 d e)).trans ?_
    exact congrArg l (cons0_ix2' d e)
  · refine (DotT.TN.matmul_zero _ tn_slab none _ _ d e).trans ?_
    refine Finset.sum_congr rfl fun r _ => ?_
    refine congrArg₂ (· * ·) ?_ ?_
    · refine extractStridedSlice_apply ![0, o] K hs (ix2 r d) (ix2 r (Cert.Spec.col h d)) fun a => ?_
      match a with
      | ⟨0, _⟩ => show r.val = 0 + r.val; omega
      | ⟨1, _⟩ => show 64 * h.val + d.val = o + d.val; omega
    · refine extractStridedSlice_apply ![0, o] V hs (ix2 r e) (ix2 r (Cert.Spec.col h e)) fun a => ?_
      match a with
      | ⟨0, _⟩ => show r.val = 0 + r.val; omega
      | ⟨1, _⟩ => show 64 * h.val + e.val = o + e.val; omega

/-! The sixteen heads' updates, as the body spells them: each is the slab update at its head's offset. -/

theorem pay_h0 (x0 : Vec Ideal S1x1024x1024 .f32) (x2 x3 : Vec Ideal S1024x1024 .bf16) (l : Vec Ideal S1x64x64 .f32) (d e : Fin 64) :
    k0_pay8 (F := Ideal) x0 x2 x3 l (ix3 (0 : Fin 1) d e)
      = l (ix3 (0 : Fin 1) d e) + tileKV (k0_pay6 (F := Ideal) x0 x2) (k0_pay7 (F := Ideal) x0 x3) 0 d e :=
  slab_apply 0 slices_S1024x1024_o0_0_S1024x64 _ _ l 0 rfl d e
theorem pay_h1 (x0 : Vec Ideal S1x1024x1024 .f32) (x2 : Vec Ideal S1024x1024 .bf16) (V : FVec Ideal S1024x1024 .bf16) (l : Vec Ideal S1x64x64 .f32) (d e : Fin 64) :
    k0_pay10 (F := Ideal) V (k0_pay9 (F := Ideal) x0 x2) l (ix3 (0 : Fin 1) d e)
      = l (ix3 (0 : Fin 1) d e) + tileKV (k0_pay6 (F := Ideal) x0 x2) V 1 d e :=
  slab_apply 64 slices_S1024x1024_o0_64_S1024x64 _ V l 1 rfl d e
theorem pay_h2 (K V : FVec Ideal S1024x1024 .bf16) (l : Vec Ideal S1x64x64 .f32) (d e : Fin 64) :
    (k0_pay11 K V l : FVec Ideal S1x64x64 .f32) (ix3 (0 : Fin 1) d e) = l (ix3 (0 : Fin 1) d e) + tileKV K V 2 d e :=
  slab_apply 128 slices_S1024x1024_o0_128_S1024x64 K V l 2 rfl d e
theorem pay_h3 (K V : FVec Ideal S1024x1024 .bf16) (l : Vec Ideal S1x64x64 .f32) (d e : Fin 64) :
    (k0_pay12 K V l : FVec Ideal S1x64x64 .f32) (ix3 (0 : Fin 1) d e) = l (ix3 (0 : Fin 1) d e) + tileKV K V 3 d e :=
  slab_apply 192 slices_S1024x1024_o0_192_S1024x64 K V l 3 rfl d e
theorem pay_h4 (K V : FVec Ideal S1024x1024 .bf16) (l : Vec Ideal S1x64x64 .f32) (d e : Fin 64) :
    (k0_pay14 (k0_pay13 K V l) : FVec Ideal S1x64x64 .f32) (ix3 (0 : Fin 1) d e) = l (ix3 (0 : Fin 1) d e) + tileKV K V 4 d e :=
  slab_apply 256 slices_S1024x1024_o0_256_S1024x64 K V l 4 rfl d e
theorem pay_h5 (K V : FVec Ideal S1024x1024 .bf16) (l : Vec Ideal S1x64x64 .f32) (d e : Fin 64) :
    (k0_pay15 K V l : FVec Ideal S1x64x64 .f32) (ix3 (0 : Fin 1) d e) = l (ix3 (0 : Fin 1) d e) + tileKV K V 5 d e :=
  slab_apply 320 slices_S1024x1024_o0_320_S1024x64 K V l 5 rfl d e
theorem pay_h6 (K V : FVec Ideal S1024x1024 .bf16) (l : Vec Ideal S1x64x64 .f32) (d e : Fin 64) :
    (k0_pay16 K V l : FVec Ideal S1x64x64 .f32) (ix3 (0 : Fin 1) d e) = l (ix3 (0 : Fin 1) d e) + tileKV K V 6 d e :=
  slab_apply 384 slices_S1024x1024_o0_384_S1024x64 K V l 6 rfl d e
theorem pay_h7 (K V : FVec Ideal S1024x1024 .bf16) (l : Vec Ideal S1x64x64 .f32) (d e : Fin 64) :
    (k0_pay17 K V l : FVec Ideal S1x64x64 .f32) (ix3 (0 : Fin 1) d e) = l (ix3 (0 : Fin 1) d e) + tileKV K V 7 d e :=
  slab_apply 448 slices_S1024x1024_o0_448_S1024x64 K V l 7 rfl d e
theorem pay_h8 (K V : FVec Ideal S1024x1024 .bf16) (l : Vec Ideal S1x64x64 .f32) (d e : Fin 64) :
    (k0_pay20 (k0_pay18 K) (k0_pay19 V) l : FVec Ideal S1x64x64 .f32) (ix3 (0 : Fin 1) d e) = l (ix3 (0 : Fin 1) d e) + tileKV K V 8 d e :=
  slab_apply 512 slices_S1024x1024_o0_512_S1024x64 K V l 8 rfl d e
theorem pay_h9 (K V : FVec Ideal S1024x1024 .bf16) (l : Vec Ideal S1x64x64 .f32) (d e : Fin 64) :
    (k0_pay21 K V l : FVec Ideal S1x64x64 .f32) (ix3 (0 : Fin 1) d e) = l (ix3 (0 : Fin 1) d e) + tileKV K V 9 d e :=
  slab_apply 576 slices_S1024x1024_o0_576_S1024x64 K V l 9 rfl d e
theorem pay_h10 (K V : FVec Ideal S1024x1024 .bf16) (l : Vec Ideal S1x64x64 .f32) (d e : Fin 64) :
    (k0_pay22 K V l : FVec Ideal S1x64x64 .f32) (ix3 (0 : Fin 1) d e) = l (ix3 (0 : Fin 1) d e) + tileKV K V 10 d e :=
  slab_apply 640 slices_S1024x1024_o0_640_S1024x64 K V l 10 rfl d e
theorem pay_h11 (K V : FVec Ideal S1024x1024 .bf16) (l : Vec Ideal S1x64x64 .f32) (d e : Fin 64) :
    (k0_pay24 (k0_pay23 K V l) : FVec Ideal S1x64x64 .f32) (ix3 (0 : Fin 1) d e) = l (ix3 (0 : Fin 1) d e) + tileKV K V 11 d e :=
  slab_apply 704 slices_S1024x1024_o0_704_S1024x64 K V l 11 rfl d e
theorem pay_h12 (K V : FVec Ideal S1024x1024 .bf16) (l : Vec Ideal S1x64x64 .f32) (d e : Fin 64) :
    (k0_pay25 K V l : FVec Ideal S1x64x64 .f32) (ix3 (0 : Fin 1) d e) = l (ix3 (0 : Fin 1) d e) + tileKV K V 12 d e :=
  slab_apply 768 slices_S1024x1024_o0_768_S1024x64 K V l 12 rfl d e
theorem pay_h13 (K V : FVec Ideal S1024x1024 .bf16) (l : Vec Ideal S1x64x64 .f32) (d e : Fin 64) :
    (k0_pay26 K V l : FVec Ideal S1x64x64 .f32) (ix3 (0 : Fin 1) d e) = l (ix3 (0 : Fin 1) d e) + tileKV K V 13 d e :=
  slab_apply 832 slices_S1024x1024_o0_832_S1024x64 K V l 13 rfl d e
theorem pay_h14 (K V : FVec Ideal S1024x1024 .bf16) (l : Vec Ideal S1x64x64 .f32) (d e : Fin 64) :
    (k0_pay27 K V l : FVec Ideal S1x64x64 .f32) (ix3 (0 : Fin 1) d e) = l (ix3 (0 : Fin 1) d e) + tileKV K V 14 d e :=
  slab_apply 896 slices_S1024x1024_o0_896_S1024x64 K V l 14 rfl d e
theorem pay_h15 (K V : FVec Ideal S1024x1024 .bf16) (l : Vec Ideal S1x64x64 .f32) (d e : Fin 64) :
    (k0_pay1 (k0_pay28 K) (k0_pay29 V) (constant S64x64 .f32 0x00000000#32) l : FVec Ideal S1x64x64 .f32) (ix3 (0 : Fin 1) d e) = l (ix3 (0 : Fin 1) d e) + tileKV K V 15 d e :=
  slab_apply 960 slices_S1024x1024_o0_960_S1024x64 K V l 15 rfl d e

/-! ## Lists of slab stores

The accumulator is [16, 64, 64]; head h's slab is the unit-stride rectangle at offsets (h, 0, 0) of sizes (1, 64, 64),
and an element (0, d, e) of the slab sits at (h, d, e) of the accumulator. -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The zeroing store's payload is zero everywhere. -/
theorem pay5_apply (y : S16x64x64.Idx) : k0_pay5 (F := Ideal) y = 0 := by
  unfold k0_pay5
  rw [shapeCast_self]
  exact Ideal.ofBits_zero_f32

/-- Where slab h's element (0, d, e) sits in the accumulator. -/
theorem slab_emb (o : Nat) (inb : ∀ a, (![o, 0, 0] : Fin 3 → Nat) a + (![1, 64, 64] : Fin 3 → Nat) a ≤ S16x64x64.size a)
    (h : Fin 16) (ho : o = h.val) (d e : Fin 64) :
    (Rect.unit (s := S16x64x64) ![o, 0, 0] ![1, 64, 64] inb).emb (ix3 (0 : Fin 1) d e) = ix3 h d e := by
  funext a
  apply Fin.ext
  match a with
  | ⟨0, _⟩ => show o + 1 * 0 = h.val; omega
  | ⟨1, _⟩ => show 0 + 1 * d.val = d.val; omega
  | ⟨2, _⟩ => show 0 + 1 * e.val = e.val; omega

/-- A store into slab h whose payload at (0, d, e) is G (h, d, e) is a block of G. -/
theorem slab_piece (G : S16x64x64.Idx → EReal) (o : Nat)
    (inb : ∀ a, (![o, 0, 0] : Fin 3 → Nat) a + (![1, 64, 64] : Fin 3 → Nat) a ≤ S16x64x64.size a)
    (h : Fin 16) (ho : o = h.val) (w : S1x64x64.Idx → EReal)
    (hw : ∀ d e : Fin 64, w (ix3 (0 : Fin 1) d e) = G (ix3 h d e)) :
    ∀ x : (Rect.unit (s := S16x64x64) ![o, 0, 0] ![1, 64, 64] inb).shape.Idx,
      w x = G ((Rect.unit (s := S16x64x64) ![o, 0, 0] ![1, 64, 64] inb).emb x) := by
  intro x
  obtain ⟨z, d, e, rfl⟩ : ∃ (z : Fin 1) (d e : Fin 64), x = ix3 z d e := ⟨x 0, x 1, x 2, eq_ix3 x⟩
  obtain rfl : z = 0 := Subsingleton.elim _ _
  exact (hw d e).trans (congrArg G (slab_emb o inb h ho d e).symm)

/-- A store into slab h of "what the slab held (contents X, loaded through the slab's rectangle) plus the tile's share" is
    a block of X + T. -/
theorem slab_piece_upd (X : Vec Ideal S16x64x64 .f32) (T : Fin 16 → Fin 64 → Fin 64 → EReal) (o : Nat)
    (inb : ∀ a, (![o, 0, 0] : Fin 3 → Nat) a + (![1, 64, 64] : Fin 3 → Nat) a ≤ S16x64x64.size a)
    (inbL : ∀ a, (![o, 0, 0] : Fin 3 → Nat) a + S1x64x64.size a ≤ S16x64x64.size a)
    (h : Fin 16) (ho : o = h.val) (w l : Vec Ideal S1x64x64 .f32)
    (hl : l = View.ld (Val := Elt Ideal) X (Rect.unit (s := S16x64x64) ![o, 0, 0] S1x64x64.size inbL))
    (hw : ∀ d e : Fin 64, w (ix3 (0 : Fin 1) d e) = l (ix3 (0 : Fin 1) d e) + T h d e) :
    ∀ x : (Rect.unit (s := S16x64x64) ![o, 0, 0] ![1, 64, 64] inb).shape.Idx,
      w x = (fun y : S16x64x64.Idx => X y + T (y 0) (y 1) (y 2)) ((Rect.unit (s := S16x64x64) ![o, 0, 0] ![1, 64, 64] inb).emb x) := by
  subst hl
  refine slab_piece (fun y : S16x64x64.Idx => X y + T (y 0) (y 1) (y 2)) o inb h ho w fun d e => (hw d e).trans ?_
  exact congrArg (fun z => X z + T h d e) (slab_emb o inbL h ho d e)

/-- One more head over stores that have already updated the heads below it, all over a zeroed accumulator: if the
    earlier stores leave 0 + T on the heads below o and 0 from o on, then the store into slab o of "what the slab holds
    after those stores, plus the tile's share" leaves 0 + T on the heads up to o and 0 above. -/
theorem slab_step (T : Fin 16 → Fin 64 → Fin 64 → EReal) {sig : RefSig} {κ : Kind} {sp : Space}
    (v : View sig κ sp S16x64x64 .f32) (L : List (View.Piece (Elt Ideal) S16x64x64 .f32)) (o : Nat)
    (inb : ∀ a, (![o, 0, 0] : Fin 3 → Nat) a + (![1, 64, 64] : Fin 3 → Nat) a ≤ S16x64x64.size a)
    (inbL : ∀ a, (![o, 0, 0] : Fin 3 → Nat) a + S1x64x64.size a ≤ S16x64x64.size a)
    (h : Fin 16) (ho : o = h.val) (w l : Vec Ideal S1x64x64 .f32)
    (hl : l = v.readCov L (Rect.unit (s := S16x64x64) ![o, 0, 0] S1x64x64.size inbL).toLoadRect)
    (hw : ∀ d e : Fin 64, w (ix3 (0 : Fin 1) d e) = l (ix3 (0 : Fin 1) d e) + T h d e)
    (hL : ∀ y : S16x64x64.Idx, View.canon L y = if (y 0).val < o then 0 + T (y 0) (y 1) (y 2) else 0) :
    ∀ y : S16x64x64.Idx,
      View.canon ((⟨Rect.unit (s := S16x64x64) ![o, 0, 0] ![1, 64, 64] inb, w⟩ : View.Piece (Elt Ideal) S16x64x64 .f32) :: L) y
        = if (y 0).val < o + 1 then 0 + T (y 0) (y 1) (y 2) else 0 := by
  intro y
  by_cases hm : (y 0).val = o
  · obtain ⟨h', d, e, rfl⟩ : ∃ (h' : Fin 16) (d e : Fin 64), y = ix3 h' d e := ⟨y 0, y 1, y 2, eq_ix3 y⟩
    obtain rfl : h' = h := Fin.ext (hm.trans ho)
    have e1 := View.canon_cons_emb (Val := Elt Ideal) (Rect.unit (s := S16x64x64) ![o, 0, 0] ![1, 64, 64] inb) w L (ix3 (0 : Fin 1) d e)
    rw [slab_emb o inb h' ho d e] at e1
    rw [e1, hw d e, hl, View.readCov_eq_canon']
    have e2 : View.canon L ((Rect.unit (s := S16x64x64) ![o, 0, 0] S1x64x64.size inbL).toLoadRect.idx (ix3 (0 : Fin 1) d e)) = 0 := by
      refine (congrArg (View.canon L) (slab_emb o inbL h' ho d e)).trans ((hL _).trans (if_neg ?_))
      show ¬ h'.val < o
      omega
    refine (congrArg (· + T h' d e) e2).trans (if_pos ?_).symm
    show h'.val < o + 1
    omega
  · have hnm : y ∉ (Rect.unit (s := S16x64x64) ![o, 0, 0] ![1, 64, 64] inb).set := by
      rw [Rect.mem_set_unit]
      intro hall
      have h0 : o ≤ (y 0).val ∧ (y 0).val < o + 1 := hall 0
      omega
    rw [View.canon_cons_of_not_mem (⟨Rect.unit (s := S16x64x64) ![o, 0, 0] ![1, 64, 64] inb, w⟩ : View.Piece (Elt Ideal) S16x64x64 .f32) L hnm, hL y]
    by_cases hlt : (y 0).val < o
    · rw [if_pos hlt, if_pos (by omega)]
    · rw [if_neg hlt, if_neg (by omega)]

end Cert.KernelIdeal.Val

end
-- ==== Proof.Val.KVArr.lean ====
/-
  The per-head products array after region 0. Within a batch the scratch is zeroed at the first tile and gains, at every
  tile, each head's kᵀ·v over the tile's 1024 rows; at the batch's last tile it is copied to the second output's block and
  written back. So the array ends holding, at (b, h, d, e), Σ_s K(b, s, 64h+d) · V(b, s, 64h+e) over all 4096 rows,
  K and V the projections of x through the key and value weights.

  The steps: what the sixteen slab stores of one grid point leave in the scratch, in each of the three positions of a
  point in its batch (first: zero plus the tile's share; otherwise: what the point before left plus the tile's share);
  at a batch's last point the second output's block is that scratch under a unit leading axis; so a batch's last point
  writes back the four tiles' shares added in order onto zero; a tile's share is the sum over the tile's rows of the two
  projections' product, and a sum over the 4096 rows is the sum of its four tiles in that order; the last points' blocks
  cover the array.
-/
import proofs.«119639_j50508815401129_1_alg».proof.Proof.Fr.Data0
import proofs.«119639_j50508815401129_1_alg».proof.Proof.Val.Spec
import proofs.«119639_j50508815401129_1_alg».proof.Proof.Val.KVTile
import Idealize.ShloMosaic.Lib.Pipeline.Value
import Idealize.ShloMosaic.Lib.Tactic

set_option maxRecDepth 16384

noncomputable section

open scoped BigOperators

namespace Cert.KernelIdeal.Val

open Idealize.ShloMosaic Idealize.ShloMosaic.TcCoe Idealize.SL.Sem Idealize.ShloMosaic.ValueIdx Idealize.ShloMosaic.Tactic
open Idealize.ShloMosaic.Pipeline (Dat)
open Cert.KernelIdeal Cert.KernelIdeal.Gen Cert.KernelIdeal.Fr

/-! ## What one grid point's stores leave in the scratch -/

/-- At a batch's first tile: the accumulator is zeroed and then gains the tile's share, head by head; a head's slab,
    loaded after the heads below it were stored, still holds the zero. -/
theorem scratch_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : cond0_0 i) (hc1 : ¬cond0_1 i) (x0 : Vec Ideal S1x1024x1024 .f32) (x1 : Vec Ideal S1024x1024 .bf16) (x2 : Vec Ideal S1024x1024 .bf16) (x3 : Vec Ideal S1024x1024 .bf16) (y : S16x64x64.Idx) :
    sout0_A_0 (F := Ideal) c i arg2 harg2 arg3 harg3 arg4 harg4 arg5 harg5 arg6 harg6 arg7 harg7 arg8 harg8 hc0 hc1 x0 x1 x2 x3 y = 0 + (tileKV (k0_pay6 (F := Ideal) x0 x2) (k0_pay7 (F := Ideal) x0 x3)) (y 0) (y 1) (y 2) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  have hK : (kernelRun0_A.sl.r (F := Ideal) c arg2 harg2 arg4 harg4 x0 x2) = k0_pay6 x0 x2 := by
    unfold kernelRun0_A.sl.r
    simp only [View.readAt_eq_ld, harg2.read_unread, harg4.read_unread, View.ld_unit_zero (S := S1x1024x1024) hz3, View.ld_unit_zero (S := S1024x1024) hz2]
  have hV : (kernelRun0_A.sl.r_1 (F := Ideal) c arg2 harg2 arg5 harg5 x0 x3) = k0_pay7 x0 x3 := by
    unfold kernelRun0_A.sl.r_1
    simp only [View.readAt_eq_ld, harg2.read_unread, harg5.read_unread, View.ld_unit_zero (S := S1x1024x1024) hz3, View.ld_unit_zero (S := S1024x1024) hz2]
  rw [← hK, ← hV]
  have q1 : ∀ y : S16x64x64.Idx, View.canon (kernelRun0_A.sl.HS0_1 (F := Ideal)) y
      = if (y 0).val < 0 then 0 + (tileKV (kernelRun0_A.sl.r (F := Ideal) c arg2 harg2 arg4 harg4 x0 x2) (kernelRun0_A.sl.r_1 (F := Ideal) c arg2 harg2 arg5 harg5 x0 x3)) (y 0) (y 1) (y 2) else 0 := fun y => by
    unfold kernelRun0_A.sl.HS0_1
    rw [View.canon_unit_zero hz3, pay5_apply]
    exact (if_neg (Nat.not_lt_zero _)).symm
  have q2 : ∀ y : S16x64x64.Idx, View.canon (kernelRun0_A.sl.HS0_2 (F := Ideal) c arg2 harg2 arg4 harg4 arg5 harg5 arg8 x0 x2 x3) y
      = if (y 0).val < 1 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 0 inb_S16x64x64_S1x64x64_0_0_0 inb_S16x64x64_S1x64x64_0_0_0 0 rfl _ _ rfl (pay_h0 _ _ _ _) q1
  have q3 : ∀ y : S16x64x64.Idx, View.canon (kernelRun0_A.sl.HS0_3 (F := Ideal) c arg2 harg2 arg4 harg4 arg5 harg5 arg8 x0 x2 x3) y
      = if (y 0).val < 2 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 1 inb_S16x64x64_S1x64x64_1_0_0 inb_S16x64x64_S1x64x64_1_0_0 1 rfl _ _ rfl (pay_h1 _ _ (kernelRun0_A.sl.r_1 (F := Ideal) c arg2 harg2 arg5 harg5 x0 x3) _) q2
  have q4 : ∀ y : S16x64x64.Idx, View.canon (kernelRun0_A.sl.HS0_4 (F := Ideal) c arg2 harg2 arg4 harg4 arg5 harg5 arg8 x0 x2 x3) y
      = if (y 0).val < 3 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 2 inb_S16x64x64_S1x64x64_2_0_0 inb_S16x64x64_S1x64x64_2_0_0 2 rfl _ _ rfl (pay_h2 (kernelRun0_A.sl.r (F := Ideal) c arg2 harg2 arg4 harg4 x0 x2) (kernelRun0_A.sl.r_1 (F := Ideal) c arg2 harg2 arg5 harg5 x0 x3) _) q3
  have q5 : ∀ y : S16x64x64.Idx, View.canon (kernelRun0_A.sl.HS0_5 (F := Ideal) c arg2 harg2 arg4 harg4 arg5 harg5 arg8 x0 x2 x3) y
      = if (y 0).val < 4 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 3 inb_S16x64x64_S1x64x64_3_0_0 inb_S16x64x64_S1x64x64_3_0_0 3 rfl _ _ rfl (pay_h3 (kernelRun0_A.sl.r (F := Ideal) c arg2 harg2 arg4 harg4 x0 x2) (kernelRun0_A.sl.r_1 (F := Ideal) c arg2 harg2 arg5 harg5 x0 x3) _) q4
  have q6 : ∀ y : S16x64x64.Idx, View.canon (kernelRun0_A.sl.HS0_6 (F := Ideal) c arg2 harg2 arg4 harg4 arg5 harg5 arg8 x0 x2 x3) y
      = if (y 0).val < 5 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 4 inb_S16x64x64_S1x64x64_4_0_0 inb_S16x64x64_S1x64x64_4_0_0 4 rfl _ _ rfl (pay_h4 (kernelRun0_A.sl.r (F := Ideal) c arg2 harg2 arg4 harg4 x0 x2) (kernelRun0_A.sl.r_1 (F := Ideal) c arg2 harg2 arg5 harg5 x0 x3) _) q5
  have q7 : ∀ y : S16x64x64.Idx, View.canon (kernelRun0_A.sl.HS0_7 (F := Ideal) c arg2 harg2 arg4 harg4 arg5 harg5 arg8 x0 x2 x3) y
      = if (y 0).val < 6 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 5 inb_S16x64x64_S1x64x64_5_0_0 inb_S16x64x64_S1x64x64_5_0_0 5 rfl _ _ rfl (pay_h5 (kernelRun0_A.sl.r (F := Ideal) c arg2 harg2 arg4 harg4 x0 x2) (kernelRun0_A.sl.r_1 (F := Ideal) c arg2 harg2 arg5 harg5 x0 x3) _) q6
  have q8 : ∀ y : S16x64x64.Idx, View.canon (kernelRun0_A.sl.HS0_8 (F := Ideal) c arg2 harg2 arg4 harg4 arg5 harg5 arg8 x0 x2 x3) y
      = if (y 0).val < 7 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 6 inb_S16x64x64_S1x64x64_6_0_0 inb_S16x64x64_S1x64x64_6_0_0 6 rfl _ _ rfl (pay_h6 (kernelRun0_A.sl.r (F := Ideal) c arg2 harg2 arg4 harg4 x0 x2) (kernelRun0_A.sl.r_1 (F := Ideal) c arg2 harg2 arg5 harg5 x0 x3) _) q7
  have q9 : ∀ y : S16x64x64.Idx, View.canon (kernelRun0_A.sl.HS0_9 (F := Ideal) c arg2 harg2 arg4 harg4 arg5 harg5 arg8 x0 x2 x3) y
      = if (y 0).val < 8 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 7 inb_S16x64x64_S1x64x64_7_0_0 inb_S16x64x64_S1x64x64_7_0_0 7 rfl _ _ rfl (pay_h7 (kernelRun0_A.sl.r (F := Ideal) c arg2 harg2 arg4 harg4 x0 x2) (kernelRun0_A.sl.r_1 (F := Ideal) c arg2 harg2 arg5 harg5 x0 x3) _) q8
  have q10 : ∀ y : S16x64x64.Idx, View.canon (kernelRun0_A.sl.HS0_10 (F := Ideal) c arg2 harg2 arg4 harg4 arg5 harg5 arg8 x0 x2 x3) y
      = if (y 0).val < 9 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 8 inb_S16x64x64_S1x64x64_8_0_0 inb_S16x64x64_S1x64x64_8_0_0 8 rfl _ _ rfl (pay_h8 (kernelRun0_A.sl.r (F := Ideal) c arg2 harg2 arg4 harg4 x0 x2) (kernelRun0_A.sl.r_1 (F := Ideal) c arg2 harg2 arg5 harg5 x0 x3) _) q9
  have q11 : ∀ y : S16x64x64.Idx, View.canon (kernelRun0_A.sl.HS0_11 (F := Ideal) c arg2 harg2 arg4 harg4 arg5 harg5 arg8 x0 x2 x3) y
      = if (y 0).val < 10 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 9 inb_S16x64x64_S1x64x64_9_0_0 inb_S16x64x64_S1x64x64_9_0_0 9 rfl _ _ rfl (pay_h9 (kernelRun0_A.sl.r (F := Ideal) c arg2 harg2 arg4 harg4 x0 x2) (kernelRun0_A.sl.r_1 (F := Ideal) c arg2 harg2 arg5 harg5 x0 x3) _) q10
  have q12 : ∀ y : S16x64x64.Idx, View.canon (kernelRun0_A.sl.HS0_12 (F := Ideal) c arg2 harg2 arg4 harg4 arg5 harg5 arg8 x0 x2 x3) y
      = if (y 0).val < 11 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 10 inb_S16x64x64_S1x64x64_10_0_0 inb_S16x64x64_S1x64x64_10_0_0 10 rfl _ _ rfl (pay_h10 (kernelRun0_A.sl.r (F := Ideal) c arg2 harg2 arg4 harg4 x0 x2) (kernelRun0_A.sl.r_1 (F := Ideal) c arg2 harg2 arg5 harg5 x0 x3) _) q11
  have q13 : ∀ y : S16x64x64.Idx, View.canon (kernelRun0_A.sl.HS0_13 (F := Ideal) c arg2 harg2 arg4 harg4 arg5 harg5 arg8 x0 x2 x3) y
      = if (y 0).val < 12 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 11 inb_S16x64x64_S1x64x64_11_0_0 inb_S16x64x64_S1x64x64_11_0_0 11 rfl _ _ rfl (pay_h11 (kernelRun0_A.sl.r (F := Ideal) c arg2 harg2 arg4 harg4 x0 x2) (kernelRun0_A.sl.r_1 (F := Ideal) c arg2 harg2 arg5 harg5 x0 x3) _) q12
  have q14 : ∀ y : S16x64x64.Idx, View.canon (kernelRun0_A.sl.HS0_14 (F := Ideal) c arg2 harg2 arg4 harg4 arg5 harg5 arg8 x0 x2 x3) y
      = if (y 0).val < 13 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 12 inb_S16x64x64_S1x64x64_12_0_0 inb_S16x64x64_S1x64x64_12_0_0 12 rfl _ _ rfl (pay_h12 (kernelRun0_A.sl.r (F := Ideal) c arg2 harg2 arg4 harg4 x0 x2) (kernelRun0_A.sl.r_1 (F := Ideal) c arg2 harg2 arg5 harg5 x0 x3) _) q13
  have q15 : ∀ y : S16x64x64.Idx, View.canon (kernelRun0_A.sl.HS0_15 (F := Ideal) c arg2 harg2 arg4 harg4 arg5 harg5 arg8 x0 x2 x3) y
      = if (y 0).val < 14 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 13 inb_S16x64x64_S1x64x64_13_0_0 inb_S16x64x64_S1x64x64_13_0_0 13 rfl _ _ rfl (pay_h13 (kernelRun0_A.sl.r (F := Ideal) c arg2 harg2 arg4 harg4 x0 x2) (kernelRun0_A.sl.r_1 (F := Ideal) c arg2 harg2 arg5 harg5 x0 x3) _) q14
  have q16 : ∀ y : S16x64x64.Idx, View.canon (kernelRun0_A.sl.HS0_16 (F := Ideal) c arg2 harg2 arg4 harg4 arg5 harg5 arg8 x0 x2 x3) y
      = if (y 0).val < 15 then 0 + (tileKV (kernelRun0_A.sl.r (F := Ideal) c arg2 harg2 arg4 harg4 x0 x2) (kernelRun0_A.sl.r_1 (F := Ideal) c arg2 harg2 arg5 harg5 x0 x3)) (y 0) (y 1) (y 2) else 0 :=
    slab_step (tileKV (kernelRun0_A.sl.r (F := Ideal) c arg2 harg2 arg4 harg4 x0 x2) (kernelRun0_A.sl.r_1 (F := Ideal) c arg2 harg2 arg5 harg5 x0 x3)) arg8.view _ 14 inb_S16x64x64_S1x64x64_14_0_0 inb_S16x64x64_S1x64x64_14_0_0 14 rfl _ _ rfl (pay_h14 (kernelRun0_A.sl.r (F := Ideal) c arg2 harg2 arg4 harg4 x0 x2) (kernelRun0_A.sl.r_1 (F := Ideal) c arg2 harg2 arg5 harg5 x0 x3) _) q15
  exact (slab_step (tileKV (kernelRun0_A.sl.r (F := Ideal) c arg2 harg2 arg4 harg4 x0 x2) (kernelRun0_A.sl.r_1 (F := Ideal) c arg2 harg2 arg5 harg5 x0 x3)) arg8.view _ 15 inb_S16x64x64_S1x64x64_15_0_0 inb_S16x64x64_S1x64x64_15_0_0 15 rfl _ _ rfl (pay_h15 (kernelRun0_A.sl.r (F := Ideal) c arg2 harg2 arg4 harg4 x0 x2) (kernelRun0_A.sl.r_1 (F := Ideal) c arg2 harg2 arg5 harg5 x0 x3) _) q16 y).trans (if_pos (y 0).isLt)

/-- At a tile that is neither a batch's first nor its last: the accumulator, holding xs0, gains the tile's share. -/
theorem scratch_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : ¬cond0_1 i) (x0 : Vec Ideal S1x1024x1024 .f32) (x1 : Vec Ideal S1024x1024 .bf16) (x2 : Vec Ideal S1024x1024 .bf16) (x3 : Vec Ideal S1024x1024 .bf16) (xs0 : Vec Ideal S16x64x64 .f32) (y : S16x64x64.Idx) :
    sout0_B_0 (F := Ideal) c i arg2 harg2 arg3 harg3 arg4 harg4 arg5 harg5 arg6 harg6 arg7 harg7 arg8 harg8 hc0 hc1 x0 x1 x2 x3 xs0 y = xs0 y + (tileKV (k0_pay6 (F := Ideal) x0 x2) (k0_pay7 (F := Ideal) x0 x3)) (y 0) (y 1) (y 2) := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  refine View.canon_apply_of_pieces (fun y : S16x64x64.Idx => xs0 y + (tileKV (k0_pay6 (F := Ideal) x0 x2) (k0_pay7 (F := Ideal) x0 x3)) (y 0) (y 1) (y 2)) _ ?_ y (scover0_B_0 c i arg2 harg2 arg3 harg3 arg4 harg4 arg5 harg5 arg6 harg6 arg7 harg7 arg8 harg8 hc0 hc1 x0 x1 x2 x3 xs0 y)
  unfold kernelRun0_B
  dsimp only
  sl_unfold_words
  simp only [View.readAt_eq_ld, harg2.read_unread, harg4.read_unread, harg5.read_unread, harg8.read_unread, View.ld_unit_zero (S := S1x1024x1024) hz3, View.ld_unit_zero (S := S1024x1024) hz2]
  intro p hp
  simp only [List.mem_cons, List.not_mem_nil, or_false] at hp
  rcases hp with rfl | rfl | rfl | rfl | rfl | rfl | rfl | rfl | rfl | rfl | rfl | rfl | rfl | rfl | rfl | rfl
  · exact slab_piece_upd xs0 (tileKV (k0_pay6 (F := Ideal) x0 x2) (k0_pay7 (F := Ideal) x0 x3)) 15 inb_S16x64x64_S1x64x64_15_0_0 inb_S16x64x64_S1x64x64_15_0_0 15 rfl _ _ rfl (pay_h15 (k0_pay6 (F := Ideal) x0 x2) (k0_pay7 (F := Ideal) x0 x3) _)
  · exact slab_piece_upd xs0 (tileKV (k0_pay6 (F := Ideal) x0 x2) (k0_pay7 (F := Ideal) x0 x3)) 14 inb_S16x64x64_S1x64x64_14_0_0 inb_S16x64x64_S1x64x64_14_0_0 14 rfl _ _ rfl (pay_h14 (k0_pay6 (F := Ideal) x0 x2) (k0_pay7 (F := Ideal) x0 x3) _)
  · exact slab_piece_upd xs0 (tileKV (k0_pay6 (F := Ideal) x0 x2) (k0_pay7 (F := Ideal) x0 x3)) 13 inb_S16x64x64_S1x64x64_13_0_0 inb_S16x64x64_S1x64x64_13_0_0 13 rfl _ _ rfl (pay_h13 (k0_pay6 (F := Ideal) x0 x2) (k0_pay7 (F := Ideal) x0 x3) _)
  · exact slab_piece_upd xs0 (tileKV (k0_pay6 (F := Ideal) x0 x2) (k0_pay7 (F := Ideal) x0 x3)) 12 inb_S16x64x64_S1x64x64_12_0_0 inb_S16x64x64_S1x64x64_12_0_0 12 rfl _ _ rfl (pay_h12 (k0_pay6 (F := Ideal) x0 x2) (k0_pay7 (F := Ideal) x0 x3) _)
  · exact slab_piece_upd xs0 (tileKV (k0_pay6 (F := Ideal) x0 x2) (k0_pay7 (F := Ideal) x0 x3)) 11 inb_S16x64x64_S1x64x64_11_0_0 inb_S16x64x64_S1x64x64_11_0_0 11 rfl _ _ rfl (pay_h11 (k0_pay6 (F := Ideal) x0 x2) (k0_pay7 (F := Ideal) x0 x3) _)
  · exact slab_piece_upd xs0 (tileKV (k0_pay6 (F := Ideal) x0 x2) (k0_pay7 (F := Ideal) x0 x3)) 10 inb_S16x64x64_S1x64x64_10_0_0 inb_S16x64x64_S1x64x64_10_0_0 10 rfl _ _ rfl (pay_h10 (k0_pay6 (F := Ideal) x0 x2) (k0_pay7 (F := Ideal) x0 x3) _)
  · exact slab_piece_upd xs0 (tileKV (k0_pay6 (F := Ideal) x0 x2) (k0_pay7 (F := Ideal) x0 x3)) 9 inb_S16x64x64_S1x64x64_9_0_0 inb_S16x64x64_S1x64x64_9_0_0 9 rfl _ _ rfl (pay_h9 (k0_pay6 (F := Ideal) x0 x2) (k0_pay7 (F := Ideal) x0 x3) _)
  · exact slab_piece_upd xs0 (tileKV (k0_pay6 (F := Ideal) x0 x2) (k0_pay7 (F := Ideal) x0 x3)) 8 inb_S16x64x64_S1x64x64_8_0_0 inb_S16x64x64_S1x64x64_8_0_0 8 rfl _ _ rfl (pay_h8 (k0_pay6 (F := Ideal) x0 x2) (k0_pay7 (F := Ideal) x0 x3) _)
  · exact slab_piece_upd xs0 (tileKV (k0_pay6 (F := Ideal) x0 x2) (k0_pay7 (F := Ideal) x0 x3)) 7 inb_S16x64x64_S1x64x64_7_0_0 inb_S16x64x64_S1x64x64_7_0_0 7 rfl _ _ rfl (pay_h7 (k0_pay6 (F := Ideal) x0 x2) (k0_pay7 (F := Ideal) x0 x3) _)
  · exact slab_piece_upd xs0 (tileKV (k0_pay6 (F := Ideal) x0 x2) (k0_pay7 (F := Ideal) x0 x3)) 6 inb_S16x64x64_S1x64x64_6_0_0 inb_S16x64x64_S1x64x64_6_0_0 6 rfl _ _ rfl (pay_h6 (k0_pay6 (F := Ideal) x0 x2) (k0_pay7 (F := Ideal) x0 x3) _)
  · exact slab_piece_upd xs0 (tileKV (k0_pay6 (F := Ideal) x0 x2) (k0_pay7 (F := Ideal) x0 x3)) 5 inb_S16x64x64_S1x64x64_5_0_0 inb_S16x64x64_S1x64x64_5_0_0 5 rfl _ _ rfl (pay_h5 (k0_pay6 (F := Ideal) x0 x2) (k0_pay7 (F := Ideal) x0 x3) _)
  · exact slab_piece_upd xs0 (tileKV (k0_pay6 (F := Ideal) x0 x2) (k0_pay7 (F := Ideal) x0 x3)) 4 inb_S16x64x64_S1x64x64_4_0_0 inb_S16x64x64_S1x64x64_4_0_0 4 rfl _ _ rfl (pay_h4 (k0_pay6 (F := Ideal) x0 x2) (k0_pay7 (F := Ideal) x0 x3) _)
  · exact slab_piece_upd xs0 (tileKV (k0_pay6 (F := Ideal) x0 x2) (k0_pay7 (F := Ideal) x0 x3)) 3 inb_S16x64x64_S1x64x64_3_0_0 inb_S16x64x64_S1x64x64_3_0_0 3 rfl _ _ rfl (pay_h3 (k0_pay6 (F := Ideal) x0 x2) (k0_pay7 (F := Ideal) x0 x3) _)
  · exact slab_piece_upd xs0 (tileKV (k0_pay6 (F := Ideal) x0 x2) (k0_pay7 (F := Ideal) x0 x3)) 2 inb_S16x64x64_S1x64x64_2_0_0 inb_S16x64x64_S1x64x64_2_0_0 2 rfl _ _ rfl (pay_h2 (k0_pay6 (F := Ideal) x0 x2) (k0_pay7 (F := Ideal) x0 x3) _)
  · exact slab_piece_upd xs0 (tileKV (k0_pay6 (F := Ideal) x0 x2) (k0_pay7 (F := Ideal) x0 x3)) 1 inb_S16x64x64_S1x64x64_1_0_0 inb_S16x64x64_S1x64x64_1_0_0 1 rfl _ _ rfl (pay_h1 x0 x2 (k0_pay7 (F := Ideal) x0 x3) _)
  · exact slab_piece_upd xs0 (tileKV (k0_pay6 (F := Ideal) x0 x2) (k0_pay7 (F := Ideal) x0 x3)) 0 inb_S16x64x64_S1x64x64_0_0_0 inb_S16x64x64_S1x64x64_0_0_0 0 rfl _ _ rfl (pay_h0 x0 x2 x3 _)

/-- At a batch's last tile the sixteen slab stores leave the same: what the accumulator held plus the tile's share. -/
theorem canon_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i) (x0 : Vec Ideal S1x1024x1024 .f32) (x1 : Vec Ideal S1024x1024 .bf16) (x2 : Vec Ideal S1024x1024 .bf16) (x3 : Vec Ideal S1024x1024 .bf16) (xs0 : Vec Ideal S16x64x64 .f32) (y : S16x64x64.Idx) :
    View.canon (kernelRun0_C (F := Ideal) c i arg2 harg2 arg3 harg3 arg4 harg4 arg5 harg5 arg6 harg6 arg7 harg7 arg8 harg8 hc0 hc1 x0 x1 x2 x3 xs0).2.2.1 y = xs0 y + (tileKV (k0_pay6 (F := Ideal) x0 x2) (k0_pay7 (F := Ideal) x0 x3)) (y 0) (y 1) (y 2) := by
  refine View.canon_apply_of_pieces (fun y : S16x64x64.Idx => xs0 y + (tileKV (k0_pay6 (F := Ideal) x0 x2) (k0_pay7 (F := Ideal) x0 x3)) (y 0) (y 1) (y 2)) _ ?_ y (scover0_C_0 c i arg2 harg2 arg3 harg3 arg4 harg4 arg5 harg5 arg6 harg6 arg7 harg7 arg8 harg8 hc0 hc1 x0 x1 x2 x3 xs0 y)
  unfold kernelRun0_C
  dsimp only
  sl_unfold_words
  simp only [View.readAt_eq_ld, harg2.read_unread, harg4.read_unread, harg5.read_unread, harg8.read_unread, View.ld_unit_zero (S := S1x1024x1024) hz3, View.ld_unit_zero (S := S1024x1024) hz2]
  intro p hp
  simp only [List.mem_cons, List.not_mem_nil, or_false] at hp
  rcases hp with rfl | rfl | rfl | rfl | rfl | rfl | rfl | rfl | rfl | rfl | rfl | rfl | rfl | rfl | rfl | rfl
  · exact slab_piece_upd xs0 (tileKV (k0_pay6 (F := Ideal) x0 x2) (k0_pay7 (F := Ideal) x0 x3)) 15 inb_S16x64x64_S1x64x64_15_0_0 inb_S16x64x64_S1x64x64_15_0_0 15 rfl _ _ rfl (pay_h15 (k0_pay6 (F := Ideal) x0 x2) (k0_pay7 (F := Ideal) x0 x3) _)
  · exact slab_piece_upd xs0 (tileKV (k0_pay6 (F := Ideal) x0 x2) (k0_pay7 (F := Ideal) x0 x3)) 14 inb_S16x64x64_S1x64x64_14_0_0 inb_S16x64x64_S1x64x64_14_0_0 14 rfl _ _ rfl (pay_h14 (k0_pay6 (F := Ideal) x0 x2) (k0_pay7 (F := Ideal) x0 x3) _)
  · exact slab_piece_upd xs0 (tileKV (k0_pay6 (F := Ideal) x0 x2) (k0_pay7 (F := Ideal) x0 x3)) 13 inb_S16x64x64_S1x64x64_13_0_0 inb_S16x64x64_S1x64x64_13_0_0 13 rfl _ _ rfl (pay_h13 (k0_pay6 (F := Ideal) x0 x2) (k0_pay7 (F := Ideal) x0 x3) _)
  · exact slab_piece_upd xs0 (tileKV (k0_pay6 (F := Ideal) x0 x2) (k0_pay7 (F := Ideal) x0 x3)) 12 inb_S16x64x64_S1x64x64_12_0_0 inb_S16x64x64_S1x64x64_12_0_0 12 rfl _ _ rfl (pay_h12 (k0_pay6 (F := Ideal) x0 x2) (k0_pay7 (F := Ideal) x0 x3) _)
  · exact slab_piece_upd xs0 (tileKV (k0_pay6 (F := Ideal) x0 x2) (k0_pay7 (F := Ideal) x0 x3)) 11 inb_S16x64x64_S1x64x64_11_0_0 inb_S16x64x64_S1x64x64_11_0_0 11 rfl _ _ rfl (pay_h11 (k0_pay6 (F := Ideal) x0 x2) (k0_pay7 (F := Ideal) x0 x3) _)
  · exact slab_piece_upd xs0 (tileKV (k0_pay6 (F := Ideal) x0 x2) (k0_pay7 (F := Ideal) x0 x3)) 10 inb_S16x64x64_S1x64x64_10_0_0 inb_S16x64x64_S1x64x64_10_0_0 10 rfl _ _ rfl (pay_h10 (k0_pay6 (F := Ideal) x0 x2) (k0_pay7 (F := Ideal) x0 x3) _)
  · exact slab_piece_upd xs0 (tileKV (k0_pay6 (F := Ideal) x0 x2) (k0_pay7 (F := Ideal) x0 x3)) 9 inb_S16x64x64_S1x64x64_9_0_0 inb_S16x64x64_S1x64x64_9_0_0 9 rfl _ _ rfl (pay_h9 (k0_pay6 (F := Ideal) x0 x2) (k0_pay7 (F := Ideal) x0 x3) _)
  · exact slab_piece_upd xs0 (tileKV (k0_pay6 (F := Ideal) x0 x2) (k0_pay7 (F := Ideal) x0 x3)) 8 inb_S16x64x64_S1x64x64_8_0_0 inb_S16x64x64_S1x64x64_8_0_0 8 rfl _ _ rfl (pay_h8 (k0_pay6 (F := Ideal) x0 x2) (k0_pay7 (F := Ideal) x0 x3) _)
  · exact slab_piece_upd xs0 (tileKV (k0_pay6 (F := Ideal) x0 x2) (k0_pay7 (F := Ideal) x0 x3)) 7 inb_S16x64x64_S1x64x64_7_0_0 inb_S16x64x64_S1x64x64_7_0_0 7 rfl _ _ rfl (pay_h7 (k0_pay6 (F := Ideal) x0 x2) (k0_pay7 (F := Ideal) x0 x3) _)
  · exact slab_piece_upd xs0 (tileKV (k0_pay6 (F := Ideal) x0 x2) (k0_pay7 (F := Ideal) x0 x3)) 6 inb_S16x64x64_S1x64x64_6_0_0 inb_S16x64x64_S1x64x64_6_0_0 6 rfl _ _ rfl (pay_h6 (k0_pay6 (F := Ideal) x0 x2) (k0_pay7 (F := Ideal) x0 x3) _)
  · exact slab_piece_upd xs0 (tileKV (k0_pay6 (F := Ideal) x0 x2) (k0_pay7 (F := Ideal) x0 x3)) 5 inb_S16x64x64_S1x64x64_5_0_0 inb_S16x64x64_S1x64x64_5_0_0 5 rfl _ _ rfl (pay_h5 (k0_pay6 (F := Ideal) x0 x2) (k0_pay7 (F := Ideal) x0 x3) _)
  · exact slab_piece_upd xs0 (tileKV (k0_pay6 (F := Ideal) x0 x2) (k0_pay7 (F := Ideal) x0 x3)) 4 inb_S16x64x64_S1x64x64_4_0_0 inb_S16x64x64_S1x64x64_4_0_0 4 rfl _ _ rfl (pay_h4 (k0_pay6 (F := Ideal) x0 x2) (k0_pay7 (F := Ideal) x0 x3) _)
  · exact slab_piece_upd xs0 (tileKV (k0_pay6 (F := Ideal) x0 x2) (k0_pay7 (F := Ideal) x0 x3)) 3 inb_S16x64x64_S1x64x64_3_0_0 inb_S16x64x64_S1x64x64_3_0_0 3 rfl _ _ rfl (pay_h3 (k0_pay6 (F := Ideal) x0 x2) (k0_pay7 (F := Ideal) x0 x3) _)
  · exact slab_piece_upd xs0 (tileKV (k0_pay6 (F := Ideal) x0 x2) (k0_pay7 (F := Ideal) x0 x3)) 2 inb_S16x64x64_S1x64x64_2_0_0 inb_S16x64x64_S1x64x64_2_0_0 2 rfl _ _ rfl (pay_h2 (k0_pay6 (F := Ideal) x0 x2) (k0_pay7 (F := Ideal) x0 x3) _)
  · exact slab_piece_upd xs0 (tileKV (k0_pay6 (F := Ideal) x0 x2) (k0_pay7 (F := Ideal) x0 x3)) 1 inb_S16x64x64_S1x64x64_1_0_0 inb_S16x64x64_S1x64x64_1_0_0 1 rfl _ _ rfl (pay_h1 x0 x2 (k0_pay7 (F := Ideal) x0 x3) _)
  · exact slab_piece_upd xs0 (tileKV (k0_pay6 (F := Ideal) x0 x2) (k0_pay7 (F := Ideal) x0 x3)) 0 inb_S16x64x64_S1x64x64_0_0_0 inb_S16x64x64_S1x64x64_0_0_0 0 rfl _ _ rfl (pay_h0 x0 x2 x3 _)

theorem scratch_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i) (x0 : Vec Ideal S1x1024x1024 .f32) (x1 : Vec Ideal S1024x1024 .bf16) (x2 : Vec Ideal S1024x1024 .bf16) (x3 : Vec Ideal S1024x1024 .bf16) (xs0 : Vec Ideal S16x64x64 .f32) (y : S16x64x64.Idx) :
    sout0_C_0 (F := Ideal) c i arg2 harg2 arg3 harg3 arg4 harg4 arg5 harg5 arg6 harg6 arg7 harg7 arg8 harg8 hc0 hc1 x0 x1 x2 x3 xs0 y = xs0 y + (tileKV (k0_pay6 (F := Ideal) x0 x2) (k0_pay7 (F := Ideal) x0 x3)) (y 0) (y 1) (y 2) := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  exact canon_C c i arg2 harg2 arg3 harg3 arg4 harg4 arg5 harg5 arg6 harg6 arg7 harg7 arg8 harg8 hc0 hc1 x0 x1 x2 x3 xs0 y

theorem tail_ix4 (z : Fin 1) (h : Fin 16) (d e : Fin 64) :
    (fun a : Fin 3 => (ix4 z h d e : S1x16x64x64.Idx) a.succ) = ix3 h d e := by
  funext a
  match a with
  | ⟨0, _⟩ => rfl
  | ⟨1, _⟩ => rfl
  | ⟨2, _⟩ => rfl

/-- At a batch's last tile the second output's block is the whole accumulator after the sixteen updates, under a unit
    leading axis. -/
theorem out5_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x16x64x64 .f32) (harg7 : arg7.IsWhole) (arg8 : Memref sig .tc .vmem S16x64x64 .f32) (harg8 : arg8.IsWhole) (hc0 : ¬cond0_0 i) (hc1 : cond0_1 i) (x0 : Vec Ideal S1x1024x1024 .f32) (x1 : Vec Ideal S1024x1024 .bf16) (x2 : Vec Ideal S1024x1024 .bf16) (x3 : Vec Ideal S1024x1024 .bf16) (xs0 : Vec Ideal S16x64x64 .f32)
    (z : Fin 1) (h : Fin 16) (d e : Fin 64) :
    out0_C_5 (F := Ideal) c i arg2 harg2 arg3 harg3 arg4 harg4 arg5 harg5 arg6 harg6 arg7 harg7 arg8 harg8 hc0 hc1 x0 x1 x2 x3 xs0 (ix4 z h d e) = xs0 (ix3 h d e) + (tileKV (k0_pay6 (F := Ideal) x0 x2) (k0_pay7 (F := Ideal) x0 x3)) h d e := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  rw [View.canon_unit_zero hz4]
  unfold k0_pay2
  refine (shapeCast_addUnit_apply ![16, 64, 64] _ _ (ix4 z h d e)).trans ?_
  refine (congrArg _ (tail_ix4 z h d e)).trans ?_
  unfold kernelRun0_C.sl.v168
  rw [View.readCov_eq_canon']
  show View.ld (View.canon _) (Rect.unit (s := S16x64x64) ![0, 0, 0] S16x64x64.size inb_S16x64x64_S16x64x64_0_0_0) (ix3 h d e) = _
  rw [View.ld_unit_zero (S := S16x64x64) hz3]
  exact canon_C c i arg2 harg2 arg3 harg3 arg4 harg4 arg5 harg5 arg6 harg6 arg7 harg7 arg8 harg8 hc0 hc1 x0 x1 x2 x3 xs0 (ix3 h d e)

/-! ## The accumulator after each grid point, and what a batch's last point writes back -/

section Points
variable (V : (c : Dev nD) → (b : Ref sig .tc) → Buf (Elt Ideal) ((c : Thread nD τ).loc b)) (c : Dev nD)

/-- The blocks the body finds at point t, at their literal types: the tile of x, and the three whole weight blocks. -/
abbrev xblk (t : Fin cfg0.N) : Vec Ideal S1x1024x1024 .f32 := iblk0 V c 0 t
abbrev qblk (t : Fin cfg0.N) : Vec Ideal S1024x1024 .bf16 := iblk0 V c 1 t
abbrev kblk (t : Fin cfg0.N) : Vec Ideal S1024x1024 .bf16 := iblk0 V c 2 t
abbrev vblk (t : Fin cfg0.N) : Vec Ideal S1024x1024 .bf16 := iblk0 V c 3 t

/-- Point t's share of the products at (h, d, e). -/
def tileAt (t : Fin cfg0.N) (h : Fin 16) (d e : Fin 64) : EReal :=
  tileKV (k0_pay6 (F := Ideal) (xblk V c t) (kblk V c t)) (k0_pay7 (F := Ideal) (xblk V c t) (vblk V c t)) h d e

/-- After a batch's first point the accumulator holds zero plus that point's share. -/
theorem scr_A (t : Fin cfg0.N) (h0 : t.val % 4 = 0) (y : S16x64x64.Idx) :
    (outsAt0 (F := Ideal) V c t.val t.isLt).2.2 y = 0 + tileAt V c t (y 0) (y 1) (y 2) := by
  have h1 : ¬t.val % 4 = 3 := by omega
  rw [outsAt0_A V c t h0 h1]
  dsimp only
  exact scratch_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (xblk V c t) (qblk V c t) (kblk V c t) (vblk V c t) y

/-- After a middle point it holds what the point before left plus this point's share. -/
theorem scr_B (t : Fin cfg0.N) (h0 : ¬t.val % 4 = 0) (h1 : ¬t.val % 4 = 3) (y : S16x64x64.Idx) :
    (outsAt0 (F := Ideal) V c t.val t.isLt).2.2 y = (outsAt0 (F := Ideal) V c (t.val - 1) (Nat.lt_of_le_of_lt (Nat.sub_le _ _) t.isLt)).2.2 y + tileAt V c t (y 0) (y 1) (y 2) := by
  rw [outsAt0_B V c t h0 h1]
  dsimp only
  exact scratch_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (xblk V c t) (qblk V c t) (kblk V c t) (vblk V c t) (outsAt0 (F := Ideal) V c (t.val - 1) (Nat.lt_of_le_of_lt (Nat.sub_le _ _) t.isLt)).2.2 y

/-- At a batch's last point the second output's block is what the point before left plus this point's share. -/
theorem out5_at (t : Fin cfg0.N) (h0 : ¬t.val % 4 = 0) (h1 : t.val % 4 = 3) (z : Fin 1) (h : Fin 16) (d e : Fin 64) :
    (outsAt0 (F := Ideal) V c t.val t.isLt).2.1 (ix4 z h d e) = (outsAt0 (F := Ideal) V c (t.val - 1) (Nat.lt_of_le_of_lt (Nat.sub_le _ _) t.isLt)).2.2 (ix3 h d e) + tileAt V c t h d e := by
  rw [outsAt0_C V c t h0 h1]
  dsimp only
  exact out5_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk V c t) (qblk V c t) (kblk V c t) (vblk V c t) (outsAt0 (F := Ideal) V c (t.val - 1) (Nat.lt_of_le_of_lt (Nat.sub_le _ _) t.isLt)).2.2 z h d e

/-- So a batch's last point writes back the four points' shares, added in point order onto zero. -/
theorem out5_batch (t : Fin cfg0.N) (h3 : t.val % 4 = 3) (z : Fin 1) (h : Fin 16) (d e : Fin 64)
    (t1 t2 t3 : Fin cfg0.N) (e1 : t1.val = t.val - 1) (e2 : t2.val = t.val - 1 - 1) (e3 : t3.val = t.val - 1 - 1 - 1) :
    (outsAt0 (F := Ideal) V c t.val t.isLt).2.1 (ix4 z h d e)
      = (((0 + tileAt V c t3 h d e) + tileAt V c t2 h d e) + tileAt V c t1 h d e) + tileAt V c t h d e := by
  obtain ⟨n1, hn1⟩ := t1
  obtain ⟨n2, hn2⟩ := t2
  obtain ⟨n3, hn3⟩ := t3
  dsimp only at e1 e2 e3
  subst e1 e2 e3
  have a1 := scr_B V c ⟨t.val - 1, hn1⟩ (by dsimp only; omega) (by dsimp only; omega) (ix3 h d e)
  have a2 := scr_B V c ⟨t.val - 1 - 1, hn2⟩ (by dsimp only; omega) (by dsimp only; omega) (ix3 h d e)
  have a3 := scr_A V c ⟨t.val - 1 - 1 - 1, hn3⟩ (by dsimp only; omega) (ix3 h d e)
  exact (out5_at V c t (by omega) h3 z h d e).trans (congrArg (· + tileAt V c t h d e)
    (a1.trans (congrArg (· + tileAt V c ⟨t.val - 1, hn1⟩ h d e)
      (a2.trans (congrArg (· + tileAt V c ⟨t.val - 1 - 1, hn2⟩ h d e) a3)))))

end Points

/-! ## From the blocks to the array -/

section Array
variable (V : (c : Dev nD) → (b : Ref sig .tc) → Buf (Elt Ideal) ((c : Thread nD τ).loc b)) (c : Dev nD)

/-- The printed index maps over the 16 points: x's block index is (batch, row tile, 0); the second output's is (batch, 0, 0, 0). -/
theorem idx_x : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx_wk : ∀ t : Fin cfg0.N, win0_2.index t (0 : Fin 2) = 0 ∧ win0_2.index t (1 : Fin 2) = 0 :=
  (by decide +kernel : ∀ t : Fin grid0.N, _)
theorem idx_wv : ∀ t : Fin cfg0.N, win0_3.index t (0 : Fin 2) = 0 ∧ win0_3.index t (1 : Fin 2) = 0 :=
  (by decide +kernel : ∀ t : Fin grid0.N, _)
theorem idx_kv : ∀ t : Fin cfg0.N, win0_5.index t (0 : Fin 4) = t.val / 4 ∧ win0_5.index t (1 : Fin 4) = 0 ∧ win0_5.index t (2 : Fin 4) = 0 ∧ win0_5.index t (3 : Fin 4) = 0 :=
  (by decide +kernel : ∀ t : Fin grid0.N, _)

/-- x's block at point t, at (0, r, d'), is x at (batch, row r of the tile, d'). -/
theorem xblk_apply (t : Fin cfg0.N) (b j : Fin 4) (hb : b.val = t.val / 4) (hj : j.val = t.val % 4) (r d' : Fin 1024) :
    xblk V c t (ix3 (0 : Fin 1) r d') = (V c main_arg0 : S4x4096x1024.Idx → EReal) (ix3 b (Cert.Spec.row j r) d') := by
  obtain ⟨i0, i1, i2⟩ := idx_x t
  show (V c main_arg0 : S4x4096x1024.Idx → EReal) (((cfg0.win 0).blk t).view.emb (ix3 (0 : Fin 1) r d')) = _
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * r.val = r.val + 1024 * j.val; omega
  | ⟨2, _⟩ => show win0_0.index t (2 : Fin 3) * 1024 + 1 * d'.val = d'.val; omega

/-- The key and value weights' blocks are the whole arrays. -/
theorem kblk_apply (t : Fin cfg0.N) (p q : Fin 1024) :
    kblk V c t (ix2 p q) = (V c main_v1 : S1024x1024.Idx → EReal) (ix2 p q) := by
  obtain ⟨i0, i1⟩ := idx_wk t
  show (V c main_v1 : S1024x1024.Idx → EReal) (((cfg0.win 2).blk t).view.emb (ix2 p q)) = _
  refine congrArg _ (funext fun a => Fin.ext ?_)
  match a with
  | ⟨0, _⟩ => show win0_2.index t (0 : Fin 2) * 1024 + 1 * p.val = p.val; omega
  | ⟨1, _⟩ => show win0_2.index t (1 : Fin 2) * 1024 + 1 * q.val = q.val; omega
theorem vblk_apply (t : Fin cfg0.N) (p q : Fin 1024) :
    vblk V c t (ix2 p q) = (V c main_v2 : S1024x1024.Idx → EReal) (ix2 p q) := by
  obtain ⟨i0, i1⟩ := idx_wv t
  show (V c main_v2 : S1024x1024.Idx → EReal) (((cfg0.win 3).blk t).view.emb (ix2 p q)) = _
  refine congrArg _ (funext fun a => Fin.ext ?_)
  match a with
  | ⟨0, _⟩ => show win0_3.index t (0 : Fin 2) * 1024 + 1 * p.val = p.val; omega
  | ⟨1, _⟩ => show win0_3.index t (1 : Fin 2) * 1024 + 1 * q.val = q.val; omega

/-- Point t's share is the sum over the tile's rows of the two projections' product. -/
theorem tileAt_eq (t : Fin cfg0.N) (b j : Fin 4) (hb : b.val = t.val / 4) (hj : j.val = t.val % 4) (h : Fin 16) (d e : Fin 64) :
    tileAt V c t h d e
      = ∑ r : Fin 1024, Cert.Spec.proj (V c main_arg0 : S4x4096x1024.Idx → EReal) (V c main_v1 : S1024x1024.Idx → EReal) b (Cert.Spec.row j r) (Cert.Spec.col h d)
          * Cert.Spec.proj (V c main_arg0 : S4x4096x1024.Idx → EReal) (V c main_v2 : S1024x1024.Idx → EReal) b (Cert.Spec.row j r) (Cert.Spec.col h e) := by
  unfold tileAt tileKV
  refine Finset.sum_congr rfl fun r _ => ?_
  refine congrArg₂ (· * ·) ?_ ?_
  · refine (pay6_apply (xblk V c t) (kblk V c t) r (Cert.Spec.col h d)).trans ?_
    unfold Cert.Spec.proj
    exact Finset.sum_congr rfl fun d' _ => congrArg₂ (· * ·) (xblk_apply V c t b j hb hj r d') (kblk_apply V c t d' (Cert.Spec.col h d))
  · refine (pay7_apply (xblk V c t) (vblk V c t) r (Cert.Spec.col h e)).trans ?_
    unfold Cert.Spec.proj
    exact Finset.sum_congr rfl fun d' _ => congrArg₂ (· * ·) (xblk_apply V c t b j hb hj r d') (vblk_apply V c t d' (Cert.Spec.col h e))

/-- An index of the products array is in point t's block iff each coordinate is in the block's range on its axis. -/
theorem mem_blk_kv (t : Fin cfg0.N) (i : S4x16x64x64.Idx) :
    i ∈ ((cfg0.win 5).blk t).view.set ↔ ∀ a : Fin 4, win0_5.index t a * S1x16x64x64.size a ≤ (i a).val ∧ (i a).val < win0_5.index t a * S1x16x64x64.size a + S1x16x64x64.size a := by
  show i ∈ ((View.whole main_v4_1).slice (win0_5.rect t)).set ↔ _
  rw [View.set_slice_whole, Rect.mem_set_unit]
  exact Iff.rfl

/-- What a batch's last point writes back is its block of the specification's products array. -/
theorem flushed_kv (t : Fin cfg0.N) (hf : (cfg0.win 5).flush t = true) :
    (dat0 (F := Ideal) V c).flushed 5 t = ((cfg0.win 5).blk t).view.read (Elt Ideal)
      (Cert.Spec.KVarr (V c main_arg0 : S4x4096x1024.Idx → EReal) (V c main_v1 : S1024x1024.Idx → EReal) (V c main_v2 : S1024x1024.Idx → EReal)) := by
  have h3 : t.val % 4 = 3 := (flush0_5 t).mp hf
  have hN : t.val < 16 := lt_of_lt_of_eq t.isLt (show cfg0.N = 16 from N_0)
  obtain ⟨i0, i1, i2, i3⟩ := idx_kv t
  show (cfg0.win 5).cut (grid0.coords t) ((dat0 (F := Ideal) V c).after 5 t) = _
  rw [after0_5]
  funext y
  obtain ⟨z, h, d, e, rfl⟩ : ∃ (z : Fin 1) (h : Fin 16) (d e : Fin 64), y = ix4 z h d e := ⟨y 0, y 1, y 2, y 3, eq_ix4 y⟩
  have hemb : ((cfg0.win 5).blk t).view.emb (ix4 z h d e) = (ix4 (⟨t.val / 4, by omega⟩ : Fin 4) h d e : S4x16x64x64.Idx) := by
    funext a
    apply Fin.ext
    match a with
    | ⟨0, _⟩ => show win0_5.index t (0 : Fin 4) * 1 + 1 * z.val = t.val / 4; have := z.isLt; omega
    | ⟨1, _⟩ => show win0_5.index t (1 : Fin 4) * 16 + 1 * h.val = h.val; omega
    | ⟨2, _⟩ => show win0_5.index t (2 : Fin 4) * 64 + 1 * d.val = d.val; omega
    | ⟨3, _⟩ => show win0_5.index t (3 : Fin 4) * 64 + 1 * e.val = e.val; omega
  show (outsAt0 (F := Ideal) V c t.val t.isLt).2.1 (ix4 z h d e) = Cert.Spec.KVarr _ _ _ (((cfg0.win 5).blk t).view.emb (ix4 z h d e))
  rw [hemb]
  show _ = Cert.Spec.kv _ _ _ (⟨t.val / 4, by omega⟩ : Fin 4) h d e
  unfold Cert.Spec.kv
  rw [Cert.Spec.sum_rows]
  have hlt : t.val < cfg0.N := t.isLt
  rw [out5_batch V c t h3 z h d e ⟨t.val - 1, by omega⟩ ⟨t.val - 1 - 1, by omega⟩ ⟨t.val - 1 - 1 - 1, by omega⟩ rfl rfl rfl]
  rw [tileAt_eq V c ⟨t.val - 1 - 1 - 1, by omega⟩ ⟨t.val / 4, by omega⟩ 0 (by show t.val / 4 = (t.val - 1 - 1 - 1) / 4; omega) (by show 0 = (t.val - 1 - 1 - 1) % 4; omega) h d e,
    tileAt_eq V c ⟨t.val - 1 - 1, by omega⟩ ⟨t.val / 4, by omega⟩ 1 (by show t.val / 4 = (t.val - 1 - 1) / 4; omega) (by show 1 = (t.val - 1 - 1) % 4; omega) h d e,
    tileAt_eq V c ⟨t.val - 1, by omega⟩ ⟨t.val / 4, by omega⟩ 2 (by show t.val / 4 = (t.val - 1) / 4; omega) (by show 2 = (t.val - 1) % 4; omega) h d e,
    tileAt_eq V c t ⟨t.val / 4, by omega⟩ 3 rfl (by show 3 = t.val % 4; omega) h d e]

/-- Every index (b, h, d, e) of the products array lies in the block of batch b's last point. -/
theorem cover_kv (i : S4x16x64x64.Idx) : ∃ t : Fin cfg0.N, (cfg0.win 5).flush t = true ∧ i ∈ ((cfg0.win 5).blk t).view.set := by
  have hN : cfg0.N = 16 := N_0
  have b0 : (i 0).val < 4 := (i 0).isLt
  have b1 : (i 1).val < 16 := (i 1).isLt
  have b2 : (i 2).val < 64 := (i 2).isLt
  have b3 : (i 3).val < 64 := (i 3).isLt
  refine ⟨⟨4 * (i 0).val + 3, by omega⟩, (flush0_5 _).mpr (by dsimp only; omega), ?_⟩
  obtain ⟨i0, i1, i2, i3⟩ := idx_kv ⟨4 * (i 0).val + 3, by omega⟩
  dsimp only at i0
  rw [mem_blk_kv]
  intro a
  match a with
  | ⟨0, _⟩ => show win0_5.index _ (0 : Fin 4) * 1 ≤ (i 0).val ∧ (i 0).val < win0_5.index _ (0 : Fin 4) * 1 + 1; omega
  | ⟨1, _⟩ => show win0_5.index _ (1 : Fin 4) * 16 ≤ (i 1).val ∧ (i 1).val < win0_5.index _ (1 : Fin 4) * 16 + 16; omega
  | ⟨2, _⟩ => show win0_5.index _ (2 : Fin 4) * 64 ≤ (i 2).val ∧ (i 2).val < win0_5.index _ (2 : Fin 4) * 64 + 64; omega
  | ⟨3, _⟩ => show win0_5.index _ (3 : Fin 4) * 64 ≤ (i 3).val ∧ (i 3).val < win0_5.index _ (3 : Fin 4) * 64 + 64; omega

end Array

theorem kv_arr (V : (c : Dev nD) → (b : Ref sig .tc) → Buf (Elt Ideal) ((c : Thread nD τ).loc b)) (c : Dev nD)
    (x : Cert.Spec.SX.Idx → EReal) (wk wv : Cert.Spec.SW.Idx → EReal)
    (hx : (V c main_arg0 : S4x4096x1024.Idx → EReal) = x) (hwk : (V c main_v1 : S1024x1024.Idx → EReal) = wk)
    (hwv : (V c main_v2 : S1024x1024.Idx → EReal) = wv) :
    ((dat0 (F := Ideal) V c).arrAt 5 cfg0.N : S4x16x64x64.Idx → EReal) = Cert.Spec.KVarr x wk wv := by
  subst hx hwk hwv
  exact (dat0 (F := Ideal) V c).arrAt_eq_of_cover 5 _ (fun t hf => flushed_kv V c t hf) (cover_kv)

end Cert.KernelIdeal.Val

end
-- ==== Proof.Val.OutArr.lean ====
/-
  The result array after region 1, over whatever query array q and per-head products array kvA the region finds. At every
  grid point it writes back the block (Σ_j ((Σ_d q(b, s, 64h+d) · kvA(b, h, d, e)) · c)[j = 64h+e] · wo(e', j)) of the
  point's 1024 rows; the 16 blocks tile the array.

  The steps: the one stored value of a grid point as a term of its three loaded blocks; that value at an index (0, r, e') —
  each of the sixteen per-head products is a plain 1024×64 by 64×64 product of a 64-column slice of the query tile with the
  head's 64×64 block, the sixteen laid side by side give, at column j, head j/64's product at its column j%64, scaled by c,
  and the last product contracts that row with row e' of the output weights; each loaded block as entries of its array
  (point t is batch t/4 and row tile t%4); so what point t writes back is block t of the specification, and the sixteen
  blocks cover the array.
-/
import proofs.«119639_j50508815401129_1_alg».proof.Proof.Fr.Data1
import proofs.«119639_j50508815401129_1_alg».proof.Proof.Val.Spec
import proofs.«119639_j50508815401129_1_alg».proof.Proof.LibPlainDot
import proofs.«119639_j50508815401129_1_alg».proof.Proof.LibDotT
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Idealize.ShloMosaic.Tactic
open Cert.KernelIdeal Cert.KernelIdeal.Gen Cert.KernelIdeal.Fr
open Cert.Spec (col headOf laneOf)

namespace OutArr

/-! ## The stored value of a grid point, over its loaded blocks -/

section Piece
variable {F : FTy → Type} [FloatOps F]

theorem zero_off2 : (![0, 0] : Fin 2 → Nat) = fun _ => 0 := funext fun a => by fin_cases a <;> rfl
theorem zero_off3 : (![0, 0, 0] : Fin 3 → Nat) = fun _ => 0 := funext fun a => by fin_cases a <;> rfl
theorem zero_off4 : (![0, 0, 0, 0] : Fin 4 → Nat) = fun _ => 0 := funext fun a => by fin_cases a <;> rfl

/-- The body's one store writes the whole result block, so what it leaves there is the stored value: the last product over
    the query tile x0, the batch's products x1 and the output weights x2, each read whole. -/
theorem out1_3_eq (c : Dev nD) (i : grid1.Coords) (arg2 : Memref sig .tc .vmem S1x1024x1024 .bf16) (harg2 : arg2.IsWhole) (arg3 : Memref sig .tc .vmem S1x16x64x64 .f32) (harg3 : arg3.IsWhole) (arg4 : Memref sig .tc .vmem S1024x1024 .bf16) (harg4 : arg4.IsWhole) (arg5 : Memref sig .tc .vmem S1x1024x1024 .f32) (harg5 : arg5.IsWhole)
    (x0 : Vec F S1x1024x1024 .bf16) (x1 : Vec F S1x16x64x64 .f32) (x2 : Vec F S1024x1024 .bf16) :
    out1_3 c i arg2 harg2 arg3 harg3 arg4 harg4 arg5 harg5 x0 x1 x2
      = k1_pay1 (k1_pay2 x0) (k1_pay3 x1) (k1_pay4 x0 x1) (k1_pay5 x0 x1) (k1_pay6 x0 x1) (k1_pay7 x0 x1) (k1_pay8 x0 x1) (k1_pay9 x0 x1) (k1_pay10 x0 x1) (k1_pay11 x0 x1) (k1_pay12 x0 x1) (k1_pay13 x0) x2 := by
  unfold out1_3
  rw [View.read_writes_eq_canon _ _ _ (cover1_3 c i arg2 harg2 arg3 harg3 arg4 harg4 arg5 harg5 x0 x1 x2)]
  unfold kernelRun1
  dsimp only
  sl_unfold_words
  rw [View.canon_unit_zero zero_off3]
  simp only [View.readAt_eq_ld, harg2.read_unread, harg3.read_unread, harg4.read_unread, View.ld_unit_zero (S := S1x1024x1024) zero_off3, View.ld_unit_zero (S := S1x16x64x64) zero_off4, View.ld_unit_zero (S := S1024x1024) zero_off2]

end Piece

/-! ## One head's product, and the sixteen side by side -/

/-- The per-head products' dimension numbers are a plain product's; the output projection contracts both second axes. -/
theorem isPlain_head : PlainDot.IsPlain dot_S1024x64_S64x64_S1024x64_1_0_0_1_n_n := ⟨rfl, rfl, rfl, rfl, rfl, rfl⟩
theorem isNT_proj : DotT.NT.Is dot_S1024x1024_S1024x1024_S1024x1024_1_1_0_0_n_n := ⟨rfl, rfl, rfl, rfl, rfl, rfl⟩

/-- Row p of a 1024×1024 tile l against head h's 64×64 block of r, at column e: Σ_d l(p, 64h+d) · r(h, d, e). -/
def hp (l : FVec Ideal S1024x1024 .bf16) (r : FVec Ideal S16x64x64 .bf16) (p : Fin 1024) (h : Fin 16) (e : Fin 64) : EReal :=
  ∑ d : Fin 64, l (ix2 p (col h d)) * r (ix3 h d e)

/-- A per-head product whose left operand is any 1024×64 tile agreeing, on row p, with the head's 64 columns of l, and whose
    right operand is block h cut out of r and viewed 64×64. -/
theorem head_prod_of (h : Fin 16) (hh : Nat) (hhh : hh = h.val)
    (hs3 : S16x64x64.Slices ![hh, 0, 0] S1x64x64) (hc : S1x64x64.ShapeCasts S64x64)
    (l : FVec Ideal S1024x1024 .bf16) (a : FVec Ideal S1024x64 .bf16) (r : FVec Ideal S16x64x64 .bf16) (p : Fin 1024)
    (ha : ∀ d : Fin 64, a (ix2 p d) = l (ix2 p (col h d))) (e : Fin 64) :
    matmul dot_S1024x64_S64x64_S1024x64_1_0_0_1_n_n none a
        (shapeCast S64x64 (extractStridedSlice S1x64x64 ![hh, 0, 0] r hs3) hc) (constant S1024x64 .f32 0x00000000#32) (ix2 p e)
      = hp l r p h e := by
  refine (PlainDot.matmul_zero_plain _ isPlain_head none _ _ p e).trans ?_
  unfold hp
  refine Finset.sum_congr rfl fun d _ => ?_
  refine congrArg₂ (· * ·) (ha d) ?_
  refine (shapeCast_1ab_ab_apply _ hc d e).trans ?_
  refine extractStridedSlice_apply _ r hs3 _ (ix3 h d e) fun a => ?_
  match a with
  | ⟨0, _⟩ => show h.val = hh + 0; omega
  | ⟨1, _⟩ => show d.val = 0 + d.val; omega
  | ⟨2, _⟩ => show e.val = 0 + e.val; omega

/-- The same with the left operand the 64 columns from column o = 64h cut out of l. -/
theorem head_prod (h : Fin 16) (o hh : Nat) (ho : o = 64 * h.val) (hhh : hh = h.val)
    (hs : S1024x1024.Slices ![0, o] S1024x64) (hs3 : S16x64x64.Slices ![hh, 0, 0] S1x64x64) (hc : S1x64x64.ShapeCasts S64x64)
    (l : FVec Ideal S1024x1024 .bf16) (r : FVec Ideal S16x64x64 .bf16) (p : Fin 1024) (e : Fin 64) :
    matmul dot_S1024x64_S64x64_S1024x64_1_0_0_1_n_n none (extractStridedSlice S1024x64 ![0, o] l hs)
        (shapeCast S64x64 (extractStridedSlice S1x64x64 ![hh, 0, 0] r hs3) hc) (constant S1024x64 .f32 0x00000000#32) (ix2 p e)
      = hp l r p h e :=
  head_prod_of h hh hhh hs3 hc l _ r p
    (fun d => slice2_axis1_apply o l hs p d (col h d) (by show 64 * h.val + d.val = o + d.val; omega)) e

/-- Sixteen 1024×64 pieces laid side by side along the columns: column j is piece j/64 at its column j%64. Stated over what
    each piece is on row p (a table A of head and lane). -/
theorem concat16_read {α : Type} (w0 w1 w2 w3 w4 w5 w6 w7 w8 w9 w10 w11 w12 w13 w14 w15 : S1024x64.Idx → α)
    (hcat : Shape.Concatenates (([⟨S1024x64, w0⟩, ⟨S1024x64, w1⟩, ⟨S1024x64, w2⟩, ⟨S1024x64, w3⟩, ⟨S1024x64, w4⟩, ⟨S1024x64, w5⟩, ⟨S1024x64, w6⟩, ⟨S1024x64, w7⟩, ⟨S1024x64, w8⟩, ⟨S1024x64, w9⟩, ⟨S1024x64, w10⟩, ⟨S1024x64, w11⟩, ⟨S1024x64, w12⟩, ⟨S1024x64, w13⟩, ⟨S1024x64, w14⟩, ⟨S1024x64, w15⟩] : List ((s : Shape) × (s.Idx → α))).map (·.1)) S1024x1024 1)
    (p : Fin 1024) (A : Fin 16 → Fin 64 → α)
    (h0 : ∀ e, w0 (ix2 p e) = A 0 e) (h1 : ∀ e, w1 (ix2 p e) = A 1 e) (h2 : ∀ e, w2 (ix2 p e) = A 2 e) (h3 : ∀ e, w3 (ix2 p e) = A 3 e)
    (h4 : ∀ e, w4 (ix2 p e) = A 4 e) (h5 : ∀ e, w5 (ix2 p e) = A 5 e) (h6 : ∀ e, w6 (ix2 p e) = A 6 e) (h7 : ∀ e, w7 (ix2 p e) = A 7 e)
    (h8 : ∀ e, w8 (ix2 p e) = A 8 e) (h9 : ∀ e, w9 (ix2 p e) = A 9 e) (h10 : ∀ e, w10 (ix2 p e) = A 10 e) (h11 : ∀ e, w11 (ix2 p e) = A 11 e)
    (h12 : ∀ e, w12 (ix2 p e) = A 12 e) (h13 : ∀ e, w13 (ix2 p e) = A 13 e) (h14 : ∀ e, w14 (ix2 p e) = A 14 e) (h15 : ∀ e, w15 (ix2 p e) = A 15 e)
    (j : Fin 1024) :
    concatenate S1024x1024 1 [⟨S1024x64, w0⟩, ⟨S1024x64, w1⟩, ⟨S1024x64, w2⟩, ⟨S1024x64, w3⟩, ⟨S1024x64, w4⟩, ⟨S1024x64, w5⟩, ⟨S1024x64, w6⟩, ⟨S1024x64, w7⟩, ⟨S1024x64, w8⟩, ⟨S1024x64, w9⟩, ⟨S1024x64, w10⟩, ⟨S1024x64, w11⟩, ⟨S1024x64, w12⟩, ⟨S1024x64, w13⟩, ⟨S1024x64, w14⟩, ⟨S1024x64, w15⟩] hcat (ix2 p j)
      = A (headOf j) (laneOf j) := by
  let f : Fin 16 → (S1024x64.Idx → α) := ![w0, w1, w2, w3, w4, w5, w6, w7, w8, w9, w10, w11, w12, w13, w14, w15]
  have hf : ∀ (h : Fin 16) (e : Fin 64), f h (ix2 p e) = A h e := by
    intro h e
    match h with
    | ⟨0, _⟩ => exact h0 e
    | ⟨1, _⟩ => exact h1 e
    | ⟨2, _⟩ => exact h2 e
    | ⟨3, _⟩ => exact h3 e
    | ⟨4, _⟩ => exact h4 e
    | ⟨5, _⟩ => exact h5 e
    | ⟨6, _⟩ => exact h6 e
    | ⟨7, _⟩ => exact h7 e
    | ⟨8, _⟩ => exact h8 e
    | ⟨9, _⟩ => exact h9 e
    | ⟨10, _⟩ => exact h10 e
    | ⟨11, _⟩ => exact h11 e
    | ⟨12, _⟩ => exact h12 e
    | ⟨13, _⟩ => exact h13 e
    | ⟨14, _⟩ => exact h14 e
    | ⟨15, _⟩ => exact h15 e
    | ⟨_ + 16, hlt⟩ => exact absurd hlt (Nat.not_lt.2 (Nat.le_add_left _ _))
  refine Eq.trans ?_ (hf (headOf j) (laneOf j))
  exact concatenate_ofFn_apply (t := S1024x1024) (s₁ := S1024x64) 1 f hcat rfl 64 rfl (ix2 p j) (headOf j) rfl (ix2 p (laneOf j)) rfl
    (fun b hb => by
      match b with
      | ⟨0, _⟩ => rfl
      | ⟨1, _⟩ => exact absurd rfl hb)

/-! ## The stored value at an index -/

/-- The stored value at (0, r, e'): the concatenated, scaled per-head products of row r against row e' of the output weights. -/
theorem pay1_apply (v1 : FVec Ideal S1024x1024 .bf16) (v4 : FVec Ideal S16x64x64 .bf16)
    (v8 v12 v16 v20 v24 v28 v32 v36 v40 : FVec Ideal S1024x64 .f32) (v41 : FVec Ideal S1024x64 .bf16) (v73 : Vec Ideal S1024x1024 .bf16)
    (r : Fin 1024)
    (h8 : ∀ e, v8 (ix2 r e) = hp v1 v4 r 0 e) (h12 : ∀ e, v12 (ix2 r e) = hp v1 v4 r 1 e) (h16 : ∀ e, v16 (ix2 r e) = hp v1 v4 r 2 e)
    (h20 : ∀ e, v20 (ix2 r e) = hp v1 v4 r 3 e) (h24 : ∀ e, v24 (ix2 r e) = hp v1 v4 r 4 e) (h28 : ∀ e, v28 (ix2 r e) = hp v1 v4 r 5 e)
    (h32 : ∀ e, v32 (ix2 r e) = hp v1 v4 r 6 e) (h36 : ∀ e, v36 (ix2 r e) = hp v1 v4 r 7 e) (h40 : ∀ e, v40 (ix2 r e) = hp v1 v4 r 8 e)
    (h41 : ∀ d : Fin 64, v41 (ix2 r d) = v1 (ix2 r (col 9 d)))
    (e' : Fin 1024) :
    k1_pay1 v1 v4 v8 v12 v16 v20 v24 v28 v32 v36 v40 v41 v73 (ix3 (0 : Fin 1) r e')
      = ∑ j : Fin 1024, (hp v1 v4 r (headOf j) (laneOf j) * Cert.Spec.c) * v73 (ix2 e' j) := by
  unfold k1_pay1
  refine (shapeCast_ab_1ab_apply _ _ (0 : Fin 1) r e').trans ?_
  refine (DotT.NT.matmul_zero _ isNT_proj none _ _ r e').trans ?_
  refine Finset.sum_congr rfl fun j _ => ?_
  refine congrArg₂ (· * ·) ?_ (congrFun (shapeCast_self v73 _) (ix2 e' j))
  refine (truncf_apply (φ := .f32) (ψ := .bf16) (mulf _ _) bitsLt_bf16_f32 (ix2 r j)).trans ?_
  refine (mulf_apply (φ := .f32) _ _ (ix2 r j)).trans ?_
  refine congrArg₂ (· * ·) ?_ rfl
  exact concat16_read _ _ _ _ _ _ _ _ _ _ _ _ _ _ _ _ _ r (hp v1 v4 r) h8 h12 h16 h20 h24 h28 h32 h36 h40
    (fun e => head_prod_of 9 9 rfl _ _ v1 v41 v4 r h41 e)
    (fun e => head_prod 10 640 10 rfl rfl _ _ _ v1 v4 r e)
    (fun e => head_prod 11 704 11 rfl rfl _ _ _ v1 v4 r e)
    (fun e => head_prod 12 768 12 rfl rfl _ _ _ v1 v4 r e)
    (fun e => head_prod 13 832 13 rfl rfl _ _ _ v1 v4 r e)
    (fun e => head_prod 14 896 14 rfl rfl _ _ _ v1 v4 r e)
    (fun e => head_prod 15 960 15 rfl rfl _ _ _ v1 v4 r e)
    j

/-! ## The body's other payloads at an index, over the loaded blocks -/

theorem pay2_apply (x0 : Vec Ideal S1x1024x1024 .bf16) (p j : Fin 1024) : k1_pay2 x0 (ix2 p j) = x0 (ix3 (0 : Fin 1) p j) := by
  unfold k1_pay2; exact shapeCast_1ab_ab_apply x0 _ p j

theorem pay3_apply (x1 : Vec Ideal S1x16x64x64 .f32) (h : Fin 16) (d e : Fin 64) :
    k1_pay3 x1 (ix3 h d e) = x1 (ix4 (0 : Fin 1) h d e) := by
  unfold k1_pay3
  exact (truncf_apply (φ := .f32) (ψ := .bf16) _ bitsLt_bf16_f32 (ix3 h d e)).trans (shapeCast_1abc_abc_apply x1 _ h d e)

theorem pay4_apply (x0 : Vec Ideal S1x1024x1024 .bf16) (x1 : Vec Ideal S1x16x64x64 .f32) (p : Fin 1024) (e : Fin 64) :
    k1_pay4 x0 x1 (ix2 p e) = hp (k1_pay2 x0) (k1_pay3 x1) p 0 e := by
  unfold k1_pay4; exact head_prod 0 0 0 rfl rfl _ _ _ (k1_pay2 x0) (k1_pay3 x1) p e
theorem pay5_apply (x0 : Vec Ideal S1x1024x1024 .bf16) (x1 : Vec Ideal S1x16x64x64 .f32) (p : Fin 1024) (e : Fin 64) :
    k1_pay5 x0 x1 (ix2 p e) = hp (k1_pay2 x0) (k1_pay3 x1) p 1 e := by
  unfold k1_pay5; exact head_prod 1 64 1 rfl rfl _ _ _ (k1_pay2 x0) (k1_pay3 x1) p e
theorem pay6_apply (x0 : Vec Ideal S1x1024x1024 .bf16) (x1 : Vec Ideal S1x16x64x64 .f32) (p : Fin 1024) (e : Fin 64) :
    k1_pay6 x0 x1 (ix2 p e) = hp (k1_pay2 x0) (k1_pay3 x1) p 2 e := by
  unfold k1_pay6; exact head_prod 2 128 2 rfl rfl _ _ _ (k1_pay2 x0) (k1_pay3 x1) p e
theorem pay7_apply (x0 : Vec Ideal S1x1024x1024 .bf16) (x1 : Vec Ideal S1x16x64x64 .f32) (p : Fin 1024) (e : Fin 64) :
    k1_pay7 x0 x1 (ix2 p e) = hp (k1_pay2 x0) (k1_pay3 x1) p 3 e := by
  unfold k1_pay7; exact head_prod 3 192 3 rfl rfl _ _ _ (k1_pay2 x0) (k1_pay3 x1) p e
theorem pay8_apply (x0 : Vec Ideal S1x1024x1024 .bf16) (x1 : Vec Ideal S1x16x64x64 .f32) (p : Fin 1024) (e : Fin 64) :
    k1_pay8 x0 x1 (ix2 p e) = hp (k1_pay2 x0) (k1_pay3 x1) p 4 e := by
  unfold k1_pay8; exact head_prod 4 256 4 rfl rfl _ _ _ (k1_pay2 x0) (k1_pay3 x1) p e
theorem pay9_apply (x0 : Vec Ideal S1x1024x1024 .bf16) (x1 : Vec Ideal S1x16x64x64 .f32) (p : Fin 1024) (e : Fin 64) :
    k1_pay9 x0 x1 (ix2 p e) = hp (k1_pay2 x0) (k1_pay3 x1) p 5 e := by
  unfold k1_pay9; exact head_prod 5 320 5 rfl rfl _ _ _ (k1_pay2 x0) (k1_pay3 x1) p e
theorem pay10_apply (x0 : Vec Ideal S1x1024x1024 .bf16) (x1 : Vec Ideal S1x16x64x64 .f32) (p : Fin 1024) (e : Fin 64) :
    k1_pay10 x0 x1 (ix2 p e) = hp (k1_pay2 x0) (k1_pay3 x1) p 6 e := by
  unfold k1_pay10; exact head_prod 6 384 6 rfl rfl _ _ _ (k1_pay2 x0) (k1_pay3 x1) p e
theorem pay11_apply (x0 : Vec Ideal S1x1024x1024 .bf16) (x1 : Vec Ideal S1x16x64x64 .f32) (p : Fin 1024) (e : Fin 64) :
    k1_pay11 x0 x1 (ix2 p e) = hp (k1_pay2 x0) (k1_pay3 x1) p 7 e := by
  unfold k1_pay11; exact head_prod 7 448 7 rfl rfl _ _ _ (k1_pay2 x0) (k1_pay3 x1) p e
theorem pay12_apply (x0 : Vec Ideal S1x1024x1024 .bf16) (x1 : Vec Ideal S1x16x64x64 .f32) (p : Fin 1024) (e : Fin 64) :
    k1_pay12 x0 x1 (ix2 p e) = hp (k1_pay2 x0) (k1_pay3 x1) p 8 e := by
  unfold k1_pay12; exact head_prod 8 512 8 rfl rfl _ _ _ (k1_pay2 x0) (k1_pay3 x1) p e
theorem pay13_apply (x0 : Vec Ideal S1x1024x1024 .bf16) (p : Fin 1024) (d : Fin 64) :
    k1_pay13 x0 (ix2 p d) = k1_pay2 x0 (ix2 p (col 9 d)) := by
  unfold k1_pay13
  exact slice2_axis1_apply 576 (k1_pay2 x0) _ p d (col 9 d) (by show 64 * 9 + d.val = 576 + d.val; omega)

/-- What a grid point stores at (0, r, e'), over its three loaded blocks. -/
theorem block_apply (x0 : Vec Ideal S1x1024x1024 .bf16) (x1 : Vec Ideal S1x16x64x64 .f32) (x2 : Vec Ideal S1024x1024 .bf16)
    (u : Fin 1) (r e' : Fin 1024) :
    k1_pay1 (k1_pay2 x0) (k1_pay3 x1) (k1_pay4 x0 x1) (k1_pay5 x0 x1) (k1_pay6 x0 x1) (k1_pay7 x0 x1) (k1_pay8 x0 x1) (k1_pay9 x0 x1) (k1_pay10 x0 x1) (k1_pay11 x0 x1) (k1_pay12 x0 x1) (k1_pay13 x0) x2 (ix3 u r e')
      = ∑ j : Fin 1024, ((∑ d : Fin 64, x0 (ix3 (0 : Fin 1) r (col (headOf j) d)) * x1 (ix4 (0 : Fin 1) (headOf j) d (laneOf j))) * Cert.Spec.c) * x2 (ix2 e' j) := by
  obtain rfl : u = 0 := Subsingleton.elim _ _
  refine (pay1_apply _ _ _ _ _ _ _ _ _ _ _ _ x2 r (pay4_apply x0 x1 r) (pay5_apply x0 x1 r) (pay6_apply x0 x1 r) (pay7_apply x0 x1 r)
    (pay8_apply x0 x1 r) (pay9_apply x0 x1 r) (pay10_apply x0 x1 r) (pay11_apply x0 x1 r) (pay12_apply x0 x1 r) (pay13_apply x0 r) e').trans ?_
  refine Finset.sum_congr rfl fun j _ => ?_
  refine congrArg (· * x2 (ix2 e' j)) (congrArg (· * Cert.Spec.c) ?_)
  unfold hp
  refine Finset.sum_congr rfl fun d _ => ?_
  exact congrArg₂ (· * ·) (pay2_apply x0 r _) (pay3_apply x1 _ d _)

/-! ## From the blocks to the array -/

/-- The printed index maps, decided over the 16 points: point t is batch t/4, row tile t%4; the query tile and the result
    tile sit at block index (t/4, t%4, 0), the batch's products at (t/4, 0, 0, 0), the output weights whole. -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 4) = t.val / 4 ∧ win1_1.index t (1 : Fin 4) = 0 ∧ win1_1.index t (2 : Fin 4) = 0 ∧ win1_1.index t (3 : Fin 4) = 0
    ∧ win1_2.index t (0 : Fin 2) = 0 ∧ win1_2.index t (1 : Fin 2) = 0
    ∧ win1_3.index t (0 : Fin 3) = t.val / 4 ∧ win1_3.index t (1 : Fin 3) = t.val % 4 ∧ win1_3.index t (2 : Fin 3) = 0 :=
  (by decide +kernel : ∀ t : Fin grid1.N, _)

/-- The batch of a grid point, and the array row of row r of its tile. -/
def batchAt (t : Fin cfg1.N) : Fin 4 := ⟨t.val / 4, by have h := t.isLt; have hN : cfg1.N = 16 := N_1; omega⟩
def rowAt (t : Fin cfg1.N) (r : Fin 1024) : Fin 4096 := ⟨1024 * (t.val % 4) + r.val, by omega⟩

section Blocks
variable (V : (c : Dev nD) → (b : Ref sig .tc) → Buf (Elt Ideal) ((c : Thread nD τ).loc b)) (c : Dev nD)

/-- The query tile at a point: rows 1024·(t%4) … of batch t/4. -/
theorem qblk_apply (t : Fin cfg1.N) (u : Fin 1) (r j : Fin 1024) :
    (iblk1 V c 0 t : Vec Ideal S1x1024x1024 .bf16) (ix3 u r j)
      = (V c main_v4_0 : S4x4096x1024.Idx → EReal) (ix3 (batchAt t) (rowAt t r) j) := by
  obtain ⟨e0, e1, e2, -⟩ := idx_facts1 t
  unfold iblk1
  rw [View.read_apply]
  show V c main_v4_0 _ = V c main_v4_0 _
  refine congrArg (V c main_v4_0) (funext fun a => Fin.ext ?_)
  match a with
  | ⟨0, _⟩ => show win1_0.index t (0 : Fin 3) * 1 + 1 * u.val = t.val / 4; rw [e0]; omega
  | ⟨1, _⟩ => show win1_0.index t (1 : Fin 3) * 1024 + 1 * r.val = 1024 * (t.val % 4) + r.val; rw [e1]; omega
  | ⟨2, _⟩ => show win1_0.index t (2 : Fin 3) * 1024 + 1 * j.val = j.val; rw [e2]; omega

/-- The products block at a point: batch t/4's sixteen 64×64 blocks. -/
theorem kvblk_apply (t : Fin cfg1.N) (u : Fin 1) (h : Fin 16) (d e : Fin 64) :
    (iblk1 V c 1 t : Vec Ideal S1x16x64x64 .f32) (ix4 u h d e)
      = (V c main_v4_1 : S4x16x64x64.Idx → EReal) (ix4 (batchAt t) h d e) := by
  obtain ⟨-, -, -, e0, e1, e2, e3, -⟩ := idx_facts1 t
  unfold iblk1
  rw [View.read_apply]
  show V c main_v4_1 _ = V c main_v4_1 _
  refine congrArg (V c main_v4_1) (funext fun a => Fin.ext ?_)
  match a with
  | ⟨0, _⟩ => show win1_1.index t (0 : Fin 4) * 1 + 1 * u.val = t.val / 4; rw [e0]; omega
  | ⟨1, _⟩ => show win1_1.index t (1 : Fin 4) * 16 + 1 * h.val = h.val; rw [e1]; omega
  | ⟨2, _⟩ => show win1_1.index t (2 : Fin 4) * 64 + 1 * d.val = d.val; rw [e2]; omega
  | ⟨3, _⟩ => show win1_1.index t (3 : Fin 4) * 64 + 1 * e.val = e.val; rw [e3]; omega

/-- The output weights' block is the whole matrix. -/
theorem woblk_apply (t : Fin cfg1.N) (e' j : Fin 1024) :
    (iblk1 V c 2 t : Vec Ideal S1024x1024 .bf16) (ix2 e' j) = (V c main_v3 : S1024x1024.Idx → EReal) (ix2 e' j) := by
  obtain ⟨-, -, -, -, -, -, -, e0, e1, -⟩ := idx_facts1 t
  unfold iblk1
  rw [View.read_apply]
  show V c main_v3 _ = V c main_v3 _
  refine congrArg (V c main_v3) (funext fun a => Fin.ext ?_)
  match a with
  | ⟨0, _⟩ => show win1_2.index t (0 : Fin 2) * 1024 + 1 * e'.val = e'.val; rw [e0]; omega
  | ⟨1, _⟩ => show win1_2.index t (1 : Fin 2) * 1024 + 1 * j.val = j.val; rw [e1]; omega

end Blocks

section Final
variable (V : (c : Dev nD) → (b : Ref sig .tc) → Buf (Elt Ideal) ((c : Thread nD τ).loc b)) (c : Dev nD)

/-- The specification's last two stages over the arrays the region finds. -/
abbrev Gof : S4x4096x1024.Idx → EReal :=
  Cert.Spec.Garr (V c main_v4_0 : S4x4096x1024.Idx → EReal) (V c main_v4_1 : S4x16x64x64.Idx → EReal) (V c main_v3 : S1024x1024.Idx → EReal)

/-- What a point leaves in the result's staging buffer: at (0, r, e') the specification at (t/4, 1024·(t%4)+r, e'). -/
theorem after3_eq (t : Fin cfg1.N) :
    ((dat1 (F := Ideal) V c).after 3 t : S1x1024x1024.Idx → EReal)
      = fun y => Gof V c (ix3 (batchAt t) (rowAt t (y 1)) (y 2)) := by
  rw [after1_3, out1_3_eq]
  funext y
  obtain ⟨u, r, e', rfl⟩ : ∃ (u : Fin 1) (r e' : Fin 1024), y = ix3 u r e' := ⟨y 0, y 1, y 2, eq_ix3 y⟩
  refine (block_apply (iblk1 V c 0 t) (iblk1 V c 1 t) (iblk1 V c 2 t) u r e').trans ?_
  show _ = Cert.Spec.outOf _ _ _ (batchAt t) (rowAt t r) e'
  unfold Cert.Spec.outOf Cert.Spec.attOf
  refine Finset.sum_congr rfl fun j _ => ?_
  exact congrArg₂ (· * ·)
    (congrArg (· * Cert.Spec.c) (Finset.sum_congr rfl fun d _ => congrArg₂ (· * ·) (qblk_apply V c t 0 r _) (kvblk_apply V c t 0 _ d _)))
    (woblk_apply V c t e' j)

/-- What point t writes back is block t of the specification. -/
theorem flushed3_eq (t : Fin cfg1.N) :
    (dat1 (F := Ideal) V c).flushed 3 t = ((cfg1.win 3).blk t).view.read (Elt Ideal) (Gof V c) := by
  show (cfg1.win 3).cut (grid1.coords t) ((dat1 (F := Ideal) V c).after 3 t) = _
  rw [after3_eq]
  obtain ⟨-, -, -, -, -, -, -, -, -, e0, e1, e2⟩ := idx_facts1 t
  funext y
  rw [View.read_apply]
  show Gof V c (ix3 (batchAt t) (rowAt t _) _) = Gof V c (((cfg1.win 3).blk t).view.emb y)
  refine congrArg (Gof V c) (funext fun a => Fin.ext ?_)
  match a with
  | ⟨0, _⟩ => show t.val / 4 = win1_3.index t (0 : Fin 3) * 1 + 1 * (y 0).val; have hy : (y 0).val < 1 := (y 0).isLt; rw [e0]; omega
  | ⟨1, _⟩ => show 1024 * (t.val % 4) + (y 1).val = win1_3.index t (1 : Fin 3) * 1024 + 1 * (y 1).val; rw [e1]; omega
  | ⟨2, _⟩ => show (y 2).val = win1_3.index t (2 : Fin 3) * 1024 + 1 * (y 2).val; rw [e2]; omega

/-- An index of the result array is in point t's block iff each coordinate is in the block's range on its axis. -/
theorem mem_blk3 (t : Fin cfg1.N) (i : S4x4096x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v5).slice (win1_3.rect t)).set ↔ _
  rw [View.set_slice_whole, Rect.mem_set_unit]
  exact Iff.rfl

/-- The sixteen blocks tile the array: (b, s, e') lies in the block of point 4·b + s/1024. -/
theorem cover3 (i : S4x4096x1024.Idx) : ∃ t : Fin cfg1.N, (cfg1.win 3).flush t = true ∧ i ∈ ((cfg1.win 3).blk t).view.set := by
  have hN : cfg1.N = 16 := N_1
  have h0 : (i 0).val < 4 := (i 0).isLt
  have h1 : (i 1).val < 4096 := (i 1).isLt
  have h2 : (i 2).val < 1024 := (i 2).isLt
  have ht : ∃ t : Fin cfg1.N, t.val = 4 * (i 0).val + (i 1).val / 1024 := ⟨⟨4 * (i 0).val + (i 1).val / 1024, by omega⟩, rfl⟩
  obtain ⟨t, ht⟩ := ht
  obtain ⟨-, -, -, -, -, -, -, -, -, e0, e1, e2⟩ := idx_facts1 t
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; rw [e0, ht]; omega
  | ⟨1, _⟩ => show win1_3.index t (1 : Fin 3) * 1024 ≤ (i 1).val ∧ (i 1).val < win1_3.index t (1 : Fin 3) * 1024 + 1024; rw [e1, ht]; omega
  | ⟨2, _⟩ => show win1_3.index t (2 : Fin 3) * 1024 ≤ (i 2).val ∧ (i 2).val < win1_3.index t (2 : Fin 3) * 1024 + 1024; rw [e2]; omega

end Final

end OutArr

open OutArr in
theorem out_arr (V : (c : Dev nD) → (b : Ref sig .tc) → Buf (Elt Ideal) ((c : Thread nD τ).loc b)) (c : Dev nD)
    (q : Cert.Spec.SX.Idx → EReal) (kvA : Cert.Spec.SKV.Idx → EReal) (wo : Cert.Spec.SW.Idx → EReal)
    (hq : (V c main_v4_0 : S4x4096x1024.Idx → EReal) = q) (hkv : (V c main_v4_1 : S4x16x64x64.Idx → EReal) = kvA)
    (hwo : (V c main_v3 : S1024x1024.Idx → EReal) = wo) :
    ((dat1 (F := Ideal) V c).arrAt 3 cfg1.N : S4x4096x1024.Idx → EReal) = Cert.Spec.Garr q kvA wo := by
  subst hq hkv hwo
  exact (dat1 (F := Ideal) V c).arrAt_eq_of_cover 3 (Gof V c) (fun t _ => flushed3_eq V c t) (cover3)

end Cert.KernelIdeal.Val
end
-- ==== Proof.Val.Bridge.lean ====
/-
  The idealized kernel's run ends with its result at the specification's function of the argument arrays: the result
  buffer holds what region 1's write-backs leave, which is the last two stages over the arrays region 0 left, which are the
  first two stages of x and the (cast) weights.
-/
import proofs.«119639_j50508815401129_1_alg».proof.Proof.Val.Host
import proofs.«119639_j50508815401129_1_alg».proof.Proof.Val.QArr
import proofs.«119639_j50508815401129_1_alg».proof.Proof.Val.KVArr
import proofs.«119639_j50508815401129_1_alg».proof.Proof.Val.OutArr

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (m : (ℓ : Loc nD τ sig) → Buf (Elt Ideal) ℓ) (ρ : Dev nD → PrngReg)

theorem result_eq (c : Dev nD) :
    (W3 (F := Ideal) m ρ c (Proc.devRef .tc main_v5) : S4x4096x1024.Idx → EReal)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Cert.Spec.G_eq]
  refine (W3_v5 m ρ c).trans ?_
  refine out_arr (V2 m ρ) c _ _ _ ?_ ?_ (V2_v3 m ρ c)
  · exact (V2_q m ρ c).trans (q_arr (V1 m ρ) c _ _ (V1_arg0 m ρ c) (V1_main_v0 m ρ c))
  · exact (V2_kv m ρ c).trans (kv_arr (V1 m ρ) c _ _ _ (V1_arg0 m ρ c) (V1_main_v1 m ρ c) (V1_main_v2 m ρ c))

theorem run_G : θ_run (defs (F := Ideal)) (onTc (τ := τ) (main (F := Ideal))) ⟨m, fun _ => 0, ρ⟩ (fun r => ∀ c : Dev nD,
      (r.2.mem ((c.tc : Thread nD τ).loc main_v5) : S4x4096x1024.Idx → EReal)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Val

end
-- ==== Proof.Val.Ref.lean ====
/-
  The reference's run ends with its result at the specification's function of the argument arrays: its three projections,
  the per-head Kᵀ·V over all rows, Q times it scaled by 1/√64 (which is 1/8 exactly), and the output projection, read index
  by index through the reshapes and transposes between them.
-/
import proofs.«119639_j50508815401129_1_alg».proof.Proof.Gen.ReferenceIdeal.Read
import proofs.«119639_j50508815401129_1_alg».proof.Proof.Val.Spec

noncomputable section

open scoped BigOperators

namespace Cert.ReferenceIdeal.RefValue

open Idealize.ShloMosaic Idealize.ShloMosaic.TcCoe Idealize.SL.Sem Idealize.ShloMosaic.ValueIdx
open Idealize.ShloMosaic.Pipeline (Dat)
open Cert.ReferenceIdeal Cert.ReferenceIdeal.Gen

/-! ## The scale: 1 / √64 is the pattern of 1/8 -/

/-- The pattern 0x42800000 denotes the real 64. -/
theorem ofBits_64 : Ideal.ofBits .f32 0x42800000#32 = ((64 : ℝ) : EReal) := by
  simp [Ideal.ofBits, Ideal.ieee, -EReal.coe_mul]; norm_num

/-- The pattern 0x3F800000 denotes the real 1. -/
theorem ofBits_1 : Ideal.ofBits .f32 0x3F800000#32 = ((1 : ℝ) : EReal) := by
  simp [Ideal.ofBits, Ideal.ieee, -EReal.coe_mul]; norm_num

/-- The pattern 0x3E000000 denotes the real 1/8. -/
theorem ofBits_eighth : Ideal.ofBits .f32 0x3E000000#32 = ((1 / 8 : ℝ) : EReal) := by
  simp [Ideal.ofBits, Ideal.ieee, -EReal.coe_mul]; norm_num

/-- √64 = 8, since 64 = 8². -/
theorem sqrt_64 : Real.sqrt 64 = 8 := by
  rw [show (64 : ℝ) = 8 ^ 2 by norm_num]; exact Real.sqrt_sq (by norm_num)

/-- The reference's scale 1.0 / sqrt(64.0) is the specification's scale: the quotient of 1 by the real 8 is the
    product 1 · (1/8), and 1/8 is what the specification's pattern denotes. -/
theorem scale_eq (i : S_.Idx) : Read.val_main_v10 (F := Ideal) i = Cert.Spec.c := by
  rw [Read.val_main_v10_apply, Read.val_main_v9_apply, Read.val_main_cst_apply, Read.val_main_cst_0_apply]
  rw [Ideal.hostDivf_def, Ideal.hostUnary_sqrt_def, Ideal.ofBits_def, Ideal.ofBits_def, ofBits_64, ofBits_1,
    Ideal.sqrt_coe, if_neg (by norm_num), sqrt_64, Ideal.div_coe (by norm_num : (8 : ℝ) ≠ 0)]
  rw [Cert.Spec.c, ofBits_eighth, ← EReal.coe_mul, one_mul]

/-! ## The three projections, and their per-head views -/

/-- A projection x·W at (b, s, e) is the sum over the contracted column d of x(b, s, d) · W(d, e). -/
theorem proj_at (x : (⟨S4x4096x1024, .f32⟩ : BufTy).Contents (Elt Ideal)) (w : (⟨S1024x1024, .f32⟩ : BufTy).Contents (Elt Ideal))
    (b : Fin 4) (s : Fin 4096) (e : Fin 1024) :
    Read.val_main_v0 (F := Ideal) x w (ix3 b s e) = Cert.Spec.proj x w b s e := by
  rw [Read.val_main_v0_apply]
  unfold Cert.Spec.proj
  refine Finset.sum_congr rfl fun k _ => ?_
  rw [show Read.lidx_main_v0 (ix3 b s e) k = ix3 b s k from
        funext fun a => Fin.ext (by match a with | ⟨0, _⟩ => rfl | ⟨1, _⟩ => rfl | ⟨2, _⟩ => rfl),
      show Read.ridx_main_v0 (ix3 b s e) k = ix2 k e from
        funext fun a => Fin.ext (by match a with | ⟨0, _⟩ => rfl | ⟨1, _⟩ => rfl)]

/-- Row-major arithmetic of the split of the 1024 columns into 16 heads of 64 lanes: entry (b, h, s, d) of the
    transposed reshape is entry (b, s, 64·h + d) of the projection. -/
theorem split_idx (b : Fin 4) (h : Fin 16) (s : Fin 4096) (d : Fin 64) :
    Read.idx_main_v1 (Read.idx_main_v2 (ix4 b h s d)) = ix3 b s (Cert.Spec.col h d) := by
  have hb := b.isLt; have hh := h.isLt; have hs := s.isLt; have hd := d.isLt
  refine funext fun a => Fin.ext ?_
  match a with
  | ⟨0, _⟩ => show (((b.val * 4096 + s.val) * 16 + h.val) * 64 + d.val) / 4194304 = b.val; omega
  | ⟨1, _⟩ => show (((b.val * 4096 + s.val) * 16 + h.val) * 64 + d.val) / 1024 % 4096 = s.val; omega
  | ⟨2, _⟩ => show (((b.val * 4096 + s.val) * 16 + h.val) * 64 + d.val) % 1024 = 64 * h.val + d.val; omega

/-- The per-head view of a projection: (b, h, s, d) reads the projection at (b, s, 64·h + d). -/
theorem head_at (x : (⟨S4x4096x1024, .f32⟩ : BufTy).Contents (Elt Ideal)) (w : (⟨S1024x1024, .f32⟩ : BufTy).Contents (Elt Ideal))
    (b : Fin 4) (h : Fin 16) (s : Fin 4096) (d : Fin 64) :
    Read.val_main_v2 (F := Ideal) x w (ix4 b h s d) = Cert.Spec.proj x w b s (Cert.Spec.col h d) := by
  rw [Read.val_main_v2_apply, Read.val_main_v1_apply, split_idx, proj_at]

/-! ## The per-head products Kᵀ·V -/

/-- Entry (b, h, d, e) of Kᵀ·V sums over all 4096 rows s the product K(b, s, 64h+d) · V(b, s, 64h+e). -/
theorem kv_at (x : (⟨S4x4096x1024, .f32⟩ : BufTy).Contents (Elt Ideal)) (wk wv : (⟨S1024x1024, .f32⟩ : BufTy).Contents (Elt Ideal))
    (b : Fin 4) (h : Fin 16) (d e : Fin 64) :
    Read.val_main_v11 (F := Ideal) x wk wv (ix4 b h d e) = Cert.Spec.kv x wk wv b h d e := by
  rw [Read.val_main_v11_apply]
  unfold Cert.Spec.kv
  refine Finset.sum_congr rfl fun k _ => ?_
  rw [show Read.lidx_main_v11 (ix4 b h d e) k = ix4 b h k d from
        funext fun a => Fin.ext (by match a with | ⟨0, _⟩ => rfl | ⟨1, _⟩ => rfl | ⟨2, _⟩ => rfl | ⟨3, _⟩ => rfl),
      show Read.ridx_main_v11 (ix4 b h d e) k = ix4 b h k e from
        funext fun a => Fin.ext (by match a with | ⟨0, _⟩ => rfl | ⟨1, _⟩ => rfl | ⟨2, _⟩ => rfl | ⟨3, _⟩ => rfl)]
  exact congrArg₂ (· * ·) (head_at x wk b h k d) (head_at x wv b h k e)

/-! ## Q times Kᵀ·V, scaled -/

/-- Entry (b, h, s, e) of the scaled product sums over the lane d the product Q(b, s, 64h+d) · kv(b, h, d, e), times the scale. -/
theorem att_at (x : (⟨S4x4096x1024, .f32⟩ : BufTy).Contents (Elt Ideal)) (wq wk wv : (⟨S1024x1024, .f32⟩ : BufTy).Contents (Elt Ideal))
    (b : Fin 4) (h : Fin 16) (s : Fin 4096) (e : Fin 64) :
    Read.val_main_v14 (F := Ideal) x wq wk wv (ix4 b h s e) = Cert.Spec.att x wq wk wv b s h e := by
  rw [Read.val_main_v14_apply, Read.val_main_v12_apply, Read.val_main_v13_apply, scale_eq, Ideal.mulf_def]
  unfold Cert.Spec.att
  refine congrArg (· * Cert.Spec.c) (Finset.sum_congr rfl fun k _ => ?_)
  rw [show Read.lidx_main_v12 (ix4 b h s e) k = ix4 b h s k from
        funext fun a => Fin.ext (by match a with | ⟨0, _⟩ => rfl | ⟨1, _⟩ => rfl | ⟨2, _⟩ => rfl | ⟨3, _⟩ => rfl),
      show Read.ridx_main_v12 (ix4 b h s e) k = ix4 b h k e from
        funext fun a => Fin.ext (by match a with | ⟨0, _⟩ => rfl | ⟨1, _⟩ => rfl | ⟨2, _⟩ => rfl | ⟨3, _⟩ => rfl),
      head_at, kv_at]

/-! ## The output projection -/

/-- Row-major arithmetic of the merge of 16 heads of 64 lanes back into 1024 columns: column j of row (b, s) is
    lane j % 64 of head j / 64. -/
theorem merge_idx (b : Fin 4) (s : Fin 4096) (j : Fin 1024) :
    Read.idx_main_v15 (Read.idx_main_v16 (ix3 b s j)) = ix4 b (Cert.Spec.headOf j) s (Cert.Spec.laneOf j) := by
  have hb := b.isLt; have hs := s.isLt; have hj := j.isLt
  refine funext fun a => Fin.ext ?_
  match a with
  | ⟨0, _⟩ => show ((b.val * 4096 + s.val) * 1024 + j.val) / 4194304 = b.val; omega
  | ⟨1, _⟩ => show ((b.val * 4096 + s.val) * 1024 + j.val) / 64 % 16 = j.val / 64; omega
  | ⟨2, _⟩ => show ((b.val * 4096 + s.val) * 1024 + j.val) / 1024 % 4096 = s.val; omega
  | ⟨3, _⟩ => show ((b.val * 4096 + s.val) * 1024 + j.val) % 64 = j.val % 64; omega

/-- Entry (b, s, e) of the result sums over the column j the scaled product at (b, s, head j/64, lane j%64) times Wo(e, j). -/
theorem out_at (x : (⟨S4x4096x1024, .f32⟩ : BufTy).Contents (Elt Ideal)) (wq wk wv wo : (⟨S1024x1024, .f32⟩ : BufTy).Contents (Elt Ideal))
    (b : Fin 4) (s : Fin 4096) (e : Fin 1024) :
    Read.val_main_v17 (F := Ideal) x wq wk wv wo (ix3 b s e) = Cert.Spec.out x wq wk wv wo b s e := by
  rw [Read.val_main_v17_apply]
  unfold Cert.Spec.out
  refine Finset.sum_congr rfl fun k _ => ?_
  rw [show Read.lidx_main_v17 (ix3 b s e) k = ix3 b s k from
        funext fun a => Fin.ext (by match a with | ⟨0, _⟩ => rfl | ⟨1, _⟩ => rfl | ⟨2, _⟩ => rfl),
      show Read.ridx_main_v17 (ix3 b s e) k = ix2 e k from
        funext fun a => Fin.ext (by match a with | ⟨0, _⟩ => rfl | ⟨1, _⟩ => rfl),
      Read.val_main_v16_apply, Read.val_main_v15_apply, merge_idx, att_at]

/-- The reference's last stage is the specification's function of the five argument arrays. -/
theorem stage_eq_G (x : (⟨S4x4096x1024, .f32⟩ : BufTy).Contents (Elt Ideal)) (wq wk wv wo : (⟨S1024x1024, .f32⟩ : BufTy).Contents (Elt Ideal)) :
    Read.val_main_v17 (F := Ideal) x wq wk wv wo = Cert.Spec.G x wq wk wv wo := by
  funext i
  obtain ⟨b, s, e, rfl⟩ : ∃ (b : Fin 4) (s : Fin 4096) (e : Fin 1024), i = ix3 b s e := ⟨i 0, i 1, i 2, eq_ix3 i⟩
  exact out_at x wq wk wv wo b s e

/-- The reference's run: its result is the run's composed term, which is the last stage, which is the specification's
    function of the argument arrays; the arguments are unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v17) : S4x4096x1024.Idx → EReal)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((Read.val_main_v17_eq _ _ _ _ _).trans (stage_eq_G _ _ _ _ _)), (h c).2⟩)
    (Cert.ReferenceIdeal.Value.run (F := Ideal) m ρ)

end Cert.ReferenceIdeal.RefValue

end
-- ==== Proof.lean ====
/-
  The certificate. Both kernel programs' frames are the several-region run with the arguments read back (the same text
  at the word level and over the extended reals); the reference's frame is its run with the result dropped; the ideal pass
  rewrote nothing, so the kernel's idealization is its own text; and over the extended reals both programs end with the
  one function `Cert.Spec.G` of the argument arrays — linear attention per head, (Q·(Kᵀ·V))·(1/8), projected through the
  output weights — the kernel by accumulating Kᵀ·V tile by tile, the reference in one sum over all rows.
-/
import proofs.«119639_j50508815401129_1_alg».proof.Defs
import proofs.«119639_j50508815401129_1_alg».proof.Proof.FrK.Main
import proofs.«119639_j50508815401129_1_alg».proof.Proof.Val.Bridge
import proofs.«119639_j50508815401129_1_alg».proof.Proof.Val.Ref
import proofs.«119639_j50508815401129_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Fr.frame m ρ
theorem frame_pi : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.RefValue.run_G m ρ)
theorem preserves : Cert.preserves_Kernel_KernelIdeal := trivial

theorem algebraic : Cert.algebraic_KernelIdeal_ReferenceIdeal := by
  intro m ρ m' ρ' _ hagree
  refine ⟨_, Cert.KernelIdeal.Val.run_G m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
